-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40960 : Shape := ⟨1, ![40960]⟩
abbrev S8192 : Shape := ⟨1, ![8192]⟩
abbrev S1024 : Shape := ⟨1, ![1024]⟩
abbrev S4096 : Shape := ⟨1, ![4096]⟩
abbrev S1024x8192 : Shape := ⟨2, ![1024, 8192]⟩
abbrev S4096x40960 : Shape := ⟨2, ![4096, 40960]⟩
abbrev S100000x128 : Shape := ⟨2, ![100000, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S4096x40960 : S_.BroadcastsInDim S4096x40960 (![] : Fin 0 → Fin S4096x40960.rank)
  reducesTo_S4096x40960_S_d0_1 : S4096x40960.ReducesTo [0, 1] S_
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg19 : FVec F S1 .f32) (main_v63 : IVec S_ 1) (main_v67 : IVec S_ 1) : IVec S_ 1 :=
  let main_v68 : IVec S_ 1 := andi main_v63 main_v67
  let main_v69 : FVec F S1 .f32 := Host.absf main_arg19
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg16 : FVec F S16x8 .f32) (main_arg17 : FVec F S8 .f32) (main_arg18 : FVec F S8x1 .f32) (main_arg19 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x8 .f32 := Host.absf main_arg16
  let main_cst_20 : FVec F S_ .f32 := constant S_ .f32 0x7F800000#32
  let main_v55 : FVec F S16x8 .f32 := broadcastInDim S16x8 ![] bcast_S_S16x8 main_cst_20
  let main_v56 : IVec S16x8 1 := cmpf .olt main_v54 main_v55
  let main_c_21 : IVec S_ 1 := constantI S_ 1 1#1
  let main_v57 : IVec S_ 1 := (fun x v => Host.reduce IntOp.andi x v reducesTo_S16x8_S_d0_1 h_S_) main_v56 main_c_21
  let main_v58 : IVec S_ 1 := andi main_v53 main_v57
  let main_v59 : FVec F S8 .f32 := Host.absf main_arg17
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8x1 .f32 := Host.absf main_arg18
  let main_cst_24 : FVec F S_ .f32 := constant S_ .f32 0x7F800000#32
  let main_v65 : FVec F S8x1 .f32 := broadcastInDim S8x1 ![] bcast_S_S8x1 main_cst_24
  let main_v66 : IVec S8x1 1 := cmpf .olt main_v64 main_v65
  let main_c_25 : IVec S_ 1 := constantI S_ 1 1#1
  let main_v67 : IVec S_ 1 := (fun x v => Host.reduce IntOp.andi x v reducesTo_S8x1_S_d0_1 h_S_) main_v66 main_c_25
  fn_part4 (F := F) main_arg19 main_v63 main_v67

def fn_part2 {F : FTy → Type} [FloatOps F] (main_arg12 : FVec F S64x32 .f32) (main_arg13 : FVec F S32 .f32) (main_arg14 : FVec F S32x16 .f32) (main_arg15 : FVec F S16 .f32) (main_arg16 : FVec F S16x8 .f32) (main_arg17 : FVec F S8 .f32) (main_arg18 : FVec F S8x1 .f32) (main_arg19 : FVec F S1 .f32) (main_v33 : IVec S_ 1) : IVec S_ 1 :=
  let main_v34 : FVec F S64x32 .f32 := Host.absf main_arg12
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg13
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg14
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg15
  let main_cst_18 : FVec F S_ .f32 := constant S_ .f32 0x7F800000#32
  let main_v50 : FVec F S16 .f32 := broadcastInDim S16 ![] bcast_S_S16 main_cst_18
  fn_part3 (F := F) main_arg16 main_arg17 main_arg18 main_arg19 main_v48 main_v49 main_v50

def fn_part1 {F : FTy → Type} [FloatOps F] (main_arg9 : FVec F S256x128 .f32) (main_arg10 : FVec F S128x64 .f32) (main_arg11 : FVec F S64 .f32) (main_arg12 : FVec F S64x32 .f32) (main_arg13 : FVec F S32 .f32) (main_arg14 : FVec F S32x16 .f32) (main_arg15 : FVec F S16 .f32) (main_arg16 : FVec F S16x8 .f32) (main_arg17 : FVec F S8 .f32) (main_arg18 : FVec F S8x1 .f32) (main_arg19 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg9
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x64 .f32 := Host.absf main_arg10
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg11
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg12 main_arg13 main_arg14 main_arg15 main_arg16 main_arg17 main_arg18 main_arg19 main_v33

def fn {F : FTy → Type} [FloatOps F] (main_arg0 : IVec S40960 32) (main_arg1 : IVec S8192 32) (main_arg2 : IVec S40960 32) (main_arg3 : IVec S1024 32) (main_arg4 : IVec S4096 32) (main_arg5 : FVec F S1024x8192 .f32) (main_arg6 : FVec F S4096x40960 .f32) (main_arg7 : FVec F S100000x128 .f32) (main_arg8 : FVec F S256x128 .f32) (main_arg9 : FVec F S256x128 .f32) (main_arg10 : FVec F S128x64 .f32) (main_arg11 : FVec F S64 .f32) (main_arg12 : FVec F S64x32 .f32) (main_arg13 : FVec F S32 .f32) (main_arg14 : FVec F S32x16 .f32) (main_arg15 : FVec F S16 .f32) (main_arg16 : FVec F S16x8 .f32) (main_arg17 : FVec F S8 .f32) (main_arg18 : FVec F S8x1 .f32) (main_arg19 : FVec F S1 .f32) : IVec S_ 1 :=
  let main_v0 : FVec F S1024x8192 .f32 := Host.absf main_arg5
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S4096x40960 .f32 := Host.absf main_arg6
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S100000x128 .f32 := Host.absf main_arg7
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S256x128 .f32 := Host.absf main_arg8
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg9 main_arg10 main_arg11 main_arg12 main_arg13 main_arg14 main_arg15 main_arg16 main_arg17 main_arg18 main_arg19 main_v13 main_v16
-- ==== Kernel.lean ====
abbrev S40960 : Shape := ⟨1, ![40960]⟩
abbrev S8192 : Shape := ⟨1, ![8192]⟩
abbrev S1024 : Shape := ⟨1, ![1024]⟩
abbrev S4096 : Shape := ⟨1, ![4096]⟩
abbrev S1024x8192 : Shape := ⟨2, ![1024, 8192]⟩
abbrev S4096x40960 : Shape := ⟨2, ![4096, 40960]⟩
abbrev S100000x128 : Shape := ⟨2, ![100000, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩
abbrev S40960x1 : Shape := ⟨2, ![40960, 1]⟩
abbrev S40960x128 : Shape := ⟨2, ![40960, 128]⟩
abbrev S4096x1 : Shape := ⟨2, ![4096, 1]⟩
abbrev S4096x128 : Shape := ⟨2, ![4096, 128]⟩
abbrev S128x128 : Shape := ⟨2, ![128, 128]⟩
abbrev S1024x2048 : Shape := ⟨2, ![1024, 2048]⟩
abbrev S2048x128 : Shape := ⟨2, ![2048, 128]⟩
abbrev S1024x128 : Shape := ⟨2, ![1024, 128]⟩
abbrev S1024x1 : Shape := ⟨2, ![1024, 1]⟩
abbrev S8192x1 : Shape := ⟨2, ![8192, 1]⟩
abbrev S8192x128 : Shape := ⟨2, ![8192, 128]⟩
abbrev S1024x64 : Shape := ⟨2, ![1024, 64]⟩
abbrev S1x64 : Shape := ⟨2, ![1, 64]⟩
abbrev S1024x32 : Shape := ⟨2, ![1024, 32]⟩
abbrev S1x32 : Shape := ⟨2, ![1, 32]⟩
abbrev S1024x16 : Shape := ⟨2, ![1024, 16]⟩
abbrev S1x16 : Shape := ⟨2, ![1, 16]⟩
abbrev S1024x8 : Shape := ⟨2, ![1024, 8]⟩
abbrev S1x8 : Shape := ⟨2, ![1, 8]⟩
abbrev S1x1 : Shape := ⟨2, ![1, 1]⟩

abbrev nBuf : Space → Nat
  | .hbm => 125
  | .vmem => 20
  | .smem => 0
  | _ => 0

abbrev bufTy : (tb : Table) → Fin (tcTables nBuf tb) → BufTy
  | .hbm, ⟨0, _⟩ => ⟨S40960, .i32⟩
  | .hbm, ⟨1, _⟩ => ⟨S8192, .i32⟩
  | .hbm, ⟨2, _⟩ => ⟨S40960, .i32⟩
  | .hbm, ⟨3, _⟩ => ⟨S1024, .i32⟩
  | .hbm, ⟨4, _⟩ => ⟨S4096, .i32⟩
  | .hbm, ⟨5, _⟩ => ⟨S1024x8192, .f32⟩
  | .hbm, ⟨6, _⟩ => ⟨S4096x40960, .f32⟩
  | .hbm, ⟨7, _⟩ => ⟨S100000x128, .f32⟩
  | .hbm, ⟨8, _⟩ => ⟨S256x128, .f32⟩
  | .hbm, ⟨9, _⟩ => ⟨S256x128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x16, .f32⟩
  | .hbm, ⟨15, _⟩ => ⟨S16, .f32⟩
  | .hbm, ⟨16, _⟩ => ⟨S16x8, .f32⟩
  | .hbm, ⟨17, _⟩ => ⟨S8, .f32⟩
  | .hbm, ⟨18, _⟩ => ⟨S8x1, .f32⟩
  | .hbm, ⟨19, _⟩ => ⟨S1, .f32⟩
  | .hbm, ⟨20, _⟩ => ⟨S_, .i32⟩
  | .hbm, ⟨21, _⟩ => ⟨S40960, .i32⟩
  | .hbm, ⟨22, _⟩ => ⟨S40960, .i1⟩
  | .hbm, ⟨23, _⟩ => ⟨S_, .i32⟩
  | .hbm, ⟨24, _⟩ => ⟨S40960, .i32⟩
  | .hbm, ⟨25, _⟩ => ⟨S40960, .i32⟩
  | .hbm, ⟨26, _⟩ => ⟨S40960, .i32⟩
  | .hbm, ⟨27, _⟩ => ⟨S40960x1, .i32⟩
  | .hbm, ⟨28, _⟩ => ⟨S40960x128, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x128, .f32⟩
  | .hbm, ⟨38, _⟩ => ⟨S_, .i32⟩
  | .hbm, ⟨39, _⟩ => ⟨S40960, .i32⟩
  | .hbm, ⟨40, _⟩ => ⟨S40960, .i1⟩
  | .hbm, ⟨41, _⟩ => ⟨S_, .i32⟩
  | .hbm, ⟨42, _⟩ => ⟨S40960, .i32⟩
  | .hbm, ⟨43, _⟩ => ⟨S40960, .i32⟩
  | .hbm, ⟨44, _⟩ => ⟨S40960, .i32⟩
  | .hbm, ⟨45, _⟩ => ⟨S40960x1, .i32⟩
  | .hbm, ⟨46, _⟩ => ⟨S40960x128, .f32⟩
  | .hbm, ⟨47, _⟩ => ⟨S128x128, .f32⟩
  | .hbm, ⟨48, _⟩ => ⟨S128x128, .f32⟩
  | .hbm, ⟨49, _⟩ => ⟨S4096x128, .f32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S1024x1, .i32⟩
  | .hbm, ⟨58, _⟩ => ⟨S1024x128, .f32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S8192x1, .i32⟩
  | .hbm, ⟨67, _⟩ => ⟨S8192x128, .f32⟩
  | .hbm, ⟨68, _⟩ => ⟨S128x128, .f32⟩
  | .hbm, ⟨69, _⟩ => ⟨S128x128, .f32⟩
  | .hbm, ⟨70, _⟩ => ⟨S1024x128, .f32⟩
  | .hbm, ⟨71, _⟩ => ⟨S1024x128, .f32⟩
  | .hbm, ⟨72, _⟩ => ⟨S_, .f32⟩
  | .hbm, ⟨73, _⟩ => ⟨S1024, .f32⟩
  | .hbm, ⟨74, _⟩ => ⟨S1024x1, .f32⟩
  | .hbm, ⟨75, _⟩ => ⟨S_, .f32⟩
  | .hbm, ⟨76, _⟩ => ⟨S1024x1, .f32⟩
  | .hbm, ⟨77, _⟩ => ⟨S1024x1, .f32⟩
  | .hbm, ⟨78, _⟩ => ⟨S1024x1, .f32⟩
  | .hbm, ⟨79, _⟩ => ⟨S1024x128, .f32⟩
  | .hbm, ⟨80, _⟩ => ⟨S1024x128, .f32⟩
  | .hbm, ⟨81, _⟩ => ⟨S1024x64, .f32⟩
  | .hbm, ⟨82, _⟩ => ⟨S1x64, .f32⟩
  | .hbm, ⟨83, _⟩ => ⟨S1024x64, .f32⟩
  | .hbm, ⟨84, _⟩ => ⟨S1024x64, .f32⟩
  | .hbm, ⟨85, _⟩ => ⟨S_, .f32⟩
  | .hbm, ⟨86, _⟩ => ⟨S1024x64, .f32⟩
  | .hbm, ⟨87, _⟩ => ⟨S1024x64, .f32⟩
  | .hbm, ⟨88, _⟩ => ⟨S1024x32, .f32⟩
  | .hbm, ⟨89, _⟩ => ⟨S1x32, .f32⟩
  | .hbm, ⟨90, _⟩ => ⟨S1024x32, .f32⟩
  | .hbm, ⟨91, _⟩ => ⟨S1024x32, .f32⟩
  | .hbm, ⟨92, _⟩ => ⟨S_, .f32⟩
  | .hbm, ⟨93, _⟩ => ⟨S1024x32, .f32⟩
  | .hbm, ⟨94, _⟩ => ⟨S1024x32, .f32⟩
  | .hbm, ⟨95, _⟩ => ⟨S1024x16, .f32⟩
  | .hbm, ⟨96, _⟩ => ⟨S1x16, .f32⟩
  | .hbm, ⟨97, _⟩ => ⟨S1024x16, .f32⟩
  | .hbm, ⟨98, _⟩ => ⟨S1024x16, .f32⟩
  | .hbm, ⟨99, _⟩ => ⟨S_, .f32⟩
  | .hbm, ⟨100, _⟩ => ⟨S1024x16, .f32⟩
  | .hbm, ⟨101, _⟩ => ⟨S1024x16, .f32⟩
  | .hbm, ⟨102, _⟩ => ⟨S1024x8, .f32⟩
  | .hbm, ⟨103, _⟩ => ⟨S1x8, .f32⟩
  | .hbm, ⟨104, _⟩ => ⟨S1024x8, .f32⟩
  | .hbm, ⟨105, _⟩ => ⟨S1024x8, .f32⟩
  | .hbm, ⟨106, _⟩ => ⟨S_, .f32⟩
  | .hbm, ⟨107, _⟩ => ⟨S1024x8, .f32⟩
  | .hbm, ⟨108, _⟩ => ⟨S1024x8, .f32⟩
  | .hbm, ⟨109, _⟩ => ⟨S1024x1, .f32⟩
  | .hbm, ⟨110, _⟩ => ⟨S1x1, .f32⟩
  | .hbm, ⟨111, _⟩ => ⟨S1024x1, .f32⟩
  | .hbm, ⟨112, _⟩ => ⟨S1024x1, .f32⟩
  | .hbm, ⟨113, _⟩ => ⟨S_, .f32⟩
  | .hbm, ⟨114, _⟩ => ⟨S1024, .f32⟩
  | .hbm, ⟨115, _⟩ => ⟨S_, .f32⟩
  | .hbm, ⟨116, _⟩ => ⟨S1024, .f32⟩
  | .hbm, ⟨117, _⟩ => ⟨S1024, .f32⟩
  | .hbm, ⟨118, _⟩ => ⟨S1024x1, .f32⟩
  | .hbm, ⟨119, _⟩ => ⟨S1024x1, .f32⟩
  | .hbm, ⟨120, _⟩ => ⟨S1024x1, .f32⟩
  | .hbm, ⟨121, _⟩ => ⟨S_, .f32⟩
  | .hbm, ⟨122, _⟩ => ⟨S1024, .f32⟩
  | .hbm, ⟨123, _⟩ => ⟨S1024x1, .f32⟩
  | .hbm, ⟨124, _⟩ => ⟨S1024x1, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x2048, .f32⟩
  | .local _ .vmem, ⟨12, _⟩ => ⟨S1024x2048, .f32⟩
  | .local _ .vmem, ⟨13, _⟩ => ⟨S2048x128, .f32⟩
  | .local _ .vmem, ⟨14, _⟩ => ⟨S2048x128, .f32⟩
  | .local _ .vmem, ⟨15, _⟩ => ⟨S1024x128, .f32⟩
  | .local _ .vmem, ⟨16, _⟩ => ⟨S128x128, .f32⟩
  | .local _ .vmem, ⟨17, _⟩ => ⟨S128x128, .f32⟩
  | .local _ .vmem, ⟨18, _⟩ => ⟨S1024x128, .f32⟩
  | .local _ .vmem, ⟨19, _⟩ => ⟨S1024x128, .f32⟩
  | _, _ => ⟨S40960, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call0_cst : Ref sig .tc := ⟨.hbm, 85, rfl⟩
abbrev main_call0_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call1_cst : Ref sig .tc := ⟨.hbm, 92, rfl⟩
abbrev main_call1_v0 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call2_cst : Ref sig .tc := ⟨.hbm, 99, rfl⟩
abbrev main_call2_v0 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_call3_cst : Ref sig .tc := ⟨.hbm, 106, rfl⟩
abbrev main_call3_v0 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_10 : Ref sig .tc := ⟨.hbm, 113, rfl⟩
abbrev main_v73 : Ref sig .tc := ⟨.hbm, 114, rfl⟩
abbrev main_cst_11 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_12 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨2, ![4, 20], ![false, false]⟩

def k0_cond2 (i : grid0.Coords) : BitVec 1 :=
  let arg1 : BitVec 32 := BitVec.ofNat 32 (i 1).val
  let c19_i32 : BitVec 32 := 19#32
  let v14 : BitVec 1 := Scalar.cmpi .eq arg1 c19_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![1, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, false]

class Facts₀ : Prop where
  bcast_S_S40960 : S_.BroadcastsInDim S40960 (![] : Fin 0 → Fin S40960.rank)
  bcast_S40960_S40960x1_0 : S40960.BroadcastsInDim S40960x1 (![0] : Fin 1 → Fin S40960x1.rank)
  bcast_S_S4096 : S_.BroadcastsInDim S4096 (![] : Fin 0 → Fin S4096.rank)
  bcast_S4096_S4096x1_0 : S4096.BroadcastsInDim S4096x1 (![0] : Fin 1 → Fin S4096x1.rank)
  slices_S256x128_S128x128_0_0 : S256x128.Slices ![0, 0] S128x128
  slices_S256x128_S128x128_128_0 : S256x128.Slices ![128, 0] S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1024 : S_.BroadcastsInDim S1024 (![] : Fin 0 → Fin S1024.rank)
  bcast_S1024_S1024x1_0 : S1024.BroadcastsInDim S1024x1 (![0] : Fin 1 → Fin S1024x1.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S1024x128_S1024_d1 : S1024x128.ReducesTo [1] S1024
  h_S_ : 0 < S_.numel
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  bcast_S_S1024x16 : S_.BroadcastsInDim S1024x16 (![] : Fin 0 → Fin S1024x16.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  gather_S100000x128_S40960x1_S40960x128_1_0_n_n_0_1_1128_wf : GatherDims.WF S100000x128 S40960x1 S40960x128 [1] [0] [] [0] [] 1 ![1, 128]
  gather_S40960x128_S4096x1_S4096x128_1_0_n_n_0_1_1128_wf : GatherDims.WF S40960x128 S4096x1 S4096x128 [1] [0] [] [0] [] 1 ![1, 128]
  gather_S40960x128_S40960x1_S40960x128_1_0_n_n_0_1_1128_wf : GatherDims.WF S40960x128 S40960x1 S40960x128 [1] [0] [] [0] [] 1 ![1, 128]
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  gather_S4096x128_S1024x1_S1024x128_1_0_n_n_0_1_1128_wf : GatherDims.WF S4096x128 S1024x1 S1024x128 [1] [0] [] [0] [] 1 ![1, 128]
  gather_S4096x128_S8192x1_S8192x128_1_0_n_n_0_1_1128_wf : GatherDims.WF S4096x128 S8192x1 S8192x128 [1] [0] [] [0] [] 1 ![1, 128]
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x8_S1024x8_1_0_0_1_n_n_wf : DotDims.WF S1024x16 S16x8 S1024x8 [1] [0] [0] [1] [] []
  dot_S1024x8_S8x1_S1024x1_1_0_0_1_n_n_wf : DotDims.WF S1024x8 S8x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x40960.size a
  hwx0_0 : ∀ i : grid0.Coords, EltTy.bits .f32 = 32 ∨ (Rect.block (s := S4096x40960) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S40960x128.size a
  hwx0_1 : ∀ i : grid0.Coords, EltTy.bits .f32 = 32 ∨ (Rect.block (s := S40960x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S4096x128.size a
  hwx0_5 : ∀ i : grid0.Coords, EltTy.bits .f32 = 32 ∨ (Rect.block (s := S4096x128) S1024x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S1024x8192.size a
  hwx1_0 : ∀ i : grid1.Coords, EltTy.bits .f32 = 32 ∨ (Rect.block (s := S1024x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .f32 = 32 ∨ (Rect.block (s := S1024x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 1
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S1024x128.size a
  hwx1_5 : ∀ i : grid1.Coords, EltTy.bits .f32 = 32 ∨ (Rect.block (s := S1024x128) S1024x128.size (cc1_transform_5 i) (hinb1_5 i)).WholeWords (EltTy.packing .f32)

variable [Facts₀]

def gather_S100000x128_S40960x1_S40960x128_1_0_n_n_0_1_1128 : GatherDims S100000x128 S40960x1 S40960x128 where
  offsetDims := [1]
  collapsedSliceDims := [0]
  operandBatchingDims := []
  startIndicesBatchingDims := []
  startIndexMap := [0]
  indexVectorDim := 1
  sliceSizes := ![1, 128]
  wf := gather_S100000x128_S40960x1_S40960x128_1_0_n_n_0_1_1128_wf
def gather_S40960x128_S4096x1_S4096x128_1_0_n_n_0_1_1128 : GatherDims S40960x128 S4096x1 S4096x128 where
  offsetDims := [1]
  collapsedSliceDims := [0]
  operandBatchingDims := []
  startIndicesBatchingDims := []
  startIndexMap := [0]
  indexVectorDim := 1
  sliceSizes := ![1, 128]
  wf := gather_S40960x128_S4096x1_S4096x128_1_0_n_n_0_1_1128_wf
def gather_S40960x128_S40960x1_S40960x128_1_0_n_n_0_1_1128 : GatherDims S40960x128 S40960x1 S40960x128 where
  offsetDims := [1]
  collapsedSliceDims := [0]
  operandBatchingDims := []
  startIndicesBatchingDims := []
  startIndexMap := [0]
  indexVectorDim := 1
  sliceSizes := ![1, 128]
  wf := gather_S40960x128_S40960x1_S40960x128_1_0_n_n_0_1_1128_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf
def gather_S4096x128_S8192x1_S8192x128_1_0_n_n_0_1_1128 : GatherDims S4096x128 S8192x1 S8192x128 where
  offsetDims := [1]
  collapsedSliceDims := [0]
  operandBatchingDims := []
  startIndicesBatchingDims := []
  startIndexMap := [0]
  indexVectorDim := 1
  sliceSizes := ![1, 128]
  wf := gather_S4096x128_S8192x1_S8192x128_1_0_n_n_0_1_1128_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x8_S1024x8_1_0_0_1_n_n : DotDims S1024x16 S16x8 S1024x8 where
  lhsContracting := [1]
  rhsContracting := [0]
  lhsNonContracting := [0]
  rhsNonContracting := [1]
  lhsBatch := []
  rhsBatch := []
  wf := dot_S1024x16_S16x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

abbrev win0_0 : Pipeline.Window sig grid0 :=
  Pipeline.Window.ofSpec (Memref.whole main_arg6) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg5) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1024x128.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S1024x128.size cc1_transform_5 reads1_5 true false 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S40960 : Shape := ⟨1, ![40960]⟩
abbrev S8192 : Shape := ⟨1, ![8192]⟩
abbrev S1024 : Shape := ⟨1, ![1024]⟩
abbrev S4096 : Shape := ⟨1, ![4096]⟩
abbrev S1024x8192 : Shape := ⟨2, ![1024, 8192]⟩
abbrev S4096x40960 : Shape := ⟨2, ![4096, 40960]⟩
abbrev S100000x128 : Shape := ⟨2, ![100000, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩
abbrev S40960x1 : Shape := ⟨2, ![40960, 1]⟩
abbrev S40960x128 : Shape := ⟨2, ![40960, 128]⟩
abbrev S4096x1 : Shape := ⟨2, ![4096, 1]⟩
abbrev S4096x128 : Shape := ⟨2, ![4096, 128]⟩
abbrev S4096x256 : Shape := ⟨2, ![4096, 256]⟩
abbrev S1024x1 : Shape := ⟨2, ![1024, 1]⟩
abbrev S1024x128 : Shape := ⟨2, ![1024, 128]⟩
abbrev S8192x1 : Shape := ⟨2, ![8192, 1]⟩
abbrev S8192x128 : Shape := ⟨2, ![8192, 128]⟩
abbrev S1024x256 : Shape := ⟨2, ![1024, 256]⟩
abbrev S1024x64 : Shape := ⟨2, ![1024, 64]⟩
abbrev S1x64 : Shape := ⟨2, ![1, 64]⟩
abbrev S1024x32 : Shape := ⟨2, ![1024, 32]⟩
abbrev S1x32 : Shape := ⟨2, ![1, 32]⟩
abbrev S1024x16 : Shape := ⟨2, ![1024, 16]⟩
abbrev S1x16 : Shape := ⟨2, ![1, 16]⟩
abbrev S1024x8 : Shape := ⟨2, ![1024, 8]⟩
abbrev S1x8 : Shape := ⟨2, ![1, 8]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S40960, .i32⟩
  | .hbm, ⟨1, _⟩ => ⟨S8192, .i32⟩
  | .hbm, ⟨2, _⟩ => ⟨S40960, .i32⟩
  | .hbm, ⟨3, _⟩ => ⟨S1024, .i32⟩
  | .hbm, ⟨4, _⟩ => ⟨S4096, .i32⟩
  | .hbm, ⟨5, _⟩ => ⟨S1024x8192, .f32⟩
  | .hbm, ⟨6, _⟩ => ⟨S4096x40960, .f32⟩
  | .hbm, ⟨7, _⟩ => ⟨S100000x128, .f32⟩
  | .hbm, ⟨8, _⟩ => ⟨S256x128, .f32⟩
  | .hbm, ⟨9, _⟩ => ⟨S256x128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x16, .f32⟩
  | .hbm, ⟨15, _⟩ => ⟨S16, .f32⟩
  | .hbm, ⟨16, _⟩ => ⟨S16x8, .f32⟩
  | .hbm, ⟨17, _⟩ => ⟨S8, .f32⟩
  | .hbm, ⟨18, _⟩ => ⟨S8x1, .f32⟩
  | .hbm, ⟨19, _⟩ => ⟨S1, .f32⟩
  | .hbm, ⟨20, _⟩ => ⟨S_, .i32⟩
  | .hbm, ⟨21, _⟩ => ⟨S40960, .i32⟩
  | .hbm, ⟨22, _⟩ => ⟨S40960, .i1⟩
  | .hbm, ⟨23, _⟩ => ⟨S_, .i32⟩
  | .hbm, ⟨24, _⟩ => ⟨S40960, .i32⟩
  | .hbm, ⟨25, _⟩ => ⟨S40960, .i32⟩
  | .hbm, ⟨26, _⟩ => ⟨S40960, .i32⟩
  | .hbm, ⟨27, _⟩ => ⟨S40960x1, .i32⟩
  | .hbm, ⟨28, _⟩ => ⟨S40960x128, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x128, .f32⟩
  | .hbm, ⟨38, _⟩ => ⟨S_, .i32⟩
  | .hbm, ⟨39, _⟩ => ⟨S40960, .i32⟩
  | .hbm, ⟨40, _⟩ => ⟨S40960, .i1⟩
  | .hbm, ⟨41, _⟩ => ⟨S_, .i32⟩
  | .hbm, ⟨42, _⟩ => ⟨S40960, .i32⟩
  | .hbm, ⟨43, _⟩ => ⟨S40960, .i32⟩
  | .hbm, ⟨44, _⟩ => ⟨S40960, .i32⟩
  | .hbm, ⟨45, _⟩ => ⟨S40960x1, .i32⟩
  | .hbm, ⟨46, _⟩ => ⟨S40960x128, .f32⟩
  | .hbm, ⟨47, _⟩ => ⟨S4096x128, .f32⟩
  | .hbm, ⟨48, _⟩ => ⟨S4096x256, .f32⟩
  | .hbm, ⟨49, _⟩ => ⟨S4096x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S_, .i32⟩
  | .hbm, ⟨54, _⟩ => ⟨S1024, .i32⟩
  | .hbm, ⟨55, _⟩ => ⟨S1024, .i1⟩
  | .hbm, ⟨56, _⟩ => ⟨S_, .i32⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S1024x1, .i32⟩
  | .hbm, ⟨61, _⟩ => ⟨S1024x128, .f32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x128, .f32⟩
  | .hbm, ⟨71, _⟩ => ⟨S1024x128, .f32⟩
  | .hbm, ⟨72, _⟩ => ⟨S1024x256, .f32⟩
  | .hbm, ⟨73, _⟩ => ⟨S1024x128, .f32⟩
  | .hbm, ⟨74, _⟩ => ⟨S1024x128, .f32⟩
  | .hbm, ⟨75, _⟩ => ⟨S_, .f32⟩
  | .hbm, ⟨76, _⟩ => ⟨S1024, .f32⟩
  | .hbm, ⟨77, _⟩ => ⟨S1024x1, .f32⟩
  | .hbm, ⟨78, _⟩ => ⟨S_, .f32⟩
  | .hbm, ⟨79, _⟩ => ⟨S1024x1, .f32⟩
  | .hbm, ⟨80, _⟩ => ⟨S1024x1, .f32⟩
  | .hbm, ⟨81, _⟩ => ⟨S1024x1, .f32⟩
  | .hbm, ⟨82, _⟩ => ⟨S1024x128, .f32⟩
  | .hbm, ⟨83, _⟩ => ⟨S1024x128, .f32⟩
  | .hbm, ⟨84, _⟩ => ⟨S1024x64, .f32⟩
  | .hbm, ⟨85, _⟩ => ⟨S1x64, .f32⟩
  | .hbm, ⟨86, _⟩ => ⟨S1024x64, .f32⟩
  | .hbm, ⟨87, _⟩ => ⟨S1024x64, .f32⟩
  | .hbm, ⟨88, _⟩ => ⟨S_, .f32⟩
  | .hbm, ⟨89, _⟩ => ⟨S1024x64, .f32⟩
  | .hbm, ⟨90, _⟩ => ⟨S1024x64, .f32⟩
  | .hbm, ⟨91, _⟩ => ⟨S1024x32, .f32⟩
  | .hbm, ⟨92, _⟩ => ⟨S1x32, .f32⟩
  | .hbm, ⟨93, _⟩ => ⟨S1024x32, .f32⟩
  | .hbm, ⟨94, _⟩ => ⟨S1024x32, .f32⟩
  | .hbm, ⟨95, _⟩ => ⟨S_, .f32⟩
  | .hbm, ⟨96, _⟩ => ⟨S1024x32, .f32⟩
  | .hbm, ⟨97, _⟩ => ⟨S1024x32, .f32⟩
  | .hbm, ⟨98, _⟩ => ⟨S1024x16, .f32⟩
  | .hbm, ⟨99, _⟩ => ⟨S1x16, .f32⟩
  | .hbm, ⟨100, _⟩ => ⟨S1024x16, .f32⟩
  | .hbm, ⟨101, _⟩ => ⟨S1024x16, .f32⟩
  | .hbm, ⟨102, _⟩ => ⟨S_, .f32⟩
  | .hbm, ⟨103, _⟩ => ⟨S1024x16, .f32⟩
  | .hbm, ⟨104, _⟩ => ⟨S1024x16, .f32⟩
  | .hbm, ⟨105, _⟩ => ⟨S1024x8, .f32⟩
  | .hbm, ⟨106, _⟩ => ⟨S1x8, .f32⟩
  | .hbm, ⟨107, _⟩ => ⟨S1024x8, .f32⟩
  | .hbm, ⟨108, _⟩ => ⟨S1024x8, .f32⟩
  | .hbm, ⟨109, _⟩ => ⟨S_, .f32⟩
  | .hbm, ⟨110, _⟩ => ⟨S1024x8, .f32⟩
  | .hbm, ⟨111, _⟩ => ⟨S1024x8, .f32⟩
  | .hbm, ⟨112, _⟩ => ⟨S1024x1, .f32⟩
  | .hbm, ⟨113, _⟩ => ⟨S1x1, .f32⟩
  | .hbm, ⟨114, _⟩ => ⟨S1024x1, .f32⟩
  | .hbm, ⟨115, _⟩ => ⟨S1024x1, .f32⟩
  | .hbm, ⟨116, _⟩ => ⟨S_, .f32⟩
  | .hbm, ⟨117, _⟩ => ⟨S1024, .f32⟩
  | .hbm, ⟨118, _⟩ => ⟨S_, .f32⟩
  | .hbm, ⟨119, _⟩ => ⟨S1024, .f32⟩
  | .hbm, ⟨120, _⟩ => ⟨S1024, .f32⟩
  | .hbm, ⟨121, _⟩ => ⟨S1024x1, .f32⟩
  | .hbm, ⟨122, _⟩ => ⟨S1024x1, .f32⟩
  | .hbm, ⟨123, _⟩ => ⟨S1024x1, .f32⟩
  | .hbm, ⟨124, _⟩ => ⟨S_, .f32⟩
  | .hbm, ⟨125, _⟩ => ⟨S1024, .f32⟩
  | .hbm, ⟨126, _⟩ => ⟨S1024x1, .f32⟩
  | .hbm, ⟨127, _⟩ => ⟨S1024x1, .f32⟩
  | _, _ => ⟨S40960, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call0_cst : Ref sig .tc := ⟨.hbm, 50, rfl⟩
abbrev main_call0_v0 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call1_cst : Ref sig .tc := ⟨.hbm, 88, rfl⟩
abbrev main_call1_v0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call2_cst : Ref sig .tc := ⟨.hbm, 95, rfl⟩
abbrev main_call2_v0 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call3_cst : Ref sig .tc := ⟨.hbm, 102, rfl⟩
abbrev main_call3_v0 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call4_cst : Ref sig .tc := ⟨.hbm, 109, rfl⟩
abbrev main_call4_v0 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_10 : Ref sig .tc := ⟨.hbm, 116, rfl⟩
abbrev main_v74 : Ref sig .tc := ⟨.hbm, 117, rfl⟩
abbrev main_cst_11 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_12 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩

abbrev nD : Nat := 1
abbrev τ : Topo := Topo.v7x

variable {F : FTy → Type} [FloatOps F]

class Facts₀ : Prop where
  bcast_S_S40960 : S_.BroadcastsInDim S40960 (![] : Fin 0 → Fin S40960.rank)
  bcast_S40960_S40960x1_0 : S40960.BroadcastsInDim S40960x1 (![0] : Fin 1 → Fin S40960x1.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x256_d1 : Shape.Concatenates [S4096x128, S4096x128] S4096x256 1
  bcast_S_S4096x128 : S_.BroadcastsInDim S4096x128 (![] : Fin 0 → Fin S4096x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S8192 : S_.BroadcastsInDim S8192 (![] : Fin 0 → Fin S8192.rank)
  bcast_S8192_S8192x1_0 : S8192.BroadcastsInDim S8192x1 (![0] : Fin 1 → Fin S8192x1.rank)
  concatenates_S1024x128_S1024x128_S1024x256_d1 : Shape.Concatenates [S1024x128, S1024x128] S1024x256 1
  reducesTo_S1024x128_S1024_d1 : S1024x128.ReducesTo [1] S1024
  h_S_ : 0 < S_.numel
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  bcast_S_S1024x16 : S_.BroadcastsInDim S1024x16 (![] : Fin 0 → Fin S1024x16.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  gather_S100000x128_S40960x1_S40960x128_1_0_n_n_0_1_1128_wf : GatherDims.WF S100000x128 S40960x1 S40960x128 [1] [0] [] [0] [] 1 ![1, 128]
  gather_S40960x128_S4096x1_S4096x128_1_0_n_n_0_1_1128_wf : GatherDims.WF S40960x128 S4096x1 S4096x128 [1] [0] [] [0] [] 1 ![1, 128]
  gather_S40960x128_S40960x1_S40960x128_1_0_n_n_0_1_1128_wf : GatherDims.WF S40960x128 S40960x1 S40960x128 [1] [0] [] [0] [] 1 ![1, 128]
  dot_S4096x40960_S40960x128_S4096x128_1_0_0_1_n_n_wf : DotDims.WF S4096x40960 S40960x128 S4096x128 [1] [0] [0] [1] [] []
  dot_S4096x256_S256x128_S4096x128_1_0_0_1_n_n_wf : DotDims.WF S4096x256 S256x128 S4096x128 [1] [0] [0] [1] [] []
  gather_S4096x128_S1024x1_S1024x128_1_0_n_n_0_1_1128_wf : GatherDims.WF S4096x128 S1024x1 S1024x128 [1] [0] [] [0] [] 1 ![1, 128]
  gather_S4096x128_S8192x1_S8192x128_1_0_n_n_0_1_1128_wf : GatherDims.WF S4096x128 S8192x1 S8192x128 [1] [0] [] [0] [] 1 ![1, 128]
  dot_S1024x8192_S8192x128_S1024x128_1_0_0_1_n_n_wf : DotDims.WF S1024x8192 S8192x128 S1024x128 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x8_S1024x8_1_0_0_1_n_n_wf : DotDims.WF S1024x16 S16x8 S1024x8 [1] [0] [0] [1] [] []
  dot_S1024x8_S8x1_S1024x1_1_0_0_1_n_n_wf : DotDims.WF S1024x8 S8x1 S1024x1 [1] [0] [0] [1] [] []

variable [Facts₀]

def gather_S100000x128_S40960x1_S40960x128_1_0_n_n_0_1_1128 : GatherDims S100000x128 S40960x1 S40960x128 where
  offsetDims := [1]
  collapsedSliceDims := [0]
  operandBatchingDims := []
  startIndicesBatchingDims := []
  startIndexMap := [0]
  indexVectorDim := 1
  sliceSizes := ![1, 128]
  wf := gather_S100000x128_S40960x1_S40960x128_1_0_n_n_0_1_1128_wf
def gather_S40960x128_S4096x1_S4096x128_1_0_n_n_0_1_1128 : GatherDims S40960x128 S4096x1 S4096x128 where
  offsetDims := [1]
  collapsedSliceDims := [0]
  operandBatchingDims := []
  startIndicesBatchingDims := []
  startIndexMap := [0]
  indexVectorDim := 1
  sliceSizes := ![1, 128]
  wf := gather_S40960x128_S4096x1_S4096x128_1_0_n_n_0_1_1128_wf
def gather_S40960x128_S40960x1_S40960x128_1_0_n_n_0_1_1128 : GatherDims S40960x128 S40960x1 S40960x128 where
  offsetDims := [1]
  collapsedSliceDims := [0]
  operandBatchingDims := []
  startIndicesBatchingDims := []
  startIndexMap := [0]
  indexVectorDim := 1
  sliceSizes := ![1, 128]
  wf := gather_S40960x128_S40960x1_S40960x128_1_0_n_n_0_1_1128_wf
def dot_S4096x40960_S40960x128_S4096x128_1_0_0_1_n_n : DotDims S4096x40960 S40960x128 S4096x128 where
  lhsContracting := [1]
  rhsContracting := [0]
  lhsNonContracting := [0]
  rhsNonContracting := [1]
  lhsBatch := []
  rhsBatch := []
  wf := dot_S4096x40960_S40960x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf
def gather_S4096x128_S8192x1_S8192x128_1_0_n_n_0_1_1128 : GatherDims S4096x128 S8192x1 S8192x128 where
  offsetDims := [1]
  collapsedSliceDims := [0]
  operandBatchingDims := []
  startIndicesBatchingDims := []
  startIndexMap := [0]
  indexVectorDim := 1
  sliceSizes := ![1, 128]
  wf := gather_S4096x128_S8192x1_S8192x128_1_0_n_n_0_1_1128_wf
def dot_S1024x8192_S8192x128_S1024x128_1_0_0_1_n_n : DotDims S1024x8192 S8192x128 S1024x128 where
  lhsContracting := [1]
  rhsContracting := [0]
  lhsNonContracting := [0]
  rhsNonContracting := [1]
  lhsBatch := []
  rhsBatch := []
  wf := dot_S1024x8192_S8192x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x8_S1024x8_1_0_0_1_n_n : DotDims S1024x16 S16x8 S1024x8 where
  lhsContracting := [1]
  rhsContracting := [0]
  lhsNonContracting := [0]
  rhsNonContracting := [1]
  lhsBatch := []
  rhsBatch := []
  wf := dot_S1024x16_S16x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

class Facts : Prop extends Facts₀ where

variable [Facts]
-- ==== Proof.KiBody0.lean ====
import proofs.«179562_j36550171689307_1_alg».proof.Proof.Gen.KernelIdeal.Launch
import proofs.«179562_j36550171689307_1_alg».proof.Proof.Gen.KernelIdeal.Skeleton
import proofs.«179562_j36550171689307_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hop0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One call of the hop kernel's body (pallas_call 0)

The body keeps a running sum in a scratch block across the reduction axis of the grid.  At the first step of a
row-block it overwrites the scratch with zeros; at every step it adds the product of the current tile of the
diffusion matrix with the current tile of source rows; at the last step it multiplies the finished sum and the
destination rows by the two halves of the layer's weights, adds the two products (and, in the call that carries the activation, takes the maximum with zero) and
stores the result in the output block.  Here: what the scratch and the output block hold after one call, as
functions of what the call found. -/

/-- The origin of a rank-two block. -/
theorem origin2 : (![0, 0] : Fin 2 → ℕ) = fun _ => 0 := by
  funext a; match a with | ⟨0, _⟩ => rfl | ⟨1, _⟩ => rfl

/-- A store of a whole block, made last, decides what the buffer reads back as: its payload. -/
theorem read_writes_whole_last {sig : RefSig} {κ : Kind} {sp : Space} {S : Shape} {e : EltTy} {Val : EltTy → Type}
    [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

/-- A load of the whole block after a whole-block store made last reads that store's payload. -/
theorem readCov_whole_last {sig : RefSig} {κ : Kind} {sp : Space} {S : Shape} {e : EltTy} {Val : EltTy → Type}
    [∀ e, Nonempty (Val e)] (v : View sig κ sp S e)
    {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-- The body is at the first step of the reduction axis (the printed test of the grid coordinate). -/
abbrev first (i : grid0.Coords) : Prop :=
  (Scalar.cmpi .ne (Scalar.extui (Scalar.cmpi .eq (BitVec.ofNat 32 (i 1).val) 0#32)) 0#32) = 1#1
/-- The body is at the last step of the reduction axis. -/
abbrev last (i : grid0.Coords) : Prop := k0_cond2 i = 1#1

/-- The running sum after a call that found `s` in the scratch: the tile product added to `s`, or to zero at
    the first step. -/
def accNext (i : grid0.Coords) (x2 : Vec F S1024x2048 .f32) (x3 : Vec F S2048x128 .f32) (s : Vec F S1024x128 .f32) :
    Vec F S1024x128 .f32 :=
  k0_pay2 x2 x3 (if first i then k0_pay1 else s)

set_option maxHeartbeats 4000000 in
/-- A call that is not at the last step: the inputs are left as found, the output block is not touched, the
    scratch ends at the updated running sum. -/
theorem sound_kernel_mid (c : Dev nD) (E : Set ℕ) (i : grid0.Coords)
    (arg2 : Memref sig .tc .vmem S1024x2048 .f32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S1024x128 .f32) (harg7 : arg7.IsWhole)
    (arg8 : Memref sig .tc .vmem S1024x128 .f32) (harg8 : arg8.IsWhole) (hl : ¬ last i)
    (x2 : Vec F S1024x2048 .f32) (x3 : Vec F S2048x128 .f32) (x4 : Vec F S1024x128 .f32) (x5 x6 : Vec F S128x128 .f32)
    (x7 s : Vec F S1024x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare (accNext i x2 x3 s)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns accNext
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases hf : first i
  · sl_exec (disch := first | exact hf | exact hl)
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    iexists _; isplitr
    swap; · iexact H8
    ipureintro
    try sl_unfold_words
    rw [read_writes_whole_last (S := S1024x128) _ _ origin2, if_pos hf]
    simp only [View.readAt_eq_ld, View.ld_unit_zero (S := S1024x2048) origin2, View.ld_unit_zero (S := S2048x128) origin2, View.ld_unit_zero (S := S1024x128) origin2, View.ld_unit_zero (S := S128x128) origin2, readCov_whole_last (S := S1024x128) _ origin2]
  · sl_exec (disch := first | exact hf | exact hl)
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]; · iexists f7; isplitr; · ipureintro; rfl
                    iexact H7
    iexists _; isplitr
    swap; · iexact H8
    ipureintro
    try sl_unfold_words
    rw [read_writes_whole_last (S := S1024x128) _ _ origin2, if_neg hf]
    simp only [View.readAt_eq_ld, View.ld_unit_zero (S := S1024x2048) origin2, View.ld_unit_zero (S := S2048x128) origin2, View.ld_unit_zero (S := S1024x128) origin2, View.ld_unit_zero (S := S128x128) origin2, readCov_whole_last (S := S1024x128) _ origin2]

set_option maxHeartbeats 4000000 in
/-- A call at the last step: the inputs are left as found, the scratch ends at the finished sum, and the output
    block holds the layer's value of that sum and the destination rows. -/
theorem sound_kernel_last (c : Dev nD) (E : Set ℕ) (i : grid0.Coords)
    (arg2 : Memref sig .tc .vmem S1024x2048 .f32) (harg2 : arg2.IsWhole) (arg3 : Memref sig .tc .vmem S2048x128 .f32) (harg3 : arg3.IsWhole)
    (arg4 : Memref sig .tc .vmem S1024x128 .f32) (harg4 : arg4.IsWhole) (arg5 : Memref sig .tc .vmem S128x128 .f32) (harg5 : arg5.IsWhole)
    (arg6 : Memref sig .tc .vmem S128x128 .f32) (harg6 : arg6.IsWhole) (arg7 : Memref sig .tc .vmem S1024x128 .f32) (harg7 : arg7.IsWhole)
    (arg8 : Memref sig .tc .vmem S1024x128 .f32) (harg8 : arg8.IsWhole) (hl : last i)
    (x2 : Vec F S1024x2048 .f32) (x3 : Vec F S2048x128 .f32) (x4 : Vec F S1024x128 .f32) (x5 x6 : Vec F S128x128 .f32)
    (s : Vec F S1024x128 .f32) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ owns (c : Thread nD τ) arg8 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (k0_pay3 (accNext i x2 x3 s) x4 x5 x6)
            ∗ owns (c : Thread nD τ) arg8 fullShare (accNext i x2 x3 s)) -∗ K ⟨⟩))
      ⊢ wp frame (wpE (defs₀ (F := F)) Variants.none c none) E (cc0_kernel i arg2 harg2 arg3 harg3 arg4 harg4 arg5 harg5 arg6 harg6 arg7 harg7 arg8 harg8) K := by
  simp only [cc0_kernel_eq_skeleton]; unfold cc0_kernel_skel
  unfold owns accNext
  iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%f8, %hf8, H8⟩, Hk⟩
  subst hf2 hf3 hf4 hf5 hf6 hf8
  by_cases hf : first i
  · sl_exec (disch := first | exact hf | exact hl)
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]
    · iexists _; isplitr
      swap; · iexact H7
      ipureintro
      try sl_unfold_words
      rw [read_writes_whole_last (S := S1024x128) _ _ origin2, if_pos hf]
      simp only [View.readAt_eq_ld, View.ld_unit_zero (S := S1024x2048) origin2, View.ld_unit_zero (S := S2048x128) origin2, View.ld_unit_zero (S := S1024x128) origin2, View.ld_unit_zero (S := S128x128) origin2, readCov_whole_last (S := S1024x128) _ origin2]
    iexists _; isplitr
    swap; · iexact H8
    ipureintro
    try sl_unfold_words
    rw [read_writes_whole_last (S := S1024x128) _ _ origin2, if_pos hf]
    simp only [View.readAt_eq_ld, View.ld_unit_zero (S := S1024x2048) origin2, View.ld_unit_zero (S := S2048x128) origin2, View.ld_unit_zero (S := S1024x128) origin2, View.ld_unit_zero (S := S128x128) origin2, readCov_whole_last (S := S1024x128) _ origin2]
  · sl_exec (disch := first | exact hf | exact hl)
    sl_step
    iapply Hk
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H7]
    · iexists _; isplitr
      swap; · iexact H7
      ipureintro
      try sl_unfold_words
      rw [read_writes_whole_last (S := S1024x128) _ _ origin2, if_neg hf]
      simp only [View.readAt_eq_ld, View.ld_unit_zero (S := S1024x2048) origin2, View.ld_unit_zero (S := S2048x128) origin2, View.ld_unit_zero (S := S1024x128) origin2, View.ld_unit_zero (S := S128x128) origin2, readCov_whole_last (S := S1024x128) _ origin2]
    iexists _; isplitr
    swap; · iexact H8
    ipureintro
    try sl_unfold_words
    rw [read_writes_whole_last (S := S1024x128) _ _ origin2, if_neg hf]
    simp only [View.readAt_eq_ld, View.ld_unit_zero (S := S1024x2048) origin2, View.ld_unit_zero (S := S2048x128) origin2, View.ld_unit_zero (S := S1024x128) origin2, View.ld_unit_zero (S := S128x128) origin2, readCov_whole_last (S := S1024x128) _ origin2]

end Cert.KernelIdeal.Hop0
end
-- ==== Proof.KiDat0.lean ====
/-
  The proof data of pallas_call 0: what every window's staging block and the scratch hold after the body at each
  grid point, as functions of the arrays the region finds, and the body's obligation at a generic point.
-/
import proofs.«179562_j36550171689307_1_alg».proof.Proof.KiBody0

set_option maxRecDepth 16384

noncomputable section

namespace Cert.KernelIdeal.Hop0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks and the running sum -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- At a first step the running sum does not depend on what the scratch held. -/
theorem accNext_first {i : grid0.Coords} (hf : first i) (x2 : Vec F S1024x2048 .f32) (x3 : Vec F S2048x128 .f32)
    (s s' : Vec F S1024x128 .f32) : accNext i x2 x3 s = accNext i x2 x3 s' := by
  unfold accNext; rw [if_pos hf, if_pos hf]

/-- THE ACCUMULATION: the scratch after the body at position `n` of the grid's row-major order — the tile product
    at `n` added to what position `n - 1` left (to zero where `n` starts a row-block: `accNext`). -/
def accAt (c : Dev nD) : (n : ℕ) → n < cfg0.N → Vec F S1024x128 .f32
  | 0, h => accNext (grid0.coords ⟨0, h⟩) (iblk V c 0 ⟨0, h⟩) (iblk V c 1 ⟨0, h⟩) k0_pay1
  | n + 1, h => accNext (grid0.coords ⟨n + 1, h⟩) (iblk V c 0 ⟨n + 1, h⟩) (iblk V c 1 ⟨n + 1, h⟩) (accAt c n (Nat.lt_of_succ_lt h))

/-- The output block the body stores at a last step: the layer's value of the finished sum and the destination rows. -/
def outAt (c : Dev nD) (n : ℕ) (h : n < cfg0.N) : Vec F S1024x128 .f32 :=
  k0_pay3 (accAt V c n h) (iblk V c 2 ⟨n, h⟩) (iblk V c 3 ⟨n, h⟩) (iblk V c 4 ⟨n, h⟩)

/-! ## The conditions in closed form, over the 80 points of the grid -/

theorem hfirst : ∀ t : Fin cfg0.N, first (grid0.coords t) ↔ t.val % 20 = 0 := by decide +kernel
theorem hlast : ∀ t : Fin cfg0.N, last (grid0.coords t) ↔ t.val % 20 = 19 := by decide +kernel
theorem idle5 : ∀ t : Fin cfg0.N, ¬ last (grid0.coords t) → cfg0.idle 5 (grid0.coords t) = true := by decide +kernel
theorem noflush5 : ∀ t : Fin cfg0.N, ¬ last (grid0.coords t) → (cfg0.win 5).flush t = false := by decide +kernel
theorem live5 : ∀ t : Fin cfg0.N, last (grid0.coords t) → cfg0.idle 5 (grid0.coords t) = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl

theorem accAt_pos (c : Dev nD) (t : Fin cfg0.N) (hz : t.val ≠ 0) :
    accAt V c t.val t.isLt = accNext (grid0.coords t) (iblk V c 0 t) (iblk V c 1 t) (accAt V c (t.val - 1) (by omega)) := by
  obtain ⟨n, hn⟩ := t
  cases n with
  | zero => exact absurd rfl hz
  | succ n => rfl

theorem accAt_zero (c : Dev nD) (t : Fin cfg0.N) (hz : t.val = 0) (s : Vec F S1024x128 .f32) :
    accAt V c t.val t.isLt = accNext (grid0.coords t) (iblk V c 0 t) (iblk V c 1 t) s := by
  have hf : first (grid0.coords t) := (hfirst t).mpr (by rw [hz])
  obtain ⟨n, hn⟩ := t
  cases n with
  | zero => exact accNext_first hf _ _ _ _
  | succ n => exact absurd hz (Nat.succ_ne_zero n)

/-! ## The invariant: the scratch at the running sum -/

/-- The scratch block, as a memref. -/
abbrev scM : Memref sig .tc .vmem S1024x128 .f32 := Memref.whole cc0_scratch0

/-- The core's scoped buffers that this pallas_call neither stages through nor uses as scratch (the other call's
    staging buffers and scratch): each at some contents, carried unopened. -/
def others (c : Dev nD) : sProp 𝕄 :=
  Pipeline.scopedRestBut (Ix := Unit) (Name := ℕ) (U := UR sig nD τ) (Lvl := ℕ) (Val := Elt F) spec0 c [cc0_scratch0]

/-- Before the first point the region's scoped buffers and the generator register are as the launch hands them over;
    after point `n` the scratch holds the running sum there, the rest is untouched. -/
def sumInv (c : Dev nD) : (n : ℕ) → n ≤ cfg0.N → sProp 𝕄
  | 0, _ => Pipeline.ΦA spec0 c
  | n + 1, hn => iprop((owns (c : Thread nD τ) scM fullShare (accAt V c n hn) ∗ others c) ∗ ∃ r, prngReg c r)

theorem sumInv_zero (c : Dev nD) (n : ℕ) (h : n ≤ cfg0.N) (hz : n = 0) : sumInv V c n h = Pipeline.ΦA spec0 c := by
  subst hz; rfl

theorem sumInv_succ (c : Dev nD) (n : ℕ) (hn : n < cfg0.N) :
    sumInv V c (n + 1) hn = iprop((owns (c : Thread nD τ) scM fullShare (accAt V c n hn) ∗ others c) ∗ ∃ r, prngReg c r) := rfl

theorem sumInv_pos (c : Dev nD) (n : ℕ) (h : n ≤ cfg0.N) (hz : n ≠ 0) :
    sumInv V c n h = iprop((owns (c : Thread nD τ) scM fullShare (accAt V c (n - 1) (by omega)) ∗ others c) ∗ ∃ r, prngReg c r) := by
  cases n with
  | zero => exact absurd rfl hz
  | succ n => rfl

/-- The class invariant with the scratch split off as a memref owned at some contents. -/
theorem PhiA_eq (c : Dev nD) :
    (Pipeline.ΦA spec0 c : sProp 𝕄)
      = iprop(((∃ d, owns (c : Thread nD τ) scM fullShare d) ∗ others c) ∗ ∃ r, prngReg c r) := by
  unfold Pipeline.ΦA others
  rw [Pipeline.scopedRest_split_of_list spec0 c [cc0_scratch0] (by decide) (by decide)]
  simp only [scM, owns_whole]; try rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outAt V c t.val t.isLt
  Φ t := sumInv V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = sumInv V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outAt V c t.val t.isLt := by dsimp only [dat]

/-- Input window 0's current staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- Input window 1's current staging buffer holds its block at every point, fetched there or not. -/
theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- Input window 2's current staging buffer holds its block at every point, fetched there or not. -/
theorem before_2 (c : Dev nD) (t : Fin cfg0.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- Input window 3's current staging buffer holds its block at every point, fetched there or not. -/
theorem before_3 (c : Dev nD) (t : Fin cfg0.N) (d) : (dat V c).before 3 t d = iblk V c 3 t :=
  ((dat V c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Input window 4's current staging buffer holds its block at every point, fetched there or not. -/
theorem before_4 (c : Dev nD) (t : Fin cfg0.N) (d) : (dat V c).before 4 t d = iblk V c 4 t :=
  ((dat V c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem leaves_0 (c : Dev nD) (t : Fin cfg0.N) :
    (dat V c).leavesExact 0 t = owns (c : Thread nD τ) (st0_0 t) fullShare (iblk V c 0 t) := by
  unfold Dat.leavesExact; rw [live0 t, after_0]
theorem leaves_1 (c : Dev nD) (t : Fin cfg0.N) :
    (dat V c).leavesExact 1 t = owns (c : Thread nD τ) (st0_1 t) fullShare (iblk V c 1 t) := by
  unfold Dat.leavesExact; rw [live1 t, after_1]
theorem leaves_2 (c : Dev nD) (t : Fin cfg0.N) :
    (dat V c).leavesExact 2 t = owns (c : Thread nD τ) (st0_2 t) fullShare (iblk V c 2 t) := by
  unfold Dat.leavesExact; rw [live2 t, after_2]
theorem leaves_3 (c : Dev nD) (t : Fin cfg0.N) :
    (dat V c).leavesExact 3 t = owns (c : Thread nD τ) (st0_3 t) fullShare (iblk V c 3 t) := by
  unfold Dat.leavesExact; rw [live3 t, after_3]
theorem leaves_4 (c : Dev nD) (t : Fin cfg0.N) :
    (dat V c).leavesExact 4 t = owns (c : Thread nD τ) (st0_4 t) fullShare (iblk V c 4 t) := by
  unfold Dat.leavesExact; rw [live4 t, after_4]

set_option maxHeartbeats 4000000 in
/-- The body at any point.  The inputs' memrefs hold their blocks; the invariant hands the body the scratch at the
    running sum the point before left (at anything, before the first point) and takes it back at this point's; at a
    last step the output block is stored, elsewhere it is handed back untouched; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, leaves_0, leaves_1, leaves_2, leaves_3, leaves_4]
  rw [show (dat V c).owesAt () t.succ = (dat V c).owesAt () t.castSucc from rfl]
  rw [show (dat V c).Φ t.succ = sumInv V c (t.val + 1) t.isLt from rfl, sumInv_succ, Phi_castSucc]
  by_cases hl : last (grid0.coords t)
  · rw [show (dat V c).leavesExact 5 t = owns (c : Thread nD τ) (st0_5 t) fullShare ((dat V c).after 5 t) from by
      unfold Dat.leavesExact; rw [live5 t hl], after_5]
    unfold outAt
    by_cases hz : t.val = 0
    · exfalso; have := (hlast t).mp hl; omega
    · rw [sumInv_pos V c _ _ hz, accAt_pos V c t hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (sound_kernel_last c Set.univ (grid0.coords t) _ _ _ _ _ _ _ _ _ _ _ _ _ _ hl
        (iblk V c 0 t) (iblk V c 1 t) (iblk V c 2 t) (iblk V c 3 t) (iblk V c 4 t) (accAt V c (t.val - 1) (by omega)) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
  · rw [Dat.leavesExact_idle (dat V c) 5 t (idle5 t hl) (noflush5 t hl)]
    by_cases hz : t.val = 0
    · rw [sumInv_zero V c _ _ hz, PhiA_eq]
      iintro ⟨⟨⟨⟨%s, HS⟩, Hoth⟩, Hg⟩, Ho, ⟨%d0, H0⟩, ⟨%d1, H1⟩, ⟨%d2, H2⟩, ⟨%d3, H3⟩, ⟨%d4, H4⟩, ⟨%d5, H5⟩⟩
      rw [accAt_zero V c t hz s]
      iapply (sound_kernel_mid c Set.univ (grid0.coords t) _ _ _ _ _ _ _ _ _ _ _ _ _ _ hl
        (iblk V c 0 t) (iblk V c 1 t) (iblk V c 2 t) (iblk V c 3 t) (iblk V c 4 t) ((dat V c).before 5 t d5) s _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5
    · rw [sumInv_pos V c _ _ hz, accAt_pos V c t hz]
      iintro ⟨⟨⟨HS, Hoth⟩, Hg⟩, Ho, ⟨%d0, H0⟩, ⟨%d1, H1⟩, ⟨%d2, H2⟩, ⟨%d3, H3⟩, ⟨%d4, H4⟩, ⟨%d5, H5⟩⟩
      iapply (sound_kernel_mid c Set.univ (grid0.coords t) _ _ _ _ _ _ _ _ _ _ _ _ _ _ hl
        (iblk V c 0 t) (iblk V c 1 t) (iblk V c 2 t) (iblk V c 3 t) (iblk V c 4 t) ((dat V c).before 5 t d5) (accAt V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexists d5; iexact H5

/-- The library's body obligation, at every point. -/
theorem body_obligation (c : Dev nD) : BodyObligation (dat (F := F) V c) (defs₀ (F := F)) Variants.none () Set.univ := fun t => by
  rw [bigSep_W0, bigSep_W0]
  exact sound_body V c t

/-! ## Into the invariant and out of it -/

/-- What the launch hands the region is the invariant before the first point. -/
theorem hin (c : Dev nD) : Pipeline.ΦA spec0 c ⊢ (dat V c).Φ 0 := by
  rw [show (dat V c).Φ 0 = sumInv V c 0 (Nat.zero_le _) from rfl, sumInv_zero V c 0 _ rfl]
  try exact Idealize.SL.BI.Entails.refl _

/-- After the last point the invariant gives the class invariant back: the scratch's contents are forgotten. -/
theorem hout (c : Dev nD) : (dat V c).Φ (Fin.last cfg0.N) ⊢ Pipeline.ΦA spec0 c := by
  have hN : (Fin.last cfg0.N).val ≠ 0 := by rw [Fin.val_last]; have : cfg0.N = 80 := N_0; omega
  rw [show (dat V c).Φ (Fin.last cfg0.N) = sumInv V c (Fin.last cfg0.N).val (Nat.le_of_lt_succ (Fin.last cfg0.N).isLt) from rfl,
    sumInv_pos V c _ _ hN, PhiA_eq]
  iintro ⟨⟨HS, Hoth⟩, Hg⟩
  isplitl [HS Hoth]
  · isplitl [HS]
    · iexists _; iexact HS
    iexact Hoth
  iexact Hg

end Cert.KernelIdeal.Hop0
end
-- ==== Proof.KiRegions.lean ====
/-
  The frame of the whole program: @main is host stretches and two pallas_calls.  Each call is a segment whose proof
  data name what every staging block and the scratch hold point by point; the host stretches and their chaining are the
  generated conditional frame's.  Every execution terminates, nothing faults, the arguments end as launched.
-/
import proofs.«179562_j36550171689307_1_alg».proof.Proof.KiDat0
import proofs.«179562_j36550171689307_1_alg».proof.Proof.KiDat1
import proofs.«179562_j36550171689307_1_alg».proof.Proof.Gen.KernelIdeal.Regions

set_option maxRecDepth 16384

noncomputable section

namespace Cert.KernelIdeal.Hops

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two calls leave, and the contents between @main's items -/

/-- The contents the first call is entered with, read at the TensorCore's references. -/
abbrev E1 : (c : Dev nD) → (b : Ref sig .tc) → Buf (Elt F) ((c : Thread nD τ).loc b) := fun c b => V1 m c b

/-- At the first call's exit: its arrays at what the pipeline leaves, every other buffer as entered. -/
def W2 (c : Dev nD) : Valuation τ sig (Elt F) :=
  Pipeline.withArrays spec0 c (V1 m c) fun w => (Hop0.dat (E1 m) c).arrAt w cfg0.N

/-- What the first call leaves in the buffers it may change. -/
def outs0 : Outs (F := F) := fun _ r c => W2 m c (Proc.devRef .tc r)

/-- The contents the second call is entered with. -/
abbrev E3 : (c : Dev nD) → (b : Ref sig .tc) → Buf (Elt F) ((c : Thread nD τ).loc b) := fun c b => V3 m (outs0 m) c b

/-- At the second call's exit. -/
def W4 (c : Dev nD) : Valuation τ sig (Elt F) :=
  Pipeline.withArrays spec1 c (V3 m (outs0 m) c) fun w => (Hop1.dat (E3 m) c).arrAt w cfg1.N

/-- What the two calls leave in the buffers they may change: read after the first call (item 2) and after the second
    (item 4). -/
def outs : Outs (F := F) := fun n r c =>
  match n with
  | 2 => W2 m c (Proc.devRef .tc r)
  | _ => W4 m c (Proc.devRef .tc r)

theorem V3_outs (c : Dev nD) : V3 m (outs m) c = V3 m (outs0 m) c := rfl

/-- The contents after the first call and after the second, read at the TensorCore's references. -/
abbrev E2 : (c : Dev nD) → (b : Ref sig .tc) → Buf (Elt F) ((c : Thread nD τ).loc b) := fun c b => V2 m (outs m) c b
abbrev E4 : (c : Dev nD) → (b : Ref sig .tc) → Buf (Elt F) ((c : Thread nD τ).loc b) := fun c b => V4 m (outs m) c b

/-! ## The proof data family and what rides beside the buffers -/

/-- Both calls' proof data, each at its call's entry contents. -/
def pdats : (p : Fin 2) → (c : Dev nD) → Dat τ (Elt F) Unit ℕ (UR sig nD τ) ℕ (cfgs p) c
  | ⟨0, _⟩ => fun c => Hop0.dat (E1 m) c
  | ⟨1, _⟩ => fun c => Hop1.dat (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

-- `iapply` of a library lemma stated over `pin pcs a p` unifies with the pinned configuration only when unification may
-- unfold plain definitions in a metavariable's type
set_option backward.isDefEq.respectTransparency.types false in
/-- pallas_call 0 as a segment of @main: entered with every unscoped buffer at the contents before it, left with its
    result array at what the pipeline wrote back and every other buffer as entered.  Its arrays are split out of the
    unscoped buffers at entry and put back at exit; the generator register goes into the invariant and comes out; the
    scratch's running sum lives inside the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Hop0.body_obligation (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hop0.hin (E1 m) c)
    unfold Pipeline.ΦA
    iintro ⟨Hp, -, Hr⟩
    isplitl [Hr]; · iexact Hr
    iexact Hp
  hout c := by
    rw [Pipeline.ownSems0_none]
    refine BIBase.Entails.trans (Hop0.hout (E1 m) c) ?_
    unfold Pipeline.ΦA
    iintro ⟨Hr, Hp⟩
    isplitl [Hp]; · iexact Hp
    isplitr; · iempintro
    iexact Hr
  hexit c := by
    have hF : ∀ w : Fin cfg0.W, (pdats m 0 c).arrAt w cfg0.N = E2 m c (Pipeline.arrRef spec0 w) := fun w =>
      match w with
      | ⟨0, _⟩ => by
        rw [show (E2 m c) (Pipeline.arrRef spec0 ⟨0, by decide⟩) = E1 m c (Pipeline.arrRef spec0 ⟨0, by decide⟩) from
          Function.update_of_ne (StableHlo.devRef_ne_of_ne (by decide)) _ _]
        exact ((Hop0.dat (E1 m) c).arrAt_in ⟨0, by decide⟩ rfl _).trans (Hop0.A_eq (E1 m) c ⟨0, by decide⟩)
      | ⟨1, _⟩ => by
        rw [show (E2 m c) (Pipeline.arrRef spec0 ⟨1, by decide⟩) = E1 m c (Pipeline.arrRef spec0 ⟨1, by decide⟩) from
          Function.update_of_ne (StableHlo.devRef_ne_of_ne (by decide)) _ _]
        exact ((Hop0.dat (E1 m) c).arrAt_in ⟨1, by decide⟩ rfl _).trans (Hop0.A_eq (E1 m) c ⟨1, by decide⟩)
      | ⟨2, _⟩ => by
        rw [show (E2 m c) (Pipeline.arrRef spec0 ⟨2, by decide⟩) = E1 m c (Pipeline.arrRef spec0 ⟨2, by decide⟩) from
          Function.update_of_ne (StableHlo.devRef_ne_of_ne (by decide)) _ _]
        exact ((Hop0.dat (E1 m) c).arrAt_in ⟨2, by decide⟩ rfl _).trans (Hop0.A_eq (E1 m) c ⟨2, by decide⟩)
      | ⟨3, _⟩ => by
        rw [show (E2 m c) (Pipeline.arrRef spec0 ⟨3, by decide⟩) = E1 m c (Pipeline.arrRef spec0 ⟨3, by decide⟩) from
          Function.update_of_ne (StableHlo.devRef_ne_of_ne (by decide)) _ _]
        exact ((Hop0.dat (E1 m) c).arrAt_in ⟨3, by decide⟩ rfl _).trans (Hop0.A_eq (E1 m) c ⟨3, by decide⟩)
      | ⟨4, _⟩ => by
        rw [show (E2 m c) (Pipeline.arrRef spec0 ⟨4, by decide⟩) = E1 m c (Pipeline.arrRef spec0 ⟨4, by decide⟩) from
          Function.update_of_ne (StableHlo.devRef_ne_of_ne (by decide)) _ _]
        exact ((Hop0.dat (E1 m) c).arrAt_in ⟨4, by decide⟩ rfl _).trans (Hop0.A_eq (E1 m) c ⟨4, by decide⟩)
      | ⟨5, _⟩ =>
        (Pipeline.withArrays_arr spec0 launch0.win.arr_inj c (V1 m c) (fun w => (Hop0.dat (E1 m) c).arrAt w cfg0.N) ⟨5, by decide⟩).symm.trans
          (Function.update_self (f := V1 m c) (Proc.devRef .tc main_v23) (outs m 2 main_v23 c)).symm
    have hrest : ∀ b, b ∉ Finset.univ.image (Pipeline.arrRef spec0) → E2 m c b = E1 m c b := fun b hb =>
      Function.update_of_ne (StableHlo.devRef_ne_of_ne fun e => hb (Finset.mem_image.mpr ⟨⟨5, by decide⟩, Finset.mem_univ _, e.symm⟩)) _ _
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- pallas_call 1 as a segment of @main: entered with every unscoped buffer at the contents before it, left with its
    result array at what the pipeline wrote back and every other buffer as entered.  Its arrays are split out of the
    unscoped buffers at entry and put back at exit; the generator register goes into the invariant and comes out; the
    scratch's running sum lives inside the invariant; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Hop1.body_obligation (E3 m) c).loose
  hwaits := Pipeline.hwaits_of_owed_zero _ _ _ _ L lv 1 fun _ _ => rfl
  pre c := iprop(StableHlo.held (c : Thread nD τ) (Pipeline.ucRefs τ sig) (V3 m (outs m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [V3_outs m c, Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Hop1.hin (E3 m) c)
    unfold Pipeline.ΦA
    iintro ⟨Hp, -, Hr⟩
    isplitl [Hr]; · iexact Hr
    iexact Hp
  hout c := by
    rw [Pipeline.ownSems0_none]
    refine BIBase.Entails.trans (Hop1.hout (E3 m) c) ?_
    unfold Pipeline.ΦA
    iintro ⟨Hr, Hp⟩
    isplitl [Hp]; · iexact Hp
    isplitr; · iempintro
    iexact Hr
  hexit c := by
    have hF : ∀ w : Fin cfg1.W, (pdats m 1 c).arrAt w cfg1.N = E4 m c (Pipeline.arrRef spec1 w) := fun w =>
      match w with
      | ⟨0, _⟩ => by
        rw [show (E4 m c) (Pipeline.arrRef spec1 ⟨0, by decide⟩) = E3 m c (Pipeline.arrRef spec1 ⟨0, by decide⟩) from
          Function.update_of_ne (StableHlo.devRef_ne_of_ne (by decide)) _ _]
        exact ((Hop1.dat (E3 m) c).arrAt_in ⟨0, by decide⟩ rfl _).trans (Hop1.A_eq (E3 m) c ⟨0, by decide⟩)
      | ⟨1, _⟩ => by
        rw [show (E4 m c) (Pipeline.arrRef spec1 ⟨1, by decide⟩) = E3 m c (Pipeline.arrRef spec1 ⟨1, by decide⟩) from
          Function.update_of_ne (StableHlo.devRef_ne_of_ne (by decide)) _ _]
        exact ((Hop1.dat (E3 m) c).arrAt_in ⟨1, by decide⟩ rfl _).trans (Hop1.A_eq (E3 m) c ⟨1, by decide⟩)
      | ⟨2, _⟩ => by
        rw [show (E4 m c) (Pipeline.arrRef spec1 ⟨2, by decide⟩) = E3 m c (Pipeline.arrRef spec1 ⟨2, by decide⟩) from
          Function.update_of_ne (StableHlo.devRef_ne_of_ne (by decide)) _ _]
        exact ((Hop1.dat (E3 m) c).arrAt_in ⟨2, by decide⟩ rfl _).trans (Hop1.A_eq (E3 m) c ⟨2, by decide⟩)
      | ⟨3, _⟩ => by
        rw [show (E4 m c) (Pipeline.arrRef spec1 ⟨3, by decide⟩) = E3 m c (Pipeline.arrRef spec1 ⟨3, by decide⟩) from
          Function.update_of_ne (StableHlo.devRef_ne_of_ne (by decide)) _ _]
        exact ((Hop1.dat (E3 m) c).arrAt_in ⟨3, by decide⟩ rfl _).trans (Hop1.A_eq (E3 m) c ⟨3, by decide⟩)
      | ⟨4, _⟩ => by
        rw [show (E4 m c) (Pipeline.arrRef spec1 ⟨4, by decide⟩) = E3 m c (Pipeline.arrRef spec1 ⟨4, by decide⟩) from
          Function.update_of_ne (StableHlo.devRef_ne_of_ne (by decide)) _ _]
        exact ((Hop1.dat (E3 m) c).arrAt_in ⟨4, by decide⟩ rfl _).trans (Hop1.A_eq (E3 m) c ⟨4, by decide⟩)
      | ⟨5, _⟩ =>
        (Pipeline.withArrays_arr spec1 launch1.win.arr_inj c (V3 m (outs0 m) c) (fun w => (Hop1.dat (E3 m) c).arrAt w cfg1.N) ⟨5, by decide⟩).symm.trans
          (Function.update_self (f := V3 m (outs m) c) (Proc.devRef .tc main_v40) (outs m 4 main_v40 c)).symm
    have hrest : ∀ b, b ∉ Finset.univ.image (Pipeline.arrRef spec1) → E4 m c b = E3 m c b := fun b hb =>
      Function.update_of_ne (StableHlo.devRef_ne_of_ne fun e => hb (Finset.mem_image.mpr ⟨⟨5, by decide⟩, Finset.mem_univ _, e.symm⟩)) _ _
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main from memory `m` with zero counters terminates without a fault, and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩; iexact HO)
    (R0 := reg0 m) (hpre0 := fun c => .rfl) (hpost0 := fun c => .rfl)
    (R1 := reg1 m) (hpre1 := fun c => .rfl) (hpost1 := fun c => .rfl)

end Cert.KernelIdeal.Hops
end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KiAcc0.lean ====
/-
  The running sum of pallas_call 0 at the last step of a row-block, read at an index: the sum, over ALL 40960 source
  rows, of the diffusion entry times the source entry.

  The grid's point t = 20·m + kb is reduction step kb of row-block m. One call adds to the scratch (to zero, at kb = 0)
  the product of the 1024×2048 tile of the diffusion matrix at block (m, kb) with the 2048×128 tile of source rows at
  block (kb, 0); entry (p, q) of that product is the sum over kk < 2048 of D(1024·m + p, 2048·kb + kk) · X(2048·kb + kk, q).
  By induction on kb the scratch after step kb holds, at (p, q), the sum of the first 2048·(kb + 1) summands
  D(1024·m + p, s) · X(s, q), s = 0, 1, …: a sum over a stretch of naturals splits as the stretch before plus the
  2048 summands that follow it. At kb = 19 the stretch is all 40960 source rows. Addition on the extended reals is
  commutative and associative, and zero is its unit; nothing else is used.
-/
import proofs.«179562_j36550171689307_1_alg».proof.Proof.KiDat0
import proofs.«179562_j36550171689307_1_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hop0

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The arrays the call reads, at their literal types. -/
abbrev difA (c : Dev nD) : FVec Ideal S4096x40960 .f32 := V c main_arg6
abbrev srcA (c : Dev nD) : FVec Ideal S40960x128 .f32 := V c main_v20
abbrev dstA (c : Dev nD) : FVec Ideal S4096x128 .f32 := V c main_v13
abbrev waA (c : Dev nD) : FVec Ideal S128x128 .f32 := V c main_v21
abbrev wbA (c : Dev nD) : FVec Ideal S128x128 .f32 := V c main_v22

/-- One step of the running sum at an index: the tile product added to what the scratch held. -/
theorem pay2_at (x2 : Vec Ideal S1024x2048 .f32) (x3 : Vec Ideal S2048x128 .f32) (s : Vec Ideal S1024x128 .f32)
    (p : Fin 1024) (q : Fin 128) :
    k0_pay2 x2 x3 s (ix2 p q) = s (ix2 p q) + ∑ kk : Fin 2048, x2 (ix2 p kk) * x3 (ix2 kk q) := by
  unfold k0_pay2
  simp only [shapeCast_self]
  show s (ix2 p q) + FloatOps.matmul (DotDims.plain 1024 2048 128) none (truncf (F := Ideal) .bf16 x2 bitsLt_bf16_f32)
      (truncf (F := Ideal) .bf16 x3 bitsLt_bf16_f32) (constant ⟨2, ![1024, 128]⟩ .f32 0x00000000#32) (ix2 p q) = _
  rw [Cert.LibDense.matmul_plain_zero_apply]
  rfl

/-- The zero block at an index. -/
theorem pay1_at (p : Fin 1024) (q : Fin 128) : (k0_pay1 (F := Ideal)) (ix2 p q) = 0 := by
  unfold k0_pay1
  simp only [shapeCast_self]
  show Ideal.ofBits .f32 0x00000000#32 = 0
  exact Ideal.ofBits_zero_f32

/-- The printed index maps of the two tiled inputs, over the 80 points of the grid: point `t` is row-block `t / 20`
    at reduction step `t % 20`. -/
theorem idx_facts : ∀ t : Fin cfg0.N, win0_0.index t (0 : Fin 2) = t.val / 20 ∧ win0_0.index t (1 : Fin 2) = t.val % 20
    ∧ win0_1.index t (0 : Fin 2) = t.val % 20 ∧ win0_1.index t (1 : Fin 2) = 0 :=
  (by decide +kernel : ∀ t : Fin grid0.N, _)

/-- The diffusion tile at point `t`, read at an index. -/
theorem iblk0_at (c : Dev nD) (t : Fin cfg0.N) (p : Fin 1024) (kk : Fin 2048) (r : Fin 4096) (s : Fin 40960)
    (hr : r.val = 1024 * (t.val / 20) + p.val) (hs : s.val = 2048 * (t.val % 20) + kk.val) :
    iblk V c 0 t (ix2 p kk) = difA V c (ix2 r s) := by
  obtain ⟨e0, e1, e2, e3⟩ := idx_facts t
  show V c main_arg6 (((cfg0.win 0).blk t).view.emb (ix2 p kk)) = V c main_arg6 (ix2 r s)
  refine congrArg _ (funext fun a => Fin.ext ?_)
  match a with
  | ⟨0, _⟩ => show win0_0.index t (0 : Fin 2) * 1024 + 1 * p.val = r.val; omega
  | ⟨1, _⟩ => show win0_0.index t (1 : Fin 2) * 2048 + 1 * kk.val = s.val; omega

/-- The tile of source rows at point `t`, read at an index. -/
theorem iblk1_at (c : Dev nD) (t : Fin cfg0.N) (kk : Fin 2048) (q : Fin 128) (s : Fin 40960)
    (hs : s.val = 2048 * (t.val % 20) + kk.val) :
    iblk V c 1 t (ix2 kk q) = srcA V c (ix2 s q) := by
  obtain ⟨e0, e1, e2, e3⟩ := idx_facts t
  show V c main_v20 (((cfg0.win 1).blk t).view.emb (ix2 kk q)) = V c main_v20 (ix2 s q)
  refine congrArg _ (funext fun a => Fin.ext ?_)
  match a with
  | ⟨0, _⟩ => show win0_1.index t (0 : Fin 2) * 2048 + 1 * kk.val = s.val; omega
  | ⟨1, _⟩ => show win0_1.index t (1 : Fin 2) * 128 + 1 * q.val = q.val; omega

/-- The summand at source row `s` — entry (r, s) of the diffusion matrix times entry (s, q) of the source rows —, and
    zero past the last row, so that partial sums may run over stretches of naturals. -/
def term (c : Dev nD) (r : Fin 4096) (q : Fin 128) (s : ℕ) : EReal :=
  if h : s < 40960 then difA V c (ix2 r ⟨s, h⟩) * srcA V c (ix2 ⟨s, h⟩ q) else 0

/-- A product of two tiles that hold columns and rows `2048·kb …` of the two arrays is the stretch of 2048 summands
    from `2048·kb`. -/
theorem tile_sum (c : Dev nD) (kb : ℕ) (hkb : kb < 20) (p : Fin 1024) (q : Fin 128) (r : Fin 4096)
    (x2 : Vec Ideal S1024x2048 .f32) (x3 : Vec Ideal S2048x128 .f32)
    (h2 : ∀ (kk : Fin 2048) (hlt : 2048 * kb + kk.val < 40960), x2 (ix2 p kk) = difA V c (ix2 r ⟨2048 * kb + kk.val, hlt⟩))
    (h3 : ∀ (kk : Fin 2048) (hlt : 2048 * kb + kk.val < 40960), x3 (ix2 kk q) = srcA V c (ix2 ⟨2048 * kb + kk.val, hlt⟩ q)) :
    ∑ kk : Fin 2048, x2 (ix2 p kk) * x3 (ix2 kk q)
      = ∑ kk ∈ Finset.range 2048, term V c r q (2048 * kb + kk) := by
  rw [← Fin.sum_univ_eq_sum_range (fun kk => term V c r q (2048 * kb + kk)) 2048]
  refine Finset.sum_congr rfl fun kk _ => ?_
  have hlt : 2048 * kb + kk.val < 40960 := by have := kk.isLt; omega
  rw [h2 kk hlt, h3 kk hlt]
  show _ = term V c r q (2048 * kb + kk.val)
  unfold term
  rw [dif_pos hlt]

/-- One call at an index: at the first step of a row-block the scratch's old contents are dropped. -/
theorem step_at (c : Dev nD) (t : Fin cfg0.N) (m : Fin 4) (kb : ℕ) (hkb : kb < 20) (ht : t.val = 20 * m.val + kb)
    (s : Vec Ideal S1024x128 .f32) (p : Fin 1024) (q : Fin 128) (r : Fin 4096) (hr : r.val = 1024 * m.val + p.val) :
    accNext (grid0.coords t) (iblk V c 0 t) (iblk V c 1 t) s (ix2 p q)
      = (if kb = 0 then 0 else s (ix2 p q)) + ∑ kk ∈ Finset.range 2048, term V c r q (2048 * kb + kk) := by
  have hd : t.val / 20 = m.val := by omega
  have hm : t.val % 20 = kb := by omega
  unfold accNext
  refine (pay2_at _ _ _ p q).trans ?_
  rw [tile_sum V c kb hkb p q r (iblk V c 0 t) (iblk V c 1 t)
    (fun kk hlt => iblk0_at V c t p kk r ⟨2048 * kb + kk.val, hlt⟩ (by rw [hd]; exact hr) (by rw [hm]))
    (fun kk hlt => iblk1_at V c t kk q ⟨2048 * kb + kk.val, hlt⟩ (by rw [hm]))]
  congr 1
  by_cases hk : kb = 0
  · have hf : first (grid0.coords t) := (hfirst t).mpr (by omega)
    rw [if_pos hf, if_pos hk, pay1_at]
  · have hf : ¬ first (grid0.coords t) := fun hf => hk (by have := (hfirst t).mp hf; omega)
    rw [if_neg hf, if_neg hk]

/-- THE PARTIAL SUMS: after reduction step `kb` of row-block `m` the scratch holds the first `2048·(kb + 1)` summands. -/
theorem accAt_partial (c : Dev nD) (m : Fin 4) (p : Fin 1024) (q : Fin 128) (r : Fin 4096) (hr : r.val = 1024 * m.val + p.val) :
    ∀ (kb : ℕ) (hkb : kb < 20) (t : Fin cfg0.N) (ht : t.val = 20 * m.val + kb),
      accAt V c t.val t.isLt (ix2 p q) = ∑ s ∈ Finset.range (2048 * (kb + 1)), term V c r q s
  | 0, hkb, t, ht => by
    have hstep : ∃ s, accAt V c t.val t.isLt = accNext (grid0.coords t) (iblk V c 0 t) (iblk V c 1 t) s := by
      by_cases hz : t.val = 0
      · exact ⟨(k0_pay1 (F := Ideal)), accAt_zero V c t hz _⟩
      · exact ⟨_, accAt_pos V c t hz⟩
    obtain ⟨s, hs⟩ := hstep
    rw [hs, step_at V c t m 0 hkb ht s p q r hr, if_pos rfl, zero_add]
    simp only [Nat.mul_zero, Nat.zero_add, Nat.mul_one]
  | kb + 1, hkb, t, ht => by
    have hz : t.val ≠ 0 := by omega
    have hN : cfg0.N = 80 := N_0
    have hlt : t.val - 1 < cfg0.N := by have := t.isLt; omega
    have ih := accAt_partial c m p q r hr kb (by omega) ⟨t.val - 1, hlt⟩ (by show t.val - 1 = 20 * m.val + kb; omega)
    rw [accAt_pos V c t hz, step_at V c t m (kb + 1) hkb ht _ p q r hr, if_neg (Nat.succ_ne_zero kb)]
    refine (congrArg (· + _) ih).trans ?_
    rw [show 2048 * (kb + 1 + 1) = 2048 * (kb + 1) + 2048 by ring, Finset.sum_range_add]

/-- At the last step of row-block `mb`, entry (p, q) of the scratch is row `1024·mb + p` of the diffusion matrix against
    column `q` of the source rows, summed over every source row. -/
theorem accAt_last (c : Dev nD) (mb : Fin 4) (p : Fin 1024) (q : Fin 128) (h : 20 * mb.val + 19 < cfg0.N) :
    accAt (F := Ideal) V c (20 * mb.val + 19) h (ix2 p q)
      = ∑ s : Fin 40960, difA V c (ix2 (⟨1024 * mb.val + p.val, by omega⟩ : Fin 4096) s)
          * srcA V c (ix2 s q) := by
  refine (accAt_partial V c mb p q ⟨1024 * mb.val + p.val, by omega⟩ rfl 19 (by omega) ⟨20 * mb.val + 19, h⟩ rfl).trans ?_
  rw [show 2048 * (19 + 1) = 40960 by norm_num, ← Fin.sum_univ_eq_sum_range (fun s => term V c _ q s) 40960]
  refine Finset.sum_congr rfl fun s _ => ?_
  unfold term
  rw [dif_pos s.isLt]

end Cert.KernelIdeal.Hop0

end
-- ==== Proof.KiSpec.lean ====
/-
  One message-passing hop, as a function of whole arrays at the exact-arithmetic instance.

  Row `r` of the result mixes two things through the two halves `wa`, `wb` of the layer's weights: the diffusion
  row `r` applied to the gathered source rows (a sum over all source rows `s`), and destination row `r` itself.
  At column `j` that is  Σ_k (Σ_s dif[r,s]·src[s,k])·wa[k,j] + Σ_k dst[r,k]·wb[k,j],  followed by the maximum with
  zero in the first hop of the two.  Both programs are compared with this one function.
-/
import proofs.«179562_j36550171689307_1_alg».proof.KernelIdeal
import Idealize.ShloMosaic.Lib.ValueIdx
import Idealize.ShloMosaic.PureOps.Ideal

noncomputable section

namespace Cert.KernelIdeal.Spec

open Cert.KernelIdeal Idealize.ShloMosaic Idealize.ShloMosaic.ValueIdx

/-- One hop at row `r`, column `j`, over plain index functions on the extended reals. -/
def hopAt {R S : ℕ} (relu : Bool) (dif : Fin R → Fin S → EReal) (src : Fin S → Fin 128 → EReal)
    (dst : Fin R → Fin 128 → EReal) (wa wb : Fin 128 → Fin 128 → EReal) (r : Fin R) (j : Fin 128) : EReal :=
  let h := (∑ k : Fin 128, (∑ s : Fin S, dif r s * src s k) * wa k j) + ∑ k : Fin 128, dst r k * wb k j
  if relu then max h 0 else h

/-- The second hop (the first one applied): 4096 destination rows over 40960 source rows, with the ReLU. -/
def hop2 (dif : FVec Ideal S4096x40960 .f32) (src : FVec Ideal S40960x128 .f32) (dst : FVec Ideal S4096x128 .f32)
    (wa wb : FVec Ideal S128x128 .f32) : FVec Ideal S4096x128 .f32 :=
  fun i => hopAt true (fun r s => dif (ix2 r s)) (fun s k => src (ix2 s k)) (fun r k => dst (ix2 r k))
    (fun k j => wa (ix2 k j)) (fun k j => wb (ix2 k j)) (i 0) (i 1)

/-- The first hop (applied last): 1024 destination rows over 8192 source rows, no activation. -/
def hop1 (dif : FVec Ideal S1024x8192 .f32) (src : FVec Ideal S8192x128 .f32) (dst : FVec Ideal S1024x128 .f32)
    (wa wb : FVec Ideal S128x128 .f32) : FVec Ideal S1024x128 .f32 :=
  fun i => hopAt false (fun r s => dif (ix2 r s)) (fun s k => src (ix2 s k)) (fun r k => dst (ix2 r k))
    (fun k j => wa (ix2 k j)) (fun k j => wb (ix2 k j)) (i 0) (i 1)

end Cert.KernelIdeal.Spec

end
-- ==== Proof.KiValue0.lean ====
/-
  What pallas_call 0 leaves in its result array: the hop's function of the five arrays it reads.  The output block is
  written back only at the last step of each row-block, where the scratch holds the finished sum over all source
  rows; the 4 row-blocks tile the result, so the blocks written back are the restrictions of one whole-array function.
-/
import proofs.«179562_j36550171689307_1_alg».proof.Proof.KiAcc0
import proofs.«179562_j36550171689307_1_alg».proof.Proof.KiSpec

set_option maxRecDepth 16384

noncomputable section

namespace Cert.KernelIdeal.Hop0

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The output payload at an index: both products into zero are plain sums, the shape casts and the narrowing are
    identities, and the maximum is taken with zero. -/
theorem pay3_apply (acc x4 : Vec Ideal S1024x128 .f32) (x5 x6 : Vec Ideal S128x128 .f32) (p : Fin 1024) (j : Fin 128) :
    k0_pay3 acc x4 x5 x6 (ix2 p j)
      = max ((∑ k : Fin 128, acc (ix2 p k) * x5 (ix2 k j)) + ∑ k : Fin 128, x4 (ix2 p k) * x6 (ix2 k j)) 0 := by
  have hd : dot_S1024x128_S128x128_S1024x128_1_0_0_1_n_n = DotDims.plain 1024 128 128 := rfl
  unfold k0_pay3
  rw [hd, shapeCast_self, shapeCast_self, shapeCast_self]
  show max (FloatOps.matmul (DotDims.plain 1024 128 128) none (truncf .bf16 acc bitsLt_bf16_f32)
        (truncf .bf16 x5 bitsLt_bf16_f32) (constant S1024x128 .f32 0x00000000#32) (ix2 p j)
      + FloatOps.matmul (DotDims.plain 1024 128 128) none (truncf .bf16 x4 bitsLt_bf16_f32)
        (truncf .bf16 x6 bitsLt_bf16_f32) (constant S1024x128 .f32 0x00000000#32) (ix2 p j))
      (Ideal.ofBits .f32 0x00000000#32) = _
  rw [Cert.LibDense.matmul_plain_zero_apply, Cert.LibDense.matmul_plain_zero_apply, Ideal.ofBits_zero_f32]
  rfl

/-- The blocks of the destination rows and of the two weight halves at a point, at their literal types. -/
abbrev dstB (c : Dev nD) (t : Fin cfg0.N) : Vec Ideal S1024x128 .f32 := iblk V c 2 t
abbrev waB (c : Dev nD) (t : Fin cfg0.N) : Vec Ideal S128x128 .f32 := iblk V c 3 t
abbrev wbB (c : Dev nD) (t : Fin cfg0.N) : Vec Ideal S128x128 .f32 := iblk V c 4 t

/-- The block indices of the windows of the destination rows, of the weights and of the result, checked at each of the 80 points of
    the grid: the row-block is the quotient of the point by the length of the reduction axis, every other block index
    is zero. -/
theorem idx_facts_out : ∀ t : Fin cfg0.N, win0_2.index t (0 : Fin 2) = t.val / 20 ∧ win0_2.index t (1 : Fin 2) = 0
    ∧ win0_5.index t (0 : Fin 2) = t.val / 20 ∧ win0_5.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Entry (p, k) of the destination block at a point is row 1024·(row-block) + p of the destination array. -/
theorem dstB_apply (c : Dev nD) (t : Fin cfg0.N) (p : Fin 1024) (k : Fin 128) (r : Fin 4096)
    (hr : r.val = 1024 * (t.val / 20) + p.val) :
    dstB V c t (ix2 p k) = dstA V c (ix2 r k) := by
  obtain ⟨e0, e1, -⟩ := idx_facts_out t
  unfold dstB iblk
  rw [View.read_apply]
  show V c main_v13 _ = V c main_v13 _
  congr 1
  funext a
  apply Fin.ext
  match a with
  | ⟨0, _⟩ => show win0_2.index t (0 : Fin 2) * 1024 + 1 * p.val = r.val; rw [e0, hr]; omega
  | ⟨1, _⟩ => show win0_2.index t (1 : Fin 2) * 128 + 1 * k.val = k.val; rw [e1]; omega

/-- The first weight half's block is the whole array at every point. -/
theorem waB_eq (c : Dev nD) (t : Fin cfg0.N) : waB V c t = waA V c := by
  obtain ⟨-, -, -, -, e0, e1, -⟩ := idx_facts_out t
  funext i
  unfold waB iblk
  rw [View.read_apply]
  show V c main_v21 _ = V c main_v21 _
  congr 1
  funext a
  apply Fin.ext
  match a with
  | ⟨0, _⟩ => show win0_3.index t (0 : Fin 2) * 128 + 1 * (i 0).val = (i 0).val; rw [e0]; omega
  | ⟨1, _⟩ => show win0_3.index t (1 : Fin 2) * 128 + 1 * (i 1).val = (i 1).val; rw [e1]; omega

/-- The second weight half's block is the whole array at every point. -/
theorem wbB_eq (c : Dev nD) (t : Fin cfg0.N) : wbB V c t = wbA V c := by
  obtain ⟨-, -, -, -, -, -, e0, e1⟩ := idx_facts_out t
  funext i
  unfold wbB iblk
  rw [View.read_apply]
  show V c main_v22 _ = V c main_v22 _
  congr 1
  funext a
  apply Fin.ext
  match a with
  | ⟨0, _⟩ => show win0_4.index t (0 : Fin 2) * 128 + 1 * (i 0).val = (i 0).val; rw [e0]; omega
  | ⟨1, _⟩ => show win0_4.index t (1 : Fin 2) * 128 + 1 * (i 1).val = (i 1).val; rw [e1]; omega

/-- The whole result array: the hop's value of the five arrays. -/
abbrev G (c : Dev nD) : FVec Ideal S4096x128 .f32 :=
  Cert.KernelIdeal.Spec.hop2 (difA V c) (srcA V c) (dstA V c) (waA V c) (wbA V c)

/-- The block stored at the last step of row-block mb, at an index: the hop's value at row 1024·mb + p. -/
theorem outAt_last (c : Dev nD) (mb : Fin 4) (h : 20 * mb.val + 19 < cfg0.N) (p : Fin 1024) (q : Fin 128) :
    outAt (F := Ideal) V c (20 * mb.val + 19) h (ix2 p q)
      = G V c (ix2 (⟨1024 * mb.val + p.val, by omega⟩ : Fin 4096) q) := by
  unfold outAt
  refine (pay3_apply (accAt (F := Ideal) V c (20 * mb.val + 19) h) (dstB V c ⟨20 * mb.val + 19, h⟩)
    (waB V c ⟨20 * mb.val + 19, h⟩) (wbB V c ⟨20 * mb.val + 19, h⟩) p q).trans ?_
  have e1 : ∀ k : Fin 128, accAt (F := Ideal) V c (20 * mb.val + 19) h (ix2 p k)
        * waB V c ⟨20 * mb.val + 19, h⟩ (ix2 k q)
      = (∑ s : Fin 40960, difA V c (ix2 (⟨1024 * mb.val + p.val, by omega⟩ : Fin 4096) s) * srcA V c (ix2 s k))
        * waA V c (ix2 k q) := fun k => by
    rw [accAt_last V c mb p k h, waB_eq V c ⟨20 * mb.val + 19, h⟩]
  have e2 : ∀ k : Fin 128, dstB V c ⟨20 * mb.val + 19, h⟩ (ix2 p k) * wbB V c ⟨20 * mb.val + 19, h⟩ (ix2 k q)
      = dstA V c (ix2 (⟨1024 * mb.val + p.val, by omega⟩ : Fin 4096) k) * wbA V c (ix2 k q) := fun k => by
    rw [dstB_apply V c ⟨20 * mb.val + 19, h⟩ p k (⟨1024 * mb.val + p.val, by omega⟩ : Fin 4096)
      (by show 1024 * mb.val + p.val = 1024 * ((20 * mb.val + 19) / 20) + p.val; omega),
      wbB_eq V c ⟨20 * mb.val + 19, h⟩]
  rw [Finset.sum_congr rfl fun k _ => e1 k, Finset.sum_congr rfl fun k _ => e2 k]
  unfold G Cert.KernelIdeal.Spec.hop2 Cert.KernelIdeal.Spec.hopAt
  rfl

/-- What a flushing point writes back is its block of the whole-array function. -/
theorem flushed5_eq (c : Dev nD) (t : Fin cfg0.N) (hf : (cfg0.win 5).flush t = true) :
    (dat (F := Ideal) V c).flushed 5 t = ((cfg0.win 5).blk t).view.read (Elt Ideal) (G V c) := by
  have hN : cfg0.N = 80 := N_0
  have h19 : t.val % 20 = 19 := (flush0_5 t).mp hf
  obtain ⟨mb, hmb, rfl⟩ : ∃ (mb : Fin 4) (hmb : 20 * mb.val + 19 < cfg0.N), t = ⟨20 * mb.val + 19, hmb⟩ :=
    ⟨⟨t.val / 20, by have := t.isLt; omega⟩, by show 20 * (t.val / 20) + 19 < cfg0.N; have := t.isLt; omega,
      Fin.ext (by show t.val = 20 * (t.val / 20) + 19; omega)⟩
  obtain ⟨-, -, e0, e1, -⟩ := idx_facts_out ⟨20 * mb.val + 19, hmb⟩
  funext y
  obtain ⟨p, q, rfl⟩ : ∃ (p : Fin 1024) (q : Fin 128), y = ix2 p q := ⟨y 0, y 1, eq_ix2 y⟩
  rw [View.read_apply]
  have hi : ((cfg0.win 5).blk ⟨20 * mb.val + 19, hmb⟩).view.emb (ix2 p q)
      = (ix2 (⟨1024 * mb.val + p.val, by omega⟩ : Fin 4096) q : S4096x128.Idx) := by
    funext a
    apply Fin.ext
    match a with
    | ⟨0, _⟩ =>
      show win0_5.index ⟨20 * mb.val + 19, hmb⟩ (0 : Fin 2) * 1024 + 1 * p.val = 1024 * mb.val + p.val
      rw [e0]
      show (20 * mb.val + 19) / 20 * 1024 + 1 * p.val = 1024 * mb.val + p.val
      omega
    | ⟨1, _⟩ =>
      show win0_5.index ⟨20 * mb.val + 19, hmb⟩ (1 : Fin 2) * 128 + 1 * q.val = q.val
      rw [e1]
      omega
  have hL : (dat (F := Ideal) V c).flushed 5 ⟨20 * mb.val + 19, hmb⟩ (ix2 p q)
      = outAt (F := Ideal) V c (20 * mb.val + 19) hmb (ix2 p q) := by
    show (cfg0.win 5).cut (grid0.coords ⟨20 * mb.val + 19, hmb⟩) ((dat V c).after 5 ⟨20 * mb.val + 19, hmb⟩) (ix2 p q) = _
    rw [after_5]
    rfl
  refine hL.trans ((outAt_last V c mb hmb p q).trans ?_)
  show G V c _ = G V c _
  rw [hi]

/-- An index of the result array is in a point's block iff each coordinate is in the block's range on its axis. -/
theorem mem_blk5 (t : Fin cfg0.N) (i : S4096x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v23).slice (win0_5.rect t)).set ↔ _
  rw [View.set_slice_whole, Rect.mem_set_unit]
  exact Iff.rfl

/-- After the region, its result array is the hop's value of the arrays the region found. -/
theorem arrAt5 (c : Dev nD) :
    ((dat (F := Ideal) V c).arrAt 5 cfg0.N : FVec Ideal S4096x128 .f32)
      = Cert.KernelIdeal.Spec.hop2 (difA V c) (srcA V c) (dstA V c) (waA V c) (wbA V c) :=
  (dat (F := Ideal) V c).arrAt_eq_of_cover 5 (G V c) (flushed5_eq V c) fun i => by
    have hN : cfg0.N = 80 := N_0
    have h0 : (i 0).val < 4096 := (i 0).isLt
    have h1 : (i 1).val < 128 := (i 1).isLt
    have hlt : 20 * ((i 0).val / 1024) + 19 < cfg0.N := by omega
    obtain ⟨-, -, e0, e1, -⟩ := idx_facts_out ⟨20 * ((i 0).val / 1024) + 19, hlt⟩
    refine ⟨⟨20 * ((i 0).val / 1024) + 19, hlt⟩,
      (flush0_5 _).mpr (by show (20 * ((i 0).val / 1024) + 19) % 20 = 19; omega), ?_⟩
    rw [mem_blk5]
    intro a
    match a with
    | ⟨0, _⟩ =>
      show win0_5.index ⟨20 * ((i 0).val / 1024) + 19, hlt⟩ (0 : Fin 2) * 1024 ≤ (i 0).val
        ∧ (i 0).val < win0_5.index ⟨20 * ((i 0).val / 1024) + 19, hlt⟩ (0 : Fin 2) * 1024 + 1024
      rw [e0]
      show (20 * ((i 0).val / 1024) + 19) / 20 * 1024 ≤ (i 0).val
        ∧ (i 0).val < (20 * ((i 0).val / 1024) + 19) / 20 * 1024 + 1024
      omega
    | ⟨1, _⟩ =>
      show win0_5.index ⟨20 * ((i 0).val / 1024) + 19, hlt⟩ (1 : Fin 2) * 128 ≤ (i 1).val
        ∧ (i 1).val < win0_5.index ⟨20 * ((i 0).val / 1024) + 19, hlt⟩ (1 : Fin 2) * 128 + 128
      rw [e1]
      omega

end Cert.KernelIdeal.Hop0

end
-- ==== Proof.KiAcc1.lean ====
/-
  The running sum of pallas_call 1 at the last step of a row-block, read at an index: the sum, over ALL 8192 source
  rows, of the diffusion entry times the source entry — the tile products of the 4 steps of the reduction axis,
  added onto zero one after the other, regrouped as one sum (addition on the extended reals is commutative and
  associative, and zero is its unit; nothing else is used).

  The steps.  (1) One call of the body at an index: the new scratch entry (p, q) is the old one (zero at the first
  step of the reduction axis) plus ∑ kk < 2048, x2 (p, kk) · x3 (kk, q), where x2 and x3 are the two input tiles; the
  roundings to the narrower format are the identity on the extended reals and the tile product is accumulated into
  zero.  (2) The tiles are restrictions of the arrays: at grid point t = 4·m + kb the diffusion tile's entry (p, kk) is
  the matrix's entry (1024·m + p, 2048·kb + kk), the source tile's entry (kk, q) is the source's entry
  (2048·kb + kk, q) — a block's coordinate is its block index times its size plus the coordinate inside.  (3) By
  induction along the reduction axis, after step kb the scratch entry is ∑ b ≤ kb of tile b's product.  (4) The
  4 × 2048 pairs (b, kk) are the 8192 source rows 2048·b + kk, each once.
-/
import proofs.«179562_j36550171689307_1_alg».proof.Proof.KiDat1
import proofs.«179562_j36550171689307_1_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hop1

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The arrays the call reads, at their literal types. -/
abbrev difA (c : Dev nD) : FVec Ideal S1024x8192 .f32 := V c main_arg5
abbrev srcA (c : Dev nD) : FVec Ideal S8192x128 .f32 := V c main_v37
abbrev dstA (c : Dev nD) : FVec Ideal S1024x128 .f32 := V c main_v30
abbrev waA (c : Dev nD) : FVec Ideal S128x128 .f32 := V c main_v38
abbrev wbA (c : Dev nD) : FVec Ideal S128x128 .f32 := V c main_v39

/-! ## One call of the body, at an index -/

/-- The block the first step overwrites the scratch with is zero everywhere. -/
theorem pay1_apply (p : Fin 1024) (q : Fin 128) : k1_pay1 (F := Ideal) (ix2 p q) = 0 := by
  unfold k1_pay1
  rw [shapeCast_self]
  exact Ideal.ofBits_zero_f32

/-- The updated scratch at (p, q): what was there plus row p of the left tile against column q of the right tile. -/
theorem pay2_apply (x2 : Vec Ideal S1024x2048 .f32) (x3 : Vec Ideal S2048x128 .f32) (s : Vec Ideal S1024x128 .f32)
    (p : Fin 1024) (q : Fin 128) :
    k1_pay2 (F := Ideal) x2 x3 s (ix2 p q) = s (ix2 p q) + ∑ kk : Fin 2048, x2 (ix2 p kk) * x3 (ix2 kk q) := by
  unfold k1_pay2
  rw [shapeCast_self, shapeCast_self]
  refine (addf_apply (s := S1024x128) (φ := .f32) s _ (ix2 p q)).trans ?_
  refine congrArg (fun z : EReal => s (ix2 p q) + z) ?_
  have hd : dot_S1024x2048_S2048x128_S1024x128_1_0_0_1_n_n = DotDims.plain 1024 2048 128 := rfl
  rw [hd]
  exact Cert.LibDense.matmul_plain_zero_apply (M := 1024) (K := 2048) (N := 128) none
    (truncf .bf16 x2 bitsLt_bf16_f32) (truncf .bf16 x3 bitsLt_bf16_f32) p q

/-! ## The two input tiles are restrictions of their arrays -/

/-- The block indices of the two input windows over the 4 points: (row-block, reduction step) for the diffusion
    matrix, (reduction step, 0) for the source rows. -/
theorem idx_facts : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0 :=
  (by decide +kernel : ∀ t : Fin grid1.N, _)

/-- The two input tiles at point t, at their literal types. -/
abbrev difT (c : Dev nD) (t : Fin cfg1.N) : Vec Ideal S1024x2048 .f32 := iblk V c 0 t
abbrev srcT (c : Dev nD) (t : Fin cfg1.N) : Vec Ideal S2048x128 .f32 := iblk V c 1 t

/-- Entry (p, kk) of the diffusion tile at point t is entry (1024·(t / 4) + p, 2048·(t % 4) + kk) of the matrix. -/
theorem dif_blk (c : Dev nD) (t : Fin cfg1.N) (p : Fin 1024) (kk : Fin 2048) (r : Fin 1024) (s : Fin 8192)
    (hr : r.val = 1024 * (t.val / 4) + p.val) (hs : s.val = 2048 * (t.val % 4) + kk.val) :
    difT V c t (ix2 p kk) = difA V c (ix2 r s) := by
  obtain ⟨e0, e1, e2, e3⟩ := idx_facts t
  show V c main_arg5 (((cfg1.win 0).blk t).view.emb (ix2 p kk)) = V c main_arg5 (ix2 r s)
  refine congrArg (V c main_arg5) ?_
  funext a; apply Fin.ext
  match a with
  | ⟨0, _⟩ => show win1_0.index t (0 : Fin 2) * 1024 + 1 * p.val = r.val; omega
  | ⟨1, _⟩ => show win1_0.index t (1 : Fin 2) * 2048 + 1 * kk.val = s.val; omega

/-- Entry (kk, q) of the source tile at point t is entry (2048·(t % 4) + kk, q) of the source rows. -/
theorem src_blk (c : Dev nD) (t : Fin cfg1.N) (kk : Fin 2048) (q : Fin 128) (s : Fin 8192)
    (hs : s.val = 2048 * (t.val % 4) + kk.val) :
    srcT V c t (ix2 kk q) = srcA V c (ix2 s q) := by
  obtain ⟨e0, e1, e2, e3⟩ := idx_facts t
  show V c main_v37 (((cfg1.win 1).blk t).view.emb (ix2 kk q)) = V c main_v37 (ix2 s q)
  refine congrArg (V c main_v37) ?_
  funext a; apply Fin.ext
  match a with
  | ⟨0, _⟩ => show win1_1.index t (0 : Fin 2) * 2048 + 1 * kk.val = s.val; omega
  | ⟨1, _⟩ => show win1_1.index t (1 : Fin 2) * 128 + 1 * q.val = q.val; omega

/-! ## The tile products and the running sum along the reduction axis -/

/-- Tile b's share of the full sum at (r, q): source rows 2048·b … 2048·b + 2047. -/
def tile (c : Dev nD) (r : Fin 1024) (q : Fin 128) (b : Fin 4) : EReal :=
  ∑ kk : Fin 2048, difA V c (ix2 r (⟨2048 * b.val + kk.val, by omega⟩ : Fin 8192))
    * srcA V c (ix2 (⟨2048 * b.val + kk.val, by omega⟩ : Fin 8192) q)

/-- The same as a function of every natural number: zero past the last tile. -/
def tileN (c : Dev nD) (r : Fin 1024) (q : Fin 128) (b : ℕ) : EReal :=
  if hb : b < 4 then tile V c r q ⟨b, hb⟩ else 0

/-- One call at point t, at an index: the scratch entry it found (zero at a first step) plus the share of tile t % 4,
    on row 1024·(t / 4) + p of the matrix. -/
theorem step_apply (c : Dev nD) (t : Fin cfg1.N) (s : Vec Ideal S1024x128 .f32) (p : Fin 1024) (q : Fin 128)
    (r : Fin 1024) (b : Fin 4) (hr : r.val = 1024 * (t.val / 4) + p.val) (hb : b.val = t.val % 4) :
    accNext (F := Ideal) (grid1.coords t) (iblk V c 0 t) (iblk V c 1 t) s (ix2 p q)
      = (if t.val % 4 = 0 then 0 else s (ix2 p q)) + tile V c r q b := by
  unfold accNext
  refine (pay2_apply (difT V c t) (srcT V c t) (if first (grid1.coords t) then k1_pay1 (F := Ideal) else s) p q).trans ?_
  have e1 : (if first (grid1.coords t) then k1_pay1 (F := Ideal) else s) (ix2 p q) = (if t.val % 4 = 0 then (0 : EReal) else s (ix2 p q)) := by
    by_cases h0 : t.val % 4 = 0
    · rw [if_pos h0, if_pos ((hfirst t).mpr h0)]; exact pay1_apply p q
    · rw [if_neg h0, if_neg (fun hf => h0 ((hfirst t).mp hf))]
  have e2 : (∑ kk : Fin 2048, difT V c t (ix2 p kk) * srcT V c t (ix2 kk q))
      = tile V c r q b := by
    unfold tile
    refine Finset.sum_congr rfl fun kk _ => ?_
    rw [dif_blk V c t p kk r ⟨2048 * b.val + kk.val, by omega⟩ hr (by show 2048 * b.val + kk.val = _; omega),
      src_blk V c t kk q ⟨2048 * b.val + kk.val, by omega⟩ (by show 2048 * b.val + kk.val = _; omega)]
  rw [e1, e2]

/-- The scratch after a point depends on the point only through its number. -/
theorem accAt_congr (c : Dev nD) {n n' : ℕ} (e : n = n') (h : n < cfg1.N) (h' : n' < cfg1.N) :
    accAt (F := Ideal) V c n h = accAt V c n' h' := by
  subst e; rfl

/-- The scratch after point t at an index: what the point before left (nothing of it at a first step) plus tile
    t % 4's share. -/
theorem accAt_point (c : Dev nD) (t : Fin cfg1.N) (p : Fin 1024) (q : Fin 128) (r : Fin 1024) (b : Fin 4)
    (hr : r.val = 1024 * (t.val / 4) + p.val) (hb : b.val = t.val % 4) :
    accAt (F := Ideal) V c t.val t.isLt (ix2 p q)
      = (if t.val % 4 = 0 then 0 else accAt (F := Ideal) V c (t.val - 1) (by omega) (ix2 p q)) + tile V c r q b := by
  by_cases hz : t.val = 0
  · rw [accAt_zero V c t hz (k1_pay1 (F := Ideal)), step_apply V c t (k1_pay1 (F := Ideal)) p q r b hr hb, if_pos (by omega), if_pos (by omega)]
  · rw [accAt_pos V c t hz, step_apply V c t _ p q r b hr hb]

/-- After reduction step kb of row-block mb the scratch entry is the sum of the shares of tiles 0 … kb. -/
theorem accAt_partial (c : Dev nD) (mb : Fin 1) (p : Fin 1024) (q : Fin 128) (r : Fin 1024)
    (hr : r.val = 1024 * mb.val + p.val) :
    ∀ (kb : ℕ) (hk : kb < 4) (h : 4 * mb.val + kb < cfg1.N),
      accAt (F := Ideal) V c (4 * mb.val + kb) h (ix2 p q) = ∑ b ∈ Finset.range (kb + 1), tileN V c r q b
  | 0, hk, h => by
    have e := accAt_point V c ⟨4 * mb.val + 0, h⟩ p q r ⟨0, by omega⟩
      (by show r.val = 1024 * ((4 * mb.val + 0) / 4) + p.val; omega) (by show 0 = (4 * mb.val + 0) % 4; omega)
    rw [if_pos (by show (4 * mb.val + 0) % 4 = 0; omega), zero_add] at e
    rw [Finset.sum_range_one]
    unfold tileN
    rw [dif_pos (by omega)]
    exact e
  | kb + 1, hk, h => by
    have e := accAt_point V c ⟨4 * mb.val + (kb + 1), h⟩ p q r ⟨kb + 1, hk⟩
      (by show r.val = 1024 * ((4 * mb.val + (kb + 1)) / 4) + p.val; omega)
      (by show kb + 1 = (4 * mb.val + (kb + 1)) % 4; omega)
    rw [if_neg (by show ¬ (4 * mb.val + (kb + 1)) % 4 = 0; omega)] at e
    have ih := accAt_partial c mb p q r hr kb (by omega) (by omega)
    rw [Finset.sum_range_succ _ (kb + 1), ← ih]
    refine e.trans ?_
    refine congrArg₂ (· + ·) ?_ ?_
    · exact congrFun (accAt_congr V c (show 4 * mb.val + (kb + 1) - 1 = 4 * mb.val + kb by omega) _ _) (ix2 p q)
    · unfold tileN
      rw [dif_pos hk]

/-! ## The four tiles are the whole reduction -/

/-- A sum over 8192 positions, taken tile by tile: (b, kk) ↦ 2048·b + kk is one-to-one from the 4 × 2048 pairs onto
    the positions, and a sum does not depend on the order of its terms. -/
theorem sum_four_tiles {M : Type*} [AddCommMonoid M] (f : Fin 8192 → M) :
    ∑ b : Fin 4, ∑ kk : Fin 2048, f (⟨2048 * b.val + kk.val, by omega⟩ : Fin 8192) = ∑ s : Fin 8192, f s := by
  have h8 : 4 * 2048 = 8192 := by norm_num
  have hε : ∀ (b : Fin 4) (kk : Fin 2048),
      ((finProdFinEquiv.trans (finCongr h8)) (b, kk)).val = kk.val + 2048 * b.val := fun b kk => rfl
  calc ∑ b : Fin 4, ∑ kk : Fin 2048, f (⟨2048 * b.val + kk.val, by omega⟩ : Fin 8192)
      = ∑ b : Fin 4, ∑ kk : Fin 2048, f ((finProdFinEquiv.trans (finCongr h8)) (b, kk)) := by
        refine Finset.sum_congr rfl fun b _ => Finset.sum_congr rfl fun kk _ => congrArg f (Fin.ext ?_)
        rw [hε]
        show 2048 * b.val + kk.val = kk.val + 2048 * b.val
        omega
    _ = ∑ x : Fin 4 × Fin 2048, f ((finProdFinEquiv.trans (finCongr h8)) x) :=
        (Fintype.sum_prod_type (fun x : Fin 4 × Fin 2048 => f ((finProdFinEquiv.trans (finCongr h8)) x))).symm
    _ = ∑ s : Fin 8192, f s := Equiv.sum_comp (finProdFinEquiv.trans (finCongr h8)) f

/-- The shares of the 4 tiles add up to the sum over all 8192 source rows. -/
theorem sum_tiles (c : Dev nD) (r : Fin 1024) (q : Fin 128) :
    ∑ b ∈ Finset.range 4, tileN V c r q b = ∑ s : Fin 8192, difA V c (ix2 r s) * srcA V c (ix2 s q) := by
  rw [← Fin.sum_univ_eq_sum_range (fun b => tileN V c r q b) 4]
  have e : ∀ b : Fin 4, tileN V c r q b.val = tile V c r q b := fun b => by
    unfold tileN; rw [dif_pos b.isLt]
  rw [Finset.sum_congr rfl fun b _ => e b]
  unfold tile
  exact sum_four_tiles (fun s : Fin 8192 => difA V c (ix2 r s) * srcA V c (ix2 s q))

/-- At the last step of row-block `mb`, entry (p, q) of the scratch is row `1024·mb + p` of the diffusion matrix against
    column `q` of the source rows, summed over every source row. -/
theorem accAt_last (c : Dev nD) (mb : Fin 1) (p : Fin 1024) (q : Fin 128) (h : 4 * mb.val + 3 < cfg1.N) :
    accAt (F := Ideal) V c (4 * mb.val + 3) h (ix2 p q)
      = ∑ s : Fin 8192, difA V c (ix2 (⟨1024 * mb.val + p.val, by omega⟩ : Fin 1024) s)
          * srcA V c (ix2 s q) := by
  rw [accAt_partial V c mb p q ⟨1024 * mb.val + p.val, by omega⟩ rfl 3 (by omega) h]
  exact sum_tiles V c _ q

end Cert.KernelIdeal.Hop1

end
-- ==== Proof.KiValue1.lean ====
/-
  What pallas_call 1 leaves in its result array: the hop's function of the five arrays it reads.  The output block is
  written back only at the last step of each row-block, where the scratch holds the finished sum over all source
  rows; the 1 row-block is the result, so the blocks written back are the restrictions of one whole-array function.
-/
import proofs.«179562_j36550171689307_1_alg».proof.Proof.KiAcc1
import proofs.«179562_j36550171689307_1_alg».proof.Proof.KiSpec

set_option maxRecDepth 16384

noncomputable section

namespace Cert.KernelIdeal.Hop1

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

namespace Value1

/-- The last payload read at an index: the finished sum times the first weight half, summed over the 128 hidden
    columns, plus the destination row times the second weight half (the narrowing casts are the identity on the
    extended reals; a product accumulated into zero is the plain sum of products). -/
theorem pay3_apply (acc x4 : Vec Ideal S1024x128 .f32) (x5 x6 : Vec Ideal S128x128 .f32) (p : Fin 1024) (j : Fin 128) :
    k1_pay3 acc x4 x5 x6 (ix2 p j)
      = (∑ k : Fin 128, acc (ix2 p k) * x5 (ix2 k j)) + ∑ k : Fin 128, x4 (ix2 p k) * x6 (ix2 k j) := by
  have hd : dot_S1024x128_S128x128_S1024x128_1_0_0_1_n_n = DotDims.plain 1024 128 128 := rfl
  unfold k1_pay3
  simp only [shapeCast_self, hd]
  rw [addf_apply]
  refine congrArg₂ (· + ·) ((Cert.LibDense.matmul_plain_zero_apply none _ _ p j).trans ?_)
    ((Cert.LibDense.matmul_plain_zero_apply none _ _ p j).trans ?_)
  · exact Finset.sum_congr rfl fun k _ => by rw [truncf_apply, truncf_apply]
  · exact Finset.sum_congr rfl fun k _ => by rw [truncf_apply, truncf_apply]

/-- The block indices of the four windows that do not move with the reduction axis are zero at every point
    (the one row-block is block 0; the weights are whole). -/
theorem idx_zero2 : ∀ t : Fin cfg1.N, win1_2.index t (0 : Fin 2) = 0 ∧ win1_2.index t (1 : Fin 2) = 0 :=
  (by decide +kernel : ∀ t : Fin grid1.N, _)
theorem idx_zero3 : ∀ t : Fin cfg1.N, win1_3.index t (0 : Fin 2) = 0 ∧ win1_3.index t (1 : Fin 2) = 0 :=
  (by decide +kernel : ∀ t : Fin grid1.N, _)
theorem idx_zero4 : ∀ t : Fin cfg1.N, win1_4.index t (0 : Fin 2) = 0 ∧ win1_4.index t (1 : Fin 2) = 0 :=
  (by decide +kernel : ∀ t : Fin grid1.N, _)
theorem idx_zero5 : ∀ t : Fin cfg1.N, win1_5.index t (0 : Fin 2) = 0 ∧ win1_5.index t (1 : Fin 2) = 0 :=
  (by decide +kernel : ∀ t : Fin grid1.N, _)

/-- The destination window's block is the whole array of destination rows, at every point. -/
theorem iblk2_apply (c : Dev nD) (t : Fin cfg1.N) (p : Fin 1024) (k : Fin 128) :
    (iblk (F := Ideal) V c 2 t : Vec Ideal S1024x128 .f32) (ix2 p k) = dstA V c (ix2 p k) := by
  obtain ⟨e0, e1⟩ := idx_zero2 t
  unfold iblk
  rw [View.read_apply]
  show V c main_v30 _ = V c main_v30 _
  congr 1
  funext a
  apply Fin.ext
  match a with
  | ⟨0, _⟩ => show win1_2.index t (0 : Fin 2) * 1024 + 1 * p.val = p.val; rw [e0]; omega
  | ⟨1, _⟩ => show win1_2.index t (1 : Fin 2) * 128 + 1 * k.val = k.val; rw [e1]; omega

/-- The first weight half's block is the whole matrix. -/
theorem iblk3_apply (c : Dev nD) (t : Fin cfg1.N) (k : Fin 128) (j : Fin 128) :
    (iblk (F := Ideal) V c 3 t : Vec Ideal S128x128 .f32) (ix2 k j) = waA V c (ix2 k j) := by
  obtain ⟨e0, e1⟩ := idx_zero3 t
  unfold iblk
  rw [View.read_apply]
  show V c main_v38 _ = V c main_v38 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * j.val = j.val; rw [e1]; omega

/-- The second weight half's block is the whole matrix. -/
theorem iblk4_apply (c : Dev nD) (t : Fin cfg1.N) (k : Fin 128) (j : Fin 128) :
    (iblk (F := Ideal) V c 4 t : Vec Ideal S128x128 .f32) (ix2 k j) = wbA V c (ix2 k j) := by
  obtain ⟨e0, e1⟩ := idx_zero4 t
  unfold iblk
  rw [View.read_apply]
  show V c main_v39 _ = V c main_v39 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * j.val = j.val; rw [e1]; omega

/-- The scratch after the last point: the diffusion row against the source column, summed over all source rows
    (the one row-block starts at row 0). -/
theorem accAt3 (c : Dev nD) (h : 3 < cfg1.N) (p : Fin 1024) (k : Fin 128) :
    accAt (F := Ideal) V c 3 h (ix2 p k) = ∑ s : Fin 8192, difA V c (ix2 p s) * srcA V c (ix2 s k) := by
  have h0 : (0 : Fin 1).val = 0 := rfl
  refine (accAt_last V c (0 : Fin 1) p k h).trans (Finset.sum_congr rfl fun s _ => ?_)
  have e : (⟨1024 * (0 : Fin 1).val + p.val, by have := p.isLt; omega⟩ : Fin 1024) = p := Fin.ext (by show 1024 * (0 : Fin 1).val + p.val = p.val; omega)
  rw [e]

/-- What the last point stores in the output block is the hop's value: the payload at an index, its operands the
    finished sum, the destination rows and the two weight halves. -/
theorem outAt3 (c : Dev nD) (h : 3 < cfg1.N) :
    (outAt (F := Ideal) V c 3 h : Vec Ideal S1024x128 .f32)
      = Cert.KernelIdeal.Spec.hop1 (difA V c) (srcA V c) (dstA V c) (waA V c) (wbA V c) := by
  funext i
  obtain ⟨p, q, rfl⟩ : ∃ (p : Fin 1024) (q : Fin 128), i = ix2 p q := ⟨i 0, i 1, eq_ix2 i⟩
  unfold outAt
  rw [pay3_apply]
  show _ = (∑ k : Fin 128, (∑ s : Fin 8192, difA V c (ix2 p s) * srcA V c (ix2 s k)) * waA V c (ix2 k q))
      + ∑ k : Fin 128, dstA V c (ix2 p k) * wbA V c (ix2 k q)
  refine congrArg₂ (· + ·) (Finset.sum_congr rfl fun k _ => ?_) (Finset.sum_congr rfl fun k _ => ?_)
  · rw [iblk3_apply, accAt3]
  · rw [iblk2_apply, iblk4_apply]

/-- The grid has four points. -/
theorem N4 : cfg1.N = 4 := N_1

/-- The last point of the grid: the only one that writes the output block back. -/
abbrev tLast : Fin cfg1.N := ⟨3, by rw [N4]; decide⟩

/-- The output block's offsets at the last point are zero: the block is the whole result array. -/
theorem off5_zero : (fun a => win1_5.index tLast a * main_v40.ty.shape.size a) = fun _ => 0 := by
  obtain ⟨e0, e1⟩ := idx_zero5 tLast
  funext a
  match a with
  | ⟨0, _⟩ => show win1_5.index tLast (0 : Fin 2) * 1024 = 0; rw [e0]
  | ⟨1, _⟩ => show win1_5.index tLast (1 : Fin 2) * 128 = 0; rw [e1]

/-- What a flushing point writes back is its block of the hop's value: the only flushing point is the last, its
    block the whole array, and the body left the hop's value there. -/
theorem flushed5_eq (c : Dev nD) (t : Fin cfg1.N) (hf : (cfg1.win 5).flush t = true) :
    (dat (F := Ideal) V c).flushed 5 t
      = ((cfg1.win 5).blk t).view.read (Elt Ideal)
          (Cert.KernelIdeal.Spec.hop1 (difA V c) (srcA V c) (dstA V c) (waA V c) (wbA V c)) := by
  have hN : cfg1.N = 4 := N4
  have h3 : t.val = 3 := by have := (flush1_5 t).mp hf; have := t.isLt; omega
  obtain rfl : t = tLast := Fin.ext h3
  show (cfg1.win 5).cut (grid1.coords tLast) ((dat V c).after 5 tLast) = _
  rw [after_5, outAt3 V c tLast.isLt]
  exact (Memref.read_access_unit_zero (Elt Ideal) main_v40 off5_zero
    (fun a => by rw [congrFun off5_zero a]; simp) _).symm

end Value1

/-- After the region, its result array is the hop's value of the arrays the region found. -/
theorem arrAt5 (c : Dev nD) :
    ((dat (F := Ideal) V c).arrAt 5 cfg1.N : FVec Ideal S1024x128 .f32)
      = Cert.KernelIdeal.Spec.hop1 (difA V c) (srcA V c) (dstA V c) (waA V c) (wbA V c) := by
  -- every index of the result array lies in the last point's block, which is the whole array
  refine (dat (F := Ideal) V c).arrAt_eq_of_cover 5 _ (Value1.flushed5_eq V c) fun i => ⟨Value1.tLast, (flush1_5 Value1.tLast).mpr rfl, ?_⟩
  show i ∈ ((View.whole main_v40).slice (win1_5.rect Value1.tLast)).set
  rw [View.set_slice_whole, Rect.mem_set_unit]
  intro a
  obtain ⟨e0, e1⟩ := Value1.idx_zero5 Value1.tLast
  have h0 : (i 0 : Nat) < 1024 := (i 0).isLt
  have h1 : (i 1 : Nat) < 128 := (i 1).isLt
  match a with
  | ⟨0, _⟩ =>
    show win1_5.index Value1.tLast (0 : Fin 2) * 1024 ≤ (i 0 : Nat) ∧ (i 0 : Nat) < win1_5.index Value1.tLast (0 : Fin 2) * 1024 + 1024
    rw [e0]; omega
  | ⟨1, _⟩ =>
    show win1_5.index Value1.tLast (1 : Fin 2) * 128 ≤ (i 1 : Nat) ∧ (i 1 : Nat) < win1_5.index Value1.tLast (1 : Fin 2) * 128 + 128
    rw [e1]; omega

end Cert.KernelIdeal.Hop1

end
-- ==== Proof.KiStages.lean ====
/-
  The host operations the kernel's program performs around its two pallas_calls, as functions of whole arrays:
  wrapping of negative row indices and the row gathers that feed each hop, the two halves of a layer's weights, and
  the tail after the second call (row-wise normalisation, five dense layers, a softmax over the single column).
  The reference performs the same operations around its own two matrix products.
-/
import proofs.«179562_j36550171689307_1_alg».proof.KernelIdeal

noncomputable section

namespace Cert.KernelIdeal.Stages

open Cert.KernelIdeal Idealize.ShloMosaic

variable {F : FTy → Type} [FloatOps F] [Facts]
open Facts₀ Facts

/-- Row indices into the 100000 feature rows, negative ones counted from the end, as a column. -/
def wrapNodes (a : (⟨S40960, .i32⟩ : BufTy).Contents (Elt F)) : (⟨S40960x1, .i32⟩ : BufTy).Contents (Elt F) :=
  broadcastInDim S40960x1 ![0] bcast_S40960_S40960x1_0
    (select (cmpi .slt a (broadcastInDim S40960 ![] bcast_S_S40960 (constantI S_ 32 0#32) : (⟨S40960, .i32⟩ : BufTy).Contents (Elt F)))
      (addi a (broadcastInDim S40960 ![] bcast_S_S40960 (constantI S_ 32 100000#32) : (⟨S40960, .i32⟩ : BufTy).Contents (Elt F))) a : (⟨S40960, .i32⟩ : BufTy).Contents (Elt F))

/-- Source-row indices of the second hop into the 40960 gathered rows, as a column. -/
def wrapSrc2 (a : (⟨S40960, .i32⟩ : BufTy).Contents (Elt F)) : (⟨S40960x1, .i32⟩ : BufTy).Contents (Elt F) :=
  broadcastInDim S40960x1 ![0] bcast_S40960_S40960x1_0
    (select (cmpi .slt a (broadcastInDim S40960 ![] bcast_S_S40960 (constantI S_ 32 0#32) : (⟨S40960, .i32⟩ : BufTy).Contents (Elt F)))
      (addi a (broadcastInDim S40960 ![] bcast_S_S40960 (constantI S_ 32 40960#32) : (⟨S40960, .i32⟩ : BufTy).Contents (Elt F))) a : (⟨S40960, .i32⟩ : BufTy).Contents (Elt F))

/-- Destination-row indices of the second hop into the 40960 gathered rows, as a column. -/
def wrapDst2 (a : (⟨S4096, .i32⟩ : BufTy).Contents (Elt F)) : (⟨S4096x1, .i32⟩ : BufTy).Contents (Elt F) :=
  broadcastInDim S4096x1 ![0] bcast_S4096_S4096x1_0
    (select (cmpi .slt a (broadcastInDim S4096 ![] bcast_S_S4096 (constantI S_ 32 0#32) : (⟨S4096, .i32⟩ : BufTy).Contents (Elt F)))
      (addi a (broadcastInDim S4096 ![] bcast_S_S4096 (constantI S_ 32 40960#32) : (⟨S4096, .i32⟩ : BufTy).Contents (Elt F))) a : (⟨S4096, .i32⟩ : BufTy).Contents (Elt F))

/-- Source-row indices of the first hop into the 4096 rows the second hop produced, as a column. -/
def wrapSrc1 (a : (⟨S8192, .i32⟩ : BufTy).Contents (Elt F)) : (⟨S8192x1, .i32⟩ : BufTy).Contents (Elt F) :=
  broadcastInDim S8192x1 ![0] bcast_S8192_S8192x1_0
    (select (cmpi .slt a (broadcastInDim S8192 ![] bcast_S_S8192 (constantI S_ 32 0#32) : (⟨S8192, .i32⟩ : BufTy).Contents (Elt F)))
      (addi a (broadcastInDim S8192 ![] bcast_S_S8192 (constantI S_ 32 4096#32) : (⟨S8192, .i32⟩ : BufTy).Contents (Elt F))) a : (⟨S8192, .i32⟩ : BufTy).Contents (Elt F))

/-- Destination-row indices of the first hop into the 4096 rows the second hop produced, as a column. -/
def wrapDst1 (a : (⟨S1024, .i32⟩ : BufTy).Contents (Elt F)) : (⟨S1024x1, .i32⟩ : BufTy).Contents (Elt F) :=
  broadcastInDim S1024x1 ![0] bcast_S1024_S1024x1_0
    (select (cmpi .slt a (broadcastInDim S1024 ![] bcast_S_S1024 (constantI S_ 32 0#32) : (⟨S1024, .i32⟩ : BufTy).Contents (Elt F)))
      (addi a (broadcastInDim S1024 ![] bcast_S_S1024 (constantI S_ 32 4096#32) : (⟨S1024, .i32⟩ : BufTy).Contents (Elt F))) a : (⟨S1024, .i32⟩ : BufTy).Contents (Elt F))

/-- The gathered feature rows. -/
def x0 (a0 : (⟨S40960, .i32⟩ : BufTy).Contents (Elt F)) (a7 : (⟨S100000x128, .f32⟩ : BufTy).Contents (Elt F)) : (⟨S40960x128, .f32⟩ : BufTy).Contents (Elt F) :=
  Host.gather gather_S100000x128_S40960x1_S40960x128_1_0_n_n_0_1_1128 a7 (wrapNodes a0)

/-- The second hop's source rows. -/
def src2 (x : (⟨S40960x128, .f32⟩ : BufTy).Contents (Elt F)) (a2 : (⟨S40960, .i32⟩ : BufTy).Contents (Elt F)) : (⟨S40960x128, .f32⟩ : BufTy).Contents (Elt F) :=
  Host.gather gather_S40960x128_S40960x1_S40960x128_1_0_n_n_0_1_1128 x (wrapSrc2 a2)

/-- The second hop's destination rows. -/
def dst2 (x : (⟨S40960x128, .f32⟩ : BufTy).Contents (Elt F)) (a4 : (⟨S4096, .i32⟩ : BufTy).Contents (Elt F)) : (⟨S4096x128, .f32⟩ : BufTy).Contents (Elt F) :=
  Host.gather gather_S40960x128_S4096x1_S4096x128_1_0_n_n_0_1_1128 x (wrapDst2 a4)

/-- The first hop's source rows, out of the second hop's result. -/
def src1 (x : (⟨S4096x128, .f32⟩ : BufTy).Contents (Elt F)) (a1 : (⟨S8192, .i32⟩ : BufTy).Contents (Elt F)) : (⟨S8192x128, .f32⟩ : BufTy).Contents (Elt F) :=
  Host.gather gather_S4096x128_S8192x1_S8192x128_1_0_n_n_0_1_1128 x (wrapSrc1 a1)

/-- The first hop's destination rows, out of the second hop's result. -/
def dst1 (x : (⟨S4096x128, .f32⟩ : BufTy).Contents (Elt F)) (a3 : (⟨S1024, .i32⟩ : BufTy).Contents (Elt F)) : (⟨S1024x128, .f32⟩ : BufTy).Contents (Elt F) :=
  Host.gather gather_S4096x128_S1024x1_S1024x128_1_0_n_n_0_1_1128 x (wrapDst1 a3)

/-- The upper half of a layer's weights: the rows that meet the aggregated neighbours. -/
def wUp (w : (⟨S256x128, .f32⟩ : BufTy).Contents (Elt F)) : (⟨S128x128, .f32⟩ : BufTy).Contents (Elt F) := extractStridedSlice S128x128 ![0, 0] w slices_S256x128_S128x128_0_0

/-- The lower half: the rows that meet the destination's own features. -/
def wLow (w : (⟨S256x128, .f32⟩ : BufTy).Contents (Elt F)) : (⟨S128x128, .f32⟩ : BufTy).Contents (Elt F) := extractStridedSlice S128x128 ![128, 0] w slices_S256x128_S128x128_128_0

/-- Each row scaled to unit length (the squared length kept away from zero by a small constant). -/
def unitRows (x : (⟨S1024x128, .f32⟩ : BufTy).Contents (Elt F)) : (⟨S1024x128, .f32⟩ : BufTy).Contents (Elt F) :=
  mulf x (broadcastInDim S1024x128 ![0, 1] bcast_S1024x1_S1024x128_0_1
    (Host.rsqrt (maximumf
      (broadcastInDim S1024x1 ![0] bcast_S1024_S1024x1_0
        (Host.reduceAdd (mulf x x) (constant S_ .f32 0x00000000#32) reducesTo_S1024x128_S1024_d1 h_S_ : (⟨S1024, .f32⟩ : BufTy).Contents (Elt F)) : (⟨S1024x1, .f32⟩ : BufTy).Contents (Elt F))
      (broadcastInDim S1024x1 ![] bcast_S_S1024x1 (constant S_ .f32 0x2B8CBCCC#32) : (⟨S1024x1, .f32⟩ : BufTy).Contents (Elt F)) : (⟨S1024x1, .f32⟩ : BufTy).Contents (Elt F)) : (⟨S1024x1, .f32⟩ : BufTy).Contents (Elt F)) : (⟨S1024x128, .f32⟩ : BufTy).Contents (Elt F))

/-- A softmax over rows of a single column. -/
def softmaxCol (z : (⟨S1024x1, .f32⟩ : BufTy).Contents (Elt F)) : (⟨S1024x1, .f32⟩ : BufTy).Contents (Elt F) :=
  let mx : (⟨S1024x1, .f32⟩ : BufTy).Contents (Elt F) := broadcastInDim S1024x1 ![0] bcast_S1024_S1024x1_0
    (maximumf (broadcastInDim S1024 ![] bcast_S_S1024 (constant S_ .f32 0xFF800000#32) : (⟨S1024, .f32⟩ : BufTy).Contents (Elt F))
      (Host.reduce FloatOps.maximumf z (constant S_ .f32 0xFF800000#32) reducesTo_S1024x1_S1024_d1 h_S_ : (⟨S1024, .f32⟩ : BufTy).Contents (Elt F)) : (⟨S1024, .f32⟩ : BufTy).Contents (Elt F))
  let e : (⟨S1024x1, .f32⟩ : BufTy).Contents (Elt F) := Host.exp (subf z mx : (⟨S1024x1, .f32⟩ : BufTy).Contents (Elt F))
  Host.divf e (broadcastInDim S1024x1 ![0] bcast_S1024_S1024x1_0
    (Host.reduceAdd e (constant S_ .f32 0x00000000#32) reducesTo_S1024x1_S1024_d1 h_S_ : (⟨S1024, .f32⟩ : BufTy).Contents (Elt F)) : (⟨S1024x1, .f32⟩ : BufTy).Contents (Elt F))

/-- Everything after the second pallas_call: unit rows, four dense layers with ReLU, a last dense layer, the softmax. -/
def tail (x2 : (⟨S1024x128, .f32⟩ : BufTy).Contents (Elt F)) (a10 : (⟨S128x64, .f32⟩ : BufTy).Contents (Elt F)) (a11 : (⟨S64, .f32⟩ : BufTy).Contents (Elt F)) (a12 : (⟨S64x32, .f32⟩ : BufTy).Contents (Elt F)) (a13 : (⟨S32, .f32⟩ : BufTy).Contents (Elt F))
    (a14 : (⟨S32x16, .f32⟩ : BufTy).Contents (Elt F)) (a15 : (⟨S16, .f32⟩ : BufTy).Contents (Elt F)) (a16 : (⟨S16x8, .f32⟩ : BufTy).Contents (Elt F)) (a17 : (⟨S8, .f32⟩ : BufTy).Contents (Elt F)) (a18 : (⟨S8x1, .f32⟩ : BufTy).Contents (Elt F)) (a19 : (⟨S1, .f32⟩ : BufTy).Contents (Elt F)) :
    (⟨S1024x1, .f32⟩ : BufTy).Contents (Elt F) :=
  let h1 : (⟨S1024x64, .f32⟩ : BufTy).Contents (Elt F) := (maximumf (addf (Host.dotGeneral dot_S1024x128_S128x64_S1024x64_1_0_0_1_n_n none (unitRows x2) a10 : (⟨S1024x64, .f32⟩ : BufTy).Contents (Elt F))
      (broadcastInDim S1024x64 ![0, 1] bcast_S1x64_S1024x64_0_1 (broadcastInDim S1x64 ![1] bcast_S64_S1x64_1 a11 : (⟨S1x64, .f32⟩ : BufTy).Contents (Elt F)) : (⟨S1024x64, .f32⟩ : BufTy).Contents (Elt F)) : (⟨S1024x64, .f32⟩ : BufTy).Contents (Elt F)) (broadcastInDim S1024x64 ![] bcast_S_S1024x64 (constant S_ .f32 0x00000000#32) : (⟨S1024x64, .f32⟩ : BufTy).Contents (Elt F)) : (⟨S1024x64, .f32⟩ : BufTy).Contents (Elt F))
  let h2 : (⟨S1024x32, .f32⟩ : BufTy).Contents (Elt F) := (maximumf (addf (Host.dotGeneral dot_S1024x64_S64x32_S1024x32_1_0_0_1_n_n none h1 a12 : (⟨S1024x32, .f32⟩ : BufTy).Contents (Elt F))
      (broadcastInDim S1024x32 ![0, 1] bcast_S1x32_S1024x32_0_1 (broadcastInDim S1x32 ![1] bcast_S32_S1x32_1 a13 : (⟨S1x32, .f32⟩ : BufTy).Contents (Elt F)) : (⟨S1024x32, .f32⟩ : BufTy).Contents (Elt F)) : (⟨S1024x32, .f32⟩ : BufTy).Contents (Elt F)) (broadcastInDim S1024x32 ![] bcast_S_S1024x32 (constant S_ .f32 0x00000000#32) : (⟨S1024x32, .f32⟩ : BufTy).Contents (Elt F)) : (⟨S1024x32, .f32⟩ : BufTy).Contents (Elt F))
  let h3 : (⟨S1024x16, .f32⟩ : BufTy).Contents (Elt F) := (maximumf (addf (Host.dotGeneral dot_S1024x32_S32x16_S1024x16_1_0_0_1_n_n none h2 a14 : (⟨S1024x16, .f32⟩ : BufTy).Contents (Elt F))
      (broadcastInDim S1024x16 ![0, 1] bcast_S1x16_S1024x16_0_1 (broadcastInDim S1x16 ![1] bcast_S16_S1x16_1 a15 : (⟨S1x16, .f32⟩ : BufTy).Contents (Elt F)) : (⟨S1024x16, .f32⟩ : BufTy).Contents (Elt F)) : (⟨S1024x16, .f32⟩ : BufTy).Contents (Elt F)) (broadcastInDim S1024x16 ![] bcast_S_S1024x16 (constant S_ .f32 0x00000000#32) : (⟨S1024x16, .f32⟩ : BufTy).Contents (Elt F)) : (⟨S1024x16, .f32⟩ : BufTy).Contents (Elt F))
  let h4 : (⟨S1024x8, .f32⟩ : BufTy).Contents (Elt F) := (maximumf (addf (Host.dotGeneral dot_S1024x16_S16x8_S1024x8_1_0_0_1_n_n none h3 a16 : (⟨S1024x8, .f32⟩ : BufTy).Contents (Elt F))
      (broadcastInDim S1024x8 ![0, 1] bcast_S1x8_S1024x8_0_1 (broadcastInDim S1x8 ![1] bcast_S8_S1x8_1 a17 : (⟨S1x8, .f32⟩ : BufTy).Contents (Elt F)) : (⟨S1024x8, .f32⟩ : BufTy).Contents (Elt F)) : (⟨S1024x8, .f32⟩ : BufTy).Contents (Elt F)) (broadcastInDim S1024x8 ![] bcast_S_S1024x8 (constant S_ .f32 0x00000000#32) : (⟨S1024x8, .f32⟩ : BufTy).Contents (Elt F)) : (⟨S1024x8, .f32⟩ : BufTy).Contents (Elt F))
  softmaxCol (addf (Host.dotGeneral dot_S1024x8_S8x1_S1024x1_1_0_0_1_n_n none h4 a18 : (⟨S1024x1, .f32⟩ : BufTy).Contents (Elt F))
      (broadcastInDim S1024x1 ![0, 1] bcast_S1x1_S1024x1_0_1 (broadcastInDim S1x1 ![1] bcast_S1_S1x1_1 a19 : (⟨S1x1, .f32⟩ : BufTy).Contents (Elt F)) : (⟨S1024x1, .f32⟩ : BufTy).Contents (Elt F)) : (⟨S1024x1, .f32⟩ : BufTy).Contents (Elt F))

end Cert.KernelIdeal.Stages

end
-- ==== Proof.KiHost.lean ====
/-
  The kernel's program between its pallas_calls, read back: what each array a pallas_call reads holds when the call is
  entered, and what the program's result holds at the end, as the host stages applied to the arguments and to whatever
  the two calls left in their result arrays.
-/
import proofs.«179562_j36550171689307_1_alg».proof.Proof.Gen.KernelIdeal.Regions
import proofs.«179562_j36550171689307_1_alg».proof.Proof.KiStages
import Idealize.ShloMosaic.Lib.StableHlo.Run

set_option maxRecDepth 16384

noncomputable section

namespace Cert.KernelIdeal.HostRead

open Cert.KernelIdeal Cert.KernelIdeal.Gen Cert.KernelIdeal.Stages
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F)) (c : Dev nD)

/-! ## Each stretch of host operations, from any contents `W` of the buffers

Every stretch is a straight line of whole-array operations; its result array is the composite of those operations
applied to what `W` holds in the arrays the stretch reads. -/

section Generic
variable (W : Valuation τ sig (Elt F))

/-! The stretch before the first hop's call: two row gathers out of the array the second hop left, through the wrapped
    indices, and the two halves of that hop's weights. -/

theorem ops1_v37 : StableHlo.after hostOps1 W (Proc.devRef .tc main_v37)
    = src1 (W (Proc.devRef .tc main_v23)) (W (Proc.devRef .tc main_arg1)) := by
  after_results_simp <;> rfl
theorem ops1_v30 : StableHlo.after hostOps1 W (Proc.devRef .tc main_v30)
    = dst1 (W (Proc.devRef .tc main_v23)) (W (Proc.devRef .tc main_arg3)) := by
  after_results_simp <;> rfl
theorem ops1_v38 : StableHlo.after hostOps1 W (Proc.devRef .tc main_v38) = wUp (W (Proc.devRef .tc main_arg9)) := by
  after_results_simp <;> rfl
theorem ops1_v39 : StableHlo.after hostOps1 W (Proc.devRef .tc main_v39) = wLow (W (Proc.devRef .tc main_arg9)) := by
  after_results_simp <;> rfl

/-! The tail, stretch by stretch: unit rows and the first dense layer's affine part; then alternately a maximum with
    zero and the next layer's affine part (a product summed over the shared axis plus the bias spread over the rows);
    last the softmax over the single column. -/

theorem ops2_v52 : StableHlo.after hostOps2 W (Proc.devRef .tc main_v52)
    = (addf (Host.dotGeneral dot_S1024x128_S128x64_S1024x64_1_0_0_1_n_n none (unitRows (W (Proc.devRef .tc main_v40))) (W (Proc.devRef .tc main_arg10)) : (⟨S1024x64, .f32⟩ : BufTy).Contents (Elt F))
      (broadcastInDim S1024x64 ![0, 1] bcast_S1x64_S1024x64_0_1 (broadcastInDim S1x64 ![1] bcast_S64_S1x64_1 (W (Proc.devRef .tc main_arg11)) : (⟨S1x64, .f32⟩ : BufTy).Contents (Elt F)) : (⟨S1024x64, .f32⟩ : BufTy).Contents (Elt F)) : (⟨S1024x64, .f32⟩ : BufTy).Contents (Elt F)) := by
  after_results_simp <;> rfl
theorem ops2_1_v53 : StableHlo.after hostOps2_1 W (Proc.devRef .tc main_v53)
    = (maximumf (W (Proc.devRef .tc main_v52)) (broadcastInDim S1024x64 ![] bcast_S_S1024x64 (constant S_ .f32 0x00000000#32) : (⟨S1024x64, .f32⟩ : BufTy).Contents (Elt F)) : (⟨S1024x64, .f32⟩ : BufTy).Contents (Elt F)) := by
  after_results_simp <;> rfl
theorem ops2_2_v57 : StableHlo.after hostOps2_2 W (Proc.devRef .tc main_v57)
    = (addf (Host.dotGeneral dot_S1024x64_S64x32_S1024x32_1_0_0_1_n_n none (W (Proc.devRef .tc main_v53)) (W (Proc.devRef .tc main_arg12)) : (⟨S1024x32, .f32⟩ : BufTy).Contents (Elt F))
      (broadcastInDim S1024x32 ![0, 1] bcast_S1x32_S1024x32_0_1 (broadcastInDim S1x32 ![1] bcast_S32_S1x32_1 (W (Proc.devRef .tc main_arg13)) : (⟨S1x32, .f32⟩ : BufTy).Contents (Elt F)) : (⟨S1024x32, .f32⟩ : BufTy).Contents (Elt F)) : (⟨S1024x32, .f32⟩ : BufTy).Contents (Elt F)) := by
  after_results_simp <;> rfl
theorem ops2_3_v58 : StableHlo.after hostOps2_3 W (Proc.devRef .tc main_v58)
    = (maximumf (W (Proc.devRef .tc main_v57)) (broadcastInDim S1024x32 ![] bcast_S_S1024x32 (constant S_ .f32 0x00000000#32) : (⟨S1024x32, .f32⟩ : BufTy).Contents (Elt F)) : (⟨S1024x32, .f32⟩ : BufTy).Contents (Elt F)) := by
  after_results_simp <;> rfl
theorem ops2_4_v62 : StableHlo.after hostOps2_4 W (Proc.devRef .tc main_v62)
    = (addf (Host.dotGeneral dot_S1024x32_S32x16_S1024x16_1_0_0_1_n_n none (W (Proc.devRef .tc main_v58)) (W (Proc.devRef .tc main_arg14)) : (⟨S1024x16, .f32⟩ : BufTy).Contents (Elt F))
      (broadcastInDim S1024x16 ![0, 1] bcast_S1x16_S1024x16_0_1 (broadcastInDim S1x16 ![1] bcast_S16_S1x16_1 (W (Proc.devRef .tc main_arg15)) : (⟨S1x16, .f32⟩ : BufTy).Contents (Elt F)) : (⟨S1024x16, .f32⟩ : BufTy).Contents (Elt F)) : (⟨S1024x16, .f32⟩ : BufTy).Contents (Elt F)) := by
  after_results_simp <;> rfl
theorem ops2_5_v63 : StableHlo.after hostOps2_5 W (Proc.devRef .tc main_v63)
    = (maximumf (W (Proc.devRef .tc main_v62)) (broadcastInDim S1024x16 ![] bcast_S_S1024x16 (constant S_ .f32 0x00000000#32) : (⟨S1024x16, .f32⟩ : BufTy).Contents (Elt F)) : (⟨S1024x16, .f32⟩ : BufTy).Contents (Elt F)) := by
  after_results_simp <;> rfl
theorem ops2_6_v67 : StableHlo.after hostOps2_6 W (Proc.devRef .tc main_v67)
    = (addf (Host.dotGeneral dot_S1024x16_S16x8_S1024x8_1_0_0_1_n_n none (W (Proc.devRef .tc main_v63)) (W (Proc.devRef .tc main_arg16)) : (⟨S1024x8, .f32⟩ : BufTy).Contents (Elt F))
      (broadcastInDim S1024x8 ![0, 1] bcast_S1x8_S1024x8_0_1 (broadcastInDim S1x8 ![1] bcast_S8_S1x8_1 (W (Proc.devRef .tc main_arg17)) : (⟨S1x8, .f32⟩ : BufTy).Contents (Elt F)) : (⟨S1024x8, .f32⟩ : BufTy).Contents (Elt F)) : (⟨S1024x8, .f32⟩ : BufTy).Contents (Elt F)) := by
  after_results_simp <;> rfl
theorem ops2_7_v68 : StableHlo.after hostOps2_7 W (Proc.devRef .tc main_v68)
    = (maximumf (W (Proc.devRef .tc main_v67)) (broadcastInDim S1024x8 ![] bcast_S_S1024x8 (constant S_ .f32 0x00000000#32) : (⟨S1024x8, .f32⟩ : BufTy).Contents (Elt F)) : (⟨S1024x8, .f32⟩ : BufTy).Contents (Elt F)) := by
  after_results_simp <;> rfl
theorem ops2_8_v81 : StableHlo.after hostOps2_8 W (Proc.devRef .tc main_v81)
    = softmaxCol (addf (Host.dotGeneral dot_S1024x8_S8x1_S1024x1_1_0_0_1_n_n none (W (Proc.devRef .tc main_v68)) (W (Proc.devRef .tc main_arg18)) : (⟨S1024x1, .f32⟩ : BufTy).Contents (Elt F))
      (broadcastInDim S1024x1 ![0, 1] bcast_S1x1_S1024x1_0_1 (broadcastInDim S1x1 ![1] bcast_S1_S1x1_1 (W (Proc.devRef .tc main_arg19)) : (⟨S1x1, .f32⟩ : BufTy).Contents (Elt F)) : (⟨S1024x1, .f32⟩ : BufTy).Contents (Elt F)) : (⟨S1024x1, .f32⟩ : BufTy).Contents (Elt F)) := by
  after_results_simp <;> rfl

end Generic

/-! ## Entering the first pallas_call (the second hop) -/

/-- No operation of the first stretch writes an argument. -/
theorem V1_arg6 : V1 m c main_arg6 = (m ((c : Thread nD τ).loc main_arg6)) :=
  (V1_of m c main_arg6 (by decide)).trans rfl
/-- The gathered feature rows, gathered again through the wrapped source indices. -/
theorem V1_v20 : V1 m c main_v20 = src2 (x0 (m ((c : Thread nD τ).loc main_arg0)) (m ((c : Thread nD τ).loc main_arg7))) (m ((c : Thread nD τ).loc main_arg2)) := by
  show StableHlo.after hostOps0 (fun b => m (c, b)) (Proc.devRef .tc main_v20) = _
  after_results_simp
  rfl
/-- The gathered feature rows, gathered again through the wrapped destination indices. -/
theorem V1_v13 : V1 m c main_v13 = dst2 (x0 (m ((c : Thread nD τ).loc main_arg0)) (m ((c : Thread nD τ).loc main_arg7))) (m ((c : Thread nD τ).loc main_arg4)) := by
  show StableHlo.after hostOps0 (fun b => m (c, b)) (Proc.devRef .tc main_v13) = _
  after_results_simp
  rfl
/-- The upper 128 rows of the second hop's weights. -/
theorem V1_v21 : V1 m c main_v21 = wUp (m ((c : Thread nD τ).loc main_arg8)) := by
  show StableHlo.after hostOps0 (fun b => m (c, b)) (Proc.devRef .tc main_v21) = _
  after_results
  rfl
/-- The lower 128 rows of the second hop's weights. -/
theorem V1_v22 : V1 m c main_v22 = wLow (m ((c : Thread nD τ).loc main_arg8)) := by
  show StableHlo.after hostOps0 (fun b => m (c, b)) (Proc.devRef .tc main_v22) = _
  after_results
  rfl

/-! ## Entering the second pallas_call (the first hop), whatever the first left in `main_v23` -/

/-- After the first call `main_v23` holds what the call left there. -/
theorem V2_v23 : V2 m outs c main_v23 = outs 2 main_v23 c := Function.update_self ..
/-- An array neither the first stretch nor the first call writes still holds its launch contents. -/
theorem V2_arg (r : Ref sig .tc) (h2 : r ∉ ([main_v23] : List (Ref sig .tc))) (h1 : r ∉ hostOps0_W) :
    V2 m outs c r = m ((c : Thread nD τ).loc r) :=
  (V2_of m outs c r h2).trans ((V1_of m c r h1).trans rfl)

theorem V3_arg5 : V3 m outs c main_arg5 = (m ((c : Thread nD τ).loc main_arg5)) :=
  (V3_of m outs c main_arg5 (by decide)).trans (V2_arg m outs c main_arg5 (by decide) (by decide))
theorem V3_v37 : V3 m outs c main_v37 = src1 (outs 2 main_v23 c) (m ((c : Thread nD τ).loc main_arg1)) := by
  refine (ops1_v37 (V2 m outs c)).trans ?_
  rw [V2_v23, V2_arg m outs c main_arg1 (by decide) (by decide)]
theorem V3_v30 : V3 m outs c main_v30 = dst1 (outs 2 main_v23 c) (m ((c : Thread nD τ).loc main_arg3)) := by
  refine (ops1_v30 (V2 m outs c)).trans ?_
  rw [V2_v23, V2_arg m outs c main_arg3 (by decide) (by decide)]
theorem V3_v38 : V3 m outs c main_v38 = wUp (m ((c : Thread nD τ).loc main_arg9)) := by
  refine (ops1_v38 (V2 m outs c)).trans ?_
  rw [V2_arg m outs c main_arg9 (by decide) (by decide)]
theorem V3_v39 : V3 m outs c main_v39 = wLow (m ((c : Thread nD τ).loc main_arg9)) := by
  refine (ops1_v39 (V2 m outs c)).trans ?_
  rw [V2_arg m outs c main_arg9 (by decide) (by decide)]

/-! ## The program's result, whatever the second pallas_call left in `main_v40`

Each stretch reads the arrays of the stretch before it and arguments no item writes; the result is the composite of the
nine stretches over what the second call left in `main_v40`. -/

theorem V4_arg10 : V4 m outs c main_arg10 = m ((c : Thread nD τ).loc main_arg10) :=
  (V4_of m outs c main_arg10 (by decide)).trans <| (V3_of m outs c main_arg10 (by decide)).trans <| (V2_of m outs c main_arg10 (by decide)).trans <| (V1_of m c main_arg10 (by decide)).trans rfl
theorem V4_arg11 : V4 m outs c main_arg11 = m ((c : Thread nD τ).loc main_arg11) :=
  (V4_of m outs c main_arg11 (by decide)).trans <| (V3_of m outs c main_arg11 (by decide)).trans <| (V2_of m outs c main_arg11 (by decide)).trans <| (V1_of m c main_arg11 (by decide)).trans rfl
theorem V6_arg12 : V6 m outs c main_arg12 = m ((c : Thread nD τ).loc main_arg12) :=
  (V6_of m outs c main_arg12 (by decide)).trans <| (V5_of m outs c main_arg12 (by decide)).trans <| (V4_of m outs c main_arg12 (by decide)).trans <| (V3_of m outs c main_arg12 (by decide)).trans <| (V2_of m outs c main_arg12 (by decide)).trans <| (V1_of m c main_arg12 (by decide)).trans rfl
theorem V6_arg13 : V6 m outs c main_arg13 = m ((c : Thread nD τ).loc main_arg13) :=
  (V6_of m outs c main_arg13 (by decide)).trans <| (V5_of m outs c main_arg13 (by decide)).trans <| (V4_of m outs c main_arg13 (by decide)).trans <| (V3_of m outs c main_arg13 (by decide)).trans <| (V2_of m outs c main_arg13 (by decide)).trans <| (V1_of m c main_arg13 (by decide)).trans rfl
theorem V8_arg14 : V8 m outs c main_arg14 = m ((c : Thread nD τ).loc main_arg14) :=
  (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m outs c main_arg14 (by decide)).trans <| (V2_of m outs c main_arg14 (by decide)).trans <| (V1_of m c main_arg14 (by decide)).trans rfl
theorem V8_arg15 : V8 m outs c main_arg15 = m ((c : Thread nD τ).loc main_arg15) :=
  (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m outs c main_arg15 (by decide)).trans <| (V2_of m outs c main_arg15 (by decide)).trans <| (V1_of m c main_arg15 (by decide)).trans rfl
theorem V10_arg16 : V10 m outs c main_arg16 = m ((c : Thread nD τ).loc main_arg16) :=
  (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m outs c main_arg16 (by decide)).trans <| (V2_of m outs c main_arg16 (by decide)).trans <| (V1_of m c main_arg16 (by decide)).trans rfl
theorem V10_arg17 : V10 m outs c main_arg17 = m ((c : Thread nD τ).loc main_arg17) :=
  (V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m outs c main_arg17 (by decide)).trans <| (V4_of m outs c main_arg17 (by decide)).trans <| (V3_of m outs c main_arg17 (by decide)).trans <| (V2_of m outs c main_arg17 (by decide)).trans <| (V1_of m c main_arg17 (by decide)).trans rfl
theorem V12_arg18 : V12 m outs c main_arg18 = m ((c : Thread nD τ).loc main_arg18) :=
  (V12_of m outs c main_arg18 (by decide)).trans <| (V11_of m outs c main_arg18 (by decide)).trans <| (V10_of m outs c main_arg18 (by decide)).trans <| (V9_of m outs c main_arg18 (by decide)).trans <| (V8_of m outs c main_arg18 (by decide)).trans <| (V7_of m outs c main_arg18 (by decide)).trans <| (V6_of m outs c main_arg18 (by decide)).trans <| (V5_of m outs c main_arg18 (by decide)).trans <| (V4_of m outs c main_arg18 (by decide)).trans <| (V3_of m outs c main_arg18 (by decide)).trans <| (V2_of m outs c main_arg18 (by decide)).trans <| (V1_of m c main_arg18 (by decide)).trans rfl
theorem V12_arg19 : V12 m outs c main_arg19 = m ((c : Thread nD τ).loc main_arg19) :=
  (V12_of m outs c main_arg19 (by decide)).trans <| (V11_of m outs c main_arg19 (by decide)).trans <| (V10_of m outs c main_arg19 (by decide)).trans <| (V9_of m outs c main_arg19 (by decide)).trans <| (V8_of m outs c main_arg19 (by decide)).trans <| (V7_of m outs c main_arg19 (by decide)).trans <| (V6_of m outs c main_arg19 (by decide)).trans <| (V5_of m outs c main_arg19 (by decide)).trans <| (V4_of m outs c main_arg19 (by decide)).trans <| (V3_of m outs c main_arg19 (by decide)).trans <| (V2_of m outs c main_arg19 (by decide)).trans <| (V1_of m c main_arg19 (by decide)).trans rfl

/-- After the second call `main_v40` holds what the call left there. -/
theorem V4_v40 : V4 m outs c main_v40 = outs 4 main_v40 c := Function.update_self ..
theorem V5_v52 : V5 m outs c main_v52
    = (addf (Host.dotGeneral dot_S1024x128_S128x64_S1024x64_1_0_0_1_n_n none (unitRows (V4 m outs c main_v40)) (V4 m outs c main_arg10) : (⟨S1024x64, .f32⟩ : BufTy).Contents (Elt F))
      (broadcastInDim S1024x64 ![0, 1] bcast_S1x64_S1024x64_0_1 (broadcastInDim S1x64 ![1] bcast_S64_S1x64_1 (V4 m outs c main_arg11) : (⟨S1x64, .f32⟩ : BufTy).Contents (Elt F)) : (⟨S1024x64, .f32⟩ : BufTy).Contents (Elt F)) : (⟨S1024x64, .f32⟩ : BufTy).Contents (Elt F)) := ops2_v52 (V4 m outs c)
theorem V6_v53 : V6 m outs c main_v53
    = (maximumf (V5 m outs c main_v52) (broadcastInDim S1024x64 ![] bcast_S_S1024x64 (constant S_ .f32 0x00000000#32) : (⟨S1024x64, .f32⟩ : BufTy).Contents (Elt F)) : (⟨S1024x64, .f32⟩ : BufTy).Contents (Elt F)) := ops2_1_v53 (V5 m outs c)
theorem V7_v57 : V7 m outs c main_v57
    = (addf (Host.dotGeneral dot_S1024x64_S64x32_S1024x32_1_0_0_1_n_n none (V6 m outs c main_v53) (V6 m outs c main_arg12) : (⟨S1024x32, .f32⟩ : BufTy).Contents (Elt F))
      (broadcastInDim S1024x32 ![0, 1] bcast_S1x32_S1024x32_0_1 (broadcastInDim S1x32 ![1] bcast_S32_S1x32_1 (V6 m outs c main_arg13) : (⟨S1x32, .f32⟩ : BufTy).Contents (Elt F)) : (⟨S1024x32, .f32⟩ : BufTy).Contents (Elt F)) : (⟨S1024x32, .f32⟩ : BufTy).Contents (Elt F)) := ops2_2_v57 (V6 m outs c)
theorem V8_v58 : V8 m outs c main_v58
    = (maximumf (V7 m outs c main_v57) (broadcastInDim S1024x32 ![] bcast_S_S1024x32 (constant S_ .f32 0x00000000#32) : (⟨S1024x32, .f32⟩ : BufTy).Contents (Elt F)) : (⟨S1024x32, .f32⟩ : BufTy).Contents (Elt F)) := ops2_3_v58 (V7 m outs c)
theorem V9_v62 : V9 m outs c main_v62
    = (addf (Host.dotGeneral dot_S1024x32_S32x16_S1024x16_1_0_0_1_n_n none (V8 m outs c main_v58) (V8 m outs c main_arg14) : (⟨S1024x16, .f32⟩ : BufTy).Contents (Elt F))
      (broadcastInDim S1024x16 ![0, 1] bcast_S1x16_S1024x16_0_1 (broadcastInDim S1x16 ![1] bcast_S16_S1x16_1 (V8 m outs c main_arg15) : (⟨S1x16, .f32⟩ : BufTy).Contents (Elt F)) : (⟨S1024x16, .f32⟩ : BufTy).Contents (Elt F)) : (⟨S1024x16, .f32⟩ : BufTy).Contents (Elt F)) := ops2_4_v62 (V8 m outs c)
theorem V10_v63 : V10 m outs c main_v63
    = (maximumf (V9 m outs c main_v62) (broadcastInDim S1024x16 ![] bcast_S_S1024x16 (constant S_ .f32 0x00000000#32) : (⟨S1024x16, .f32⟩ : BufTy).Contents (Elt F)) : (⟨S1024x16, .f32⟩ : BufTy).Contents (Elt F)) := ops2_5_v63 (V9 m outs c)
theorem V11_v67 : V11 m outs c main_v67
    = (addf (Host.dotGeneral dot_S1024x16_S16x8_S1024x8_1_0_0_1_n_n none (V10 m outs c main_v63) (V10 m outs c main_arg16) : (⟨S1024x8, .f32⟩ : BufTy).Contents (Elt F))
      (broadcastInDim S1024x8 ![0, 1] bcast_S1x8_S1024x8_0_1 (broadcastInDim S1x8 ![1] bcast_S8_S1x8_1 (V10 m outs c main_arg17) : (⟨S1x8, .f32⟩ : BufTy).Contents (Elt F)) : (⟨S1024x8, .f32⟩ : BufTy).Contents (Elt F)) : (⟨S1024x8, .f32⟩ : BufTy).Contents (Elt F)) := ops2_6_v67 (V10 m outs c)
theorem V12_v68 : V12 m outs c main_v68
    = (maximumf (V11 m outs c main_v67) (broadcastInDim S1024x8 ![] bcast_S_S1024x8 (constant S_ .f32 0x00000000#32) : (⟨S1024x8, .f32⟩ : BufTy).Contents (Elt F)) : (⟨S1024x8, .f32⟩ : BufTy).Contents (Elt F)) := ops2_7_v68 (V11 m outs c)
theorem V13_v81_softmax : V13 m outs c main_v81
    = softmaxCol (addf (Host.dotGeneral dot_S1024x8_S8x1_S1024x1_1_0_0_1_n_n none (V12 m outs c main_v68) (V12 m outs c main_arg18) : (⟨S1024x1, .f32⟩ : BufTy).Contents (Elt F))
      (broadcastInDim S1024x1 ![0, 1] bcast_S1x1_S1024x1_0_1 (broadcastInDim S1x1 ![1] bcast_S1_S1x1_1 (V12 m outs c main_arg19) : (⟨S1x1, .f32⟩ : BufTy).Contents (Elt F)) : (⟨S1024x1, .f32⟩ : BufTy).Contents (Elt F)) : (⟨S1024x1, .f32⟩ : BufTy).Contents (Elt F)) := ops2_8_v81 (V12 m outs c)

theorem V13_v81 : V13 m outs c main_v81
    = tail (outs 4 main_v40 c) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [V13_v81_softmax, V12_v68, V11_v67, V10_v63, V9_v62, V8_v58, V7_v57, V6_v53, V5_v52, V4_v40,
    V4_arg10, V4_arg11, V6_arg12, V6_arg13, V8_arg14, V8_arg15, V10_arg16, V10_arg17, V12_arg18, V12_arg19]
  rfl

end Cert.KernelIdeal.HostRead

end
-- ==== Proof.KiResult.lean ====
/-
  The kernel's program, with its result named.  The run: as the frame, the result buffer ending at the last host
  stretch's value of what the two pallas_calls left.  At the exact instance that value is the host tail of the second
  call's hop, whose source and destination rows are gathered from the first call's hop, whose rows are gathered from the
  feature rows: each call's result array is the hop function of the arrays it reads, and those arrays are the host
  stages of the arguments.
-/
import proofs.«179562_j36550171689307_1_alg».proof.Proof.KiRegions
import proofs.«179562_j36550171689307_1_alg».proof.Proof.KiValueCond
import proofs.«179562_j36550171689307_1_alg».proof.Proof.KiValue0
import proofs.«179562_j36550171689307_1_alg».proof.Proof.KiValue1
import proofs.«179562_j36550171689307_1_alg».proof.Proof.KiHost

set_option maxRecDepth 16384

noncomputable section

namespace Cert.KernelIdeal.Hops

open Cert.KernelIdeal Cert.KernelIdeal.Gen Cert.KernelIdeal.Stages
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the host tail's value of
    what the calls left, and every argument array ends as launched. -/
theorem run_value : θ_run defs (onTc (τ := τ) (main (F := F))) ⟨m, fun _ => 0, ρ⟩ (fun r => ∀ c : Dev nD,
      r.2.mem ((c.tc : Thread nD τ).loc main_v81) = V13 m (outs m) c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  value_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE2 := fun c => by
      iintro ⟨-, HO⟩; iexact HO)
    (R0 := reg0 m) (hpre0 := fun c => .rfl) (hpost0 := fun c => .rfl)
    (R1 := reg1 m) (hpre1 := fun c => .rfl) (hpost1 := fun c => .rfl)

end Run

/-! ## The result's value at the exact instance -/

section Value

variable (m : (ℓ : Loc nD τ sig) → Buf (Elt Ideal) ℓ) (c : Dev nD)

/-- The first pallas_call's result: the hop with activation, of the gathered feature rows. -/
def hopA : FVec Ideal S4096x128 .f32 :=
  Spec.hop2 (m ((c : Thread nD τ).loc main_arg6)) (src2 (x0 (m ((c : Thread nD τ).loc main_arg0)) (m ((c : Thread nD τ).loc main_arg7))) (m ((c : Thread nD τ).loc main_arg2))) (dst2 (x0 (m ((c : Thread nD τ).loc main_arg0)) (m ((c : Thread nD τ).loc main_arg7))) (m ((c : Thread nD τ).loc main_arg4))) (wUp (m ((c : Thread nD τ).loc main_arg8))) (wLow (m ((c : Thread nD τ).loc main_arg8)))

/-- The second pallas_call's result: the hop without activation, of rows gathered from the first. -/
def hopB : FVec Ideal S1024x128 .f32 :=
  Spec.hop1 (m ((c : Thread nD τ).loc main_arg5)) (src1 (hopA m c) (m ((c : Thread nD τ).loc main_arg1))) (dst1 (hopA m c) (m ((c : Thread nD τ).loc main_arg3))) (wUp (m ((c : Thread nD τ).loc main_arg9))) (wLow (m ((c : Thread nD τ).loc main_arg9)))

/-- What the first call leaves in its result array. -/
theorem first_call : outs0 (F := Ideal) m 2 main_v23 c = hopA m c := by
  show W2 m c (Proc.devRef .tc main_v23) = _
  unfold W2
  refine (Pipeline.withArrays_arr spec0 launch0.win.arr_inj c _ _ ⟨5, by decide⟩).trans ?_
  refine (Hop0.arrAt5 (E1 m) c).trans ?_
  unfold hopA Hop0.difA Hop0.srcA Hop0.dstA Hop0.waA Hop0.wbA
  rw [show E1 m c main_arg6 = _ from HostRead.V1_arg6 m c, show E1 m c main_v20 = _ from HostRead.V1_v20 m c,
    show E1 m c main_v13 = _ from HostRead.V1_v13 m c, show E1 m c main_v21 = _ from HostRead.V1_v21 m c,
    show E1 m c main_v22 = _ from HostRead.V1_v22 m c]

/-- What the second call leaves in its result array. -/
theorem second_call : outs (F := Ideal) m 4 main_v40 c = hopB m c := by
  show W4 m c (Proc.devRef .tc main_v40) = _
  unfold W4
  refine (Pipeline.withArrays_arr spec1 launch1.win.arr_inj c _ _ ⟨5, by decide⟩).trans ?_
  refine (Hop1.arrAt5 (E3 m) c).trans ?_
  unfold hopB Hop1.difA Hop1.srcA Hop1.dstA Hop1.waA Hop1.wbA
  rw [show E3 m c main_arg5 = _ from HostRead.V3_arg5 m (outs0 m) c, show E3 m c main_v37 = _ from HostRead.V3_v37 m (outs0 m) c,
    show E3 m c main_v30 = _ from HostRead.V3_v30 m (outs0 m) c, show E3 m c main_v38 = _ from HostRead.V3_v38 m (outs0 m) c,
    show E3 m c main_v39 = _ from HostRead.V3_v39 m (outs0 m) c, first_call]

/-- The program's result: the host tail of the second call's hop. -/
theorem result_eq : V13 (F := Ideal) m (outs m) c main_v81
    = tail (hopB m c) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [HostRead.V13_v81, second_call]

end Value

end Cert.KernelIdeal.Hops
end
-- ==== Proof.RefHop.lean ====
/-
  The reference's two hops as it spells them — the diffusion product, its concatenation with the destination rows along
  the feature axis, the product with the whole 256-row weight matrix (and the maximum with zero after the first hop
  applied) — and the fact that each is the hop function both programs are compared with: a sum over the 256 concatenated
  columns splits into the sum over the first 128 (the aggregated neighbours against the upper half of the weights) and
  the sum over the last 128 (the destination's own features against the lower half).
-/
import proofs.«179562_j36550171689307_1_alg».proof.ReferenceIdeal
import proofs.«179562_j36550171689307_1_alg».proof.Proof.Gen.ReferenceIdeal
import proofs.«179562_j36550171689307_1_alg».proof.Proof.Gen.KernelIdeal
import proofs.«179562_j36550171689307_1_alg».proof.Proof.KiSpec
import proofs.«179562_j36550171689307_1_alg».proof.Proof.KiStages
import proofs.«179562_j36550171689307_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.RefHop

open Idealize.ShloMosaic Idealize.ShloMosaic.ValueIdx
open Cert.ReferenceIdeal Cert.ReferenceIdeal.Facts₀ Cert.ReferenceIdeal.Facts

section Stages

variable {F : FTy → Type} [FloatOps F]

/-- The hop applied first (4096 destination rows over 40960 source rows), as the reference computes it. -/
def rhop2 (dif : (⟨Cert.ReferenceIdeal.S4096x40960, .f32⟩ : BufTy).Contents (Elt F)) (src : (⟨Cert.ReferenceIdeal.S40960x128, .f32⟩ : BufTy).Contents (Elt F)) (dst : (⟨Cert.ReferenceIdeal.S4096x128, .f32⟩ : BufTy).Contents (Elt F)) (w : (⟨Cert.ReferenceIdeal.S256x128, .f32⟩ : BufTy).Contents (Elt F)) :
    (⟨Cert.ReferenceIdeal.S4096x128, .f32⟩ : BufTy).Contents (Elt F) :=
  maximumf (Host.dotGeneral dot_S4096x256_S256x128_S4096x128_1_0_0_1_n_n none
      (concatenate S4096x256 1 [⟨S4096x128, (Host.dotGeneral dot_S4096x40960_S40960x128_S4096x128_1_0_0_1_n_n none dif src)⟩, ⟨S4096x128, dst⟩]
        concatenates_S4096x128_S4096x128_S4096x256_d1) w)
    (broadcastInDim S4096x128 ![] bcast_S_S4096x128 (constant S_ .f32 0x00000000#32))

/-- The hop applied second (1024 destination rows over 8192 source rows): no activation. -/
def rhop1 (dif : (⟨Cert.ReferenceIdeal.S1024x8192, .f32⟩ : BufTy).Contents (Elt F)) (src : (⟨Cert.ReferenceIdeal.S8192x128, .f32⟩ : BufTy).Contents (Elt F)) (dst : (⟨Cert.ReferenceIdeal.S1024x128, .f32⟩ : BufTy).Contents (Elt F)) (w : (⟨Cert.ReferenceIdeal.S256x128, .f32⟩ : BufTy).Contents (Elt F)) :
    (⟨Cert.ReferenceIdeal.S1024x128, .f32⟩ : BufTy).Contents (Elt F) :=
  Host.dotGeneral dot_S1024x256_S256x128_S1024x128_1_0_0_1_n_n none
    (concatenate S1024x256 1 [⟨S1024x128, (Host.dotGeneral dot_S1024x8192_S8192x128_S1024x128_1_0_0_1_n_n none dif src)⟩, ⟨S1024x128, dst⟩]
      concatenates_S1024x128_S1024x128_S1024x256_d1) w

end Stages

/-! ## The two products around a concatenation, read at an entry -/

section General

variable {M S : ℕ}

/-- The concatenation of two 128-column arrays along the columns, read at a column of the first half: the first
    array at that column. -/
theorem cat_left (hc : Shape.Concatenates [(⟨2, ![M, 128]⟩ : Shape), ⟨2, ![M, 128]⟩] ⟨2, ![M, 256]⟩ 1)
    (x₁ x₂ : FVec Ideal ⟨2, ![M, 128]⟩ .f32) (r : Fin M) (k : Fin 128) :
    concatenate (⟨2, ![M, 256]⟩ : Shape) 1 [⟨⟨2, ![M, 128]⟩, x₁⟩, ⟨⟨2, ![M, 128]⟩, x₂⟩] hc (ix2 r (Fin.castAdd 128 k))
      = x₁ (ix2 r k) :=
  concatenate_pair_apply_left 1 x₁ x₂ hc (ix2 r (Fin.castAdd 128 k)) rfl (ix2 r k) (fun b => by
    match b with
    | ⟨0, _⟩ => rfl
    | ⟨1, _⟩ => rfl)

/-- The same at a column of the second half: the second array at the column 128 less. -/
theorem cat_right (hc : Shape.Concatenates [(⟨2, ![M, 128]⟩ : Shape), ⟨2, ![M, 128]⟩] ⟨2, ![M, 256]⟩ 1)
    (x₁ x₂ : FVec Ideal ⟨2, ![M, 128]⟩ .f32) (r : Fin M) (k : Fin 128) :
    concatenate (⟨2, ![M, 256]⟩ : Shape) 1 [⟨⟨2, ![M, 128]⟩, x₁⟩, ⟨⟨2, ![M, 128]⟩, x₂⟩] hc (ix2 r (Fin.natAdd 128 k))
      = x₂ (ix2 r k) :=
  concatenate_pair_apply_right 1 x₁ x₂ hc (ix2 r (Fin.natAdd 128 k)) rfl rfl (ix2 r k) (fun b hb => by
    match b, hb with
    | ⟨0, _⟩, _ => rfl
    | ⟨1, _⟩, hb => exact absurd rfl hb)
    (by show k.val + 128 = 128 + k.val; omega)

/-- The upper 128 rows of a 256-row matrix, read at an entry. -/
theorem up_apply (hs : (⟨2, ![256, 128]⟩ : Shape).Slices ![0, 0] ⟨2, ![128, 128]⟩) (w : FVec Ideal ⟨2, ![256, 128]⟩ .f32)
    (k j : Fin 128) :
    extractStridedSlice (⟨2, ![128, 128]⟩ : Shape) ![0, 0] w hs (ix2 k j) = w (ix2 (Fin.castAdd 128 k) j) :=
  extractStridedSlice_apply ![0, 0] w hs (ix2 k j) (ix2 (Fin.castAdd 128 k) j) (fun a => by
    match a with
    | ⟨0, _⟩ => show k.val = 0 + k.val; omega
    | ⟨1, _⟩ => show j.val = 0 + j.val; omega)

/-- The lower 128 rows, read at an entry. -/
theorem low_apply (hs : (⟨2, ![256, 128]⟩ : Shape).Slices ![128, 0] ⟨2, ![128, 128]⟩) (w : FVec Ideal ⟨2, ![256, 128]⟩ .f32)
    (k j : Fin 128) :
    extractStridedSlice (⟨2, ![128, 128]⟩ : Shape) ![128, 0] w hs (ix2 k j) = w (ix2 (Fin.natAdd 128 k) j) :=
  extractStridedSlice_apply ![128, 0] w hs (ix2 k j) (ix2 (Fin.natAdd 128 k) j) (fun a => by
    match a with
    | ⟨0, _⟩ => show 128 + k.val = 128 + k.val; rfl
    | ⟨1, _⟩ => show j.val = 0 + j.val; omega)

/-- The product of the concatenation [dif · src, dst] with the whole weight matrix, read at (r, j): the sum over the
    256 concatenated columns splits into the first 128 (the diffusion product against the upper rows of the
    weights) and the last 128 (the destination rows against the lower rows). -/
theorem hop_apply (d₁ : DotDims ⟨2, ![M, S]⟩ ⟨2, ![S, 128]⟩ ⟨2, ![M, 128]⟩) (hd₁ : d₁ = DotDims.plain M S 128)
    (d₂ : DotDims ⟨2, ![M, 256]⟩ ⟨2, ![256, 128]⟩ ⟨2, ![M, 128]⟩) (hd₂ : d₂ = DotDims.plain M 256 128)
    (hc : Shape.Concatenates [(⟨2, ![M, 128]⟩ : Shape), ⟨2, ![M, 128]⟩] ⟨2, ![M, 256]⟩ 1)
    (hs₀ : (⟨2, ![256, 128]⟩ : Shape).Slices ![0, 0] ⟨2, ![128, 128]⟩)
    (hs₁ : (⟨2, ![256, 128]⟩ : Shape).Slices ![128, 0] ⟨2, ![128, 128]⟩)
    (dif : FVec Ideal ⟨2, ![M, S]⟩ .f32) (src : FVec Ideal ⟨2, ![S, 128]⟩ .f32) (dst : FVec Ideal ⟨2, ![M, 128]⟩ .f32)
    (w : FVec Ideal ⟨2, ![256, 128]⟩ .f32) (r : Fin M) (j : Fin 128) :
    Host.dotGeneral d₂ none
        (concatenate (⟨2, ![M, 256]⟩ : Shape) 1 [⟨⟨2, ![M, 128]⟩, Host.dotGeneral d₁ none dif src⟩, ⟨⟨2, ![M, 128]⟩, dst⟩] hc)
        w (ix2 r j)
      = (∑ k : Fin 128, (∑ s : Fin S, dif (ix2 r s) * src (ix2 s k))
            * extractStridedSlice (⟨2, ![128, 128]⟩ : Shape) ![0, 0] w hs₀ (ix2 k j))
          + ∑ k : Fin 128, dst (ix2 r k) * extractStridedSlice (⟨2, ![128, 128]⟩ : Shape) ![128, 0] w hs₁ (ix2 k j) := by
  subst hd₁ hd₂
  show FloatOps.dotGeneral (DotDims.plain M 256 128) none .single _ w (ix2 r j) = _
  rw [Cert.LibDense.dotGeneral_plain_apply]
  refine (Fin.sum_univ_add (a := 128) (b := 128) (fun k : Fin (128 + 128) =>
    concatenate (⟨2, ![M, 256]⟩ : Shape) 1
        [⟨⟨2, ![M, 128]⟩, Host.dotGeneral (DotDims.plain M S 128) none dif src⟩, ⟨⟨2, ![M, 128]⟩, dst⟩] hc (ix2 r k)
      * w (ix2 k j))).trans ?_
  congr 1
  · refine Finset.sum_congr rfl fun k _ => ?_
    rw [cat_left, up_apply]
    congr 1
    show FloatOps.dotGeneral (DotDims.plain M S 128) none .single dif src (ix2 r k) = _
    rw [Cert.LibDense.dotGeneral_plain_apply]
  · refine Finset.sum_congr rfl fun k _ => ?_
    rw [cat_right, low_apply]

end General

/-- The reference's first-applied hop is the hop function, with the weight matrix cut into its two halves. -/
theorem rhop2_eq (dif : FVec Ideal Cert.KernelIdeal.S4096x40960 .f32) (src : FVec Ideal Cert.KernelIdeal.S40960x128 .f32)
    (dst : FVec Ideal Cert.KernelIdeal.S4096x128 .f32) (w : FVec Ideal Cert.KernelIdeal.S256x128 .f32) :
    rhop2 (F := Ideal) dif src dst w
      = Cert.KernelIdeal.Spec.hop2 dif src dst (Cert.KernelIdeal.Stages.wUp (F := Ideal) w) (Cert.KernelIdeal.Stages.wLow (F := Ideal) w) := by
  funext i
  obtain ⟨r, j, rfl⟩ : ∃ (r : Fin 4096) (j : Fin 128), i = ix2 r j := ⟨i 0, i 1, eq_ix2 i⟩
  -- the broadcast scalar zero, read at (r, j)
  have e0 := broadcastInDim_apply ![] bcast_S_S4096x128 (constant (F := Ideal) S_ .f32 0x00000000#32) (ix2 r j)
    (fun a => a.elim0) (fun a => a.elim0)
  unfold rhop2
  rw [maximumf_apply, e0,
    hop_apply dot_S4096x40960_S40960x128_S4096x128_1_0_0_1_n_n rfl dot_S4096x256_S256x128_S4096x128_1_0_0_1_n_n rfl
      concatenates_S4096x128_S4096x128_S4096x256_d1 Cert.KernelIdeal.Facts₀.slices_S256x128_S128x128_0_0
      Cert.KernelIdeal.Facts₀.slices_S256x128_S128x128_128_0 dif src dst w r j]
  show max _ (Ideal.ofBits .f32 0x00000000#32) = _
  rw [Ideal.ofBits_zero_f32]
  rfl

/-- The same of the second-applied hop. -/
theorem rhop1_eq (dif : FVec Ideal Cert.KernelIdeal.S1024x8192 .f32) (src : FVec Ideal Cert.KernelIdeal.S8192x128 .f32)
    (dst : FVec Ideal Cert.KernelIdeal.S1024x128 .f32) (w : FVec Ideal Cert.KernelIdeal.S256x128 .f32) :
    rhop1 (F := Ideal) dif src dst w
      = Cert.KernelIdeal.Spec.hop1 dif src dst (Cert.KernelIdeal.Stages.wUp (F := Ideal) w) (Cert.KernelIdeal.Stages.wLow (F := Ideal) w) := by
  funext i
  obtain ⟨r, j, rfl⟩ : ∃ (r : Fin 1024) (j : Fin 128), i = ix2 r j := ⟨i 0, i 1, eq_ix2 i⟩
  unfold rhop1
  rw [hop_apply dot_S1024x8192_S8192x128_S1024x128_1_0_0_1_n_n rfl dot_S1024x256_S256x128_S1024x128_1_0_0_1_n_n rfl
      concatenates_S1024x128_S1024x128_S1024x256_d1 Cert.KernelIdeal.Facts₀.slices_S256x128_S128x128_0_0
      Cert.KernelIdeal.Facts₀.slices_S256x128_S128x128_128_0 dif src dst w r j]
  rfl

end Cert.RefHop

end
-- ==== Proof.RefFun.lean ====
/-
  Both programs' results as closed functions of the twenty argument arrays.

  The reference's result is the host tail applied to its second-applied hop of rows
  gathered from its first-applied hop of the gathered feature rows (`refFun`).  The kernel's program applies the same
  gathers and the same tail around the hop function (`kerFun`).  At the exact instance the two are one function,
  because each of the reference's hops is the hop function.
-/
import proofs.«179562_j36550171689307_1_alg».proof.Proof.RefHop
import proofs.«179562_j36550171689307_1_alg».proof.Proof.KiStages
import proofs.«179562_j36550171689307_1_alg».proof.Proof.KiSpec

set_option maxRecDepth 16384

noncomputable section

namespace Cert.RefFun

open Idealize.ShloMosaic Idealize.ShloMosaic.TcCoe Idealize.SL.Sem
open Cert.ReferenceIdeal Cert.RefHop
open Cert.KernelIdeal.Stages

/-- The reference's result as a function of the twenty argument arrays: the host tail of its second-applied hop of rows
    gathered from its first-applied hop of the gathered feature rows. -/
def refFun {F : FTy → Type} [FloatOps F]
    (a0 : (⟨Cert.KernelIdeal.S40960, .i32⟩ : BufTy).Contents (Elt F))
    (a1 : (⟨Cert.KernelIdeal.S8192, .i32⟩ : BufTy).Contents (Elt F))
    (a2 : (⟨Cert.KernelIdeal.S40960, .i32⟩ : BufTy).Contents (Elt F))
    (a3 : (⟨Cert.KernelIdeal.S1024, .i32⟩ : BufTy).Contents (Elt F))
    (a4 : (⟨Cert.KernelIdeal.S4096, .i32⟩ : BufTy).Contents (Elt F))
    (a5 : (⟨Cert.KernelIdeal.S1024x8192, .f32⟩ : BufTy).Contents (Elt F))
    (a6 : (⟨Cert.KernelIdeal.S4096x40960, .f32⟩ : BufTy).Contents (Elt F))
    (a7 : (⟨Cert.KernelIdeal.S100000x128, .f32⟩ : BufTy).Contents (Elt F))
    (a8 : (⟨Cert.KernelIdeal.S256x128, .f32⟩ : BufTy).Contents (Elt F))
    (a9 : (⟨Cert.KernelIdeal.S256x128, .f32⟩ : BufTy).Contents (Elt F))
    (a10 : (⟨Cert.KernelIdeal.S128x64, .f32⟩ : BufTy).Contents (Elt F))
    (a11 : (⟨Cert.KernelIdeal.S64, .f32⟩ : BufTy).Contents (Elt F))
    (a12 : (⟨Cert.KernelIdeal.S64x32, .f32⟩ : BufTy).Contents (Elt F))
    (a13 : (⟨Cert.KernelIdeal.S32, .f32⟩ : BufTy).Contents (Elt F))
    (a14 : (⟨Cert.KernelIdeal.S32x16, .f32⟩ : BufTy).Contents (Elt F))
    (a15 : (⟨Cert.KernelIdeal.S16, .f32⟩ : BufTy).Contents (Elt F))
    (a16 : (⟨Cert.KernelIdeal.S16x8, .f32⟩ : BufTy).Contents (Elt F))
    (a17 : (⟨Cert.KernelIdeal.S8, .f32⟩ : BufTy).Contents (Elt F))
    (a18 : (⟨Cert.KernelIdeal.S8x1, .f32⟩ : BufTy).Contents (Elt F))
    (a19 : (⟨Cert.KernelIdeal.S1, .f32⟩ : BufTy).Contents (Elt F)) :
    (⟨Cert.KernelIdeal.S1024x1, .f32⟩ : BufTy).Contents (Elt F) :=
  tail (rhop1 a5 (src1 (rhop2 a6 (src2 (x0 a0 a7) a2) (dst2 (x0 a0 a7) a4) a8) a1)
      (dst1 (rhop2 a6 (src2 (x0 a0 a7) a2) (dst2 (x0 a0 a7) a4) a8) a3) a9) a10 a11 a12 a13 a14 a15 a16 a17 a18 a19

/-- The kernel's result as a function of the same arrays: the same tail and gathers around the hop function. -/
def kerFun
    (a0 : (⟨Cert.KernelIdeal.S40960, .i32⟩ : BufTy).Contents (Elt Ideal))
    (a1 : (⟨Cert.KernelIdeal.S8192, .i32⟩ : BufTy).Contents (Elt Ideal))
    (a2 : (⟨Cert.KernelIdeal.S40960, .i32⟩ : BufTy).Contents (Elt Ideal))
    (a3 : (⟨Cert.KernelIdeal.S1024, .i32⟩ : BufTy).Contents (Elt Ideal))
    (a4 : (⟨Cert.KernelIdeal.S4096, .i32⟩ : BufTy).Contents (Elt Ideal))
    (a5 : (⟨Cert.KernelIdeal.S1024x8192, .f32⟩ : BufTy).Contents (Elt Ideal))
    (a6 : (⟨Cert.KernelIdeal.S4096x40960, .f32⟩ : BufTy).Contents (Elt Ideal))
    (a7 : (⟨Cert.KernelIdeal.S100000x128, .f32⟩ : BufTy).Contents (Elt Ideal))
    (a8 : (⟨Cert.KernelIdeal.S256x128, .f32⟩ : BufTy).Contents (Elt Ideal))
    (a9 : (⟨Cert.KernelIdeal.S256x128, .f32⟩ : BufTy).Contents (Elt Ideal))
    (a10 : (⟨Cert.KernelIdeal.S128x64, .f32⟩ : BufTy).Contents (Elt Ideal))
    (a11 : (⟨Cert.KernelIdeal.S64, .f32⟩ : BufTy).Contents (Elt Ideal))
    (a12 : (⟨Cert.KernelIdeal.S64x32, .f32⟩ : BufTy).Contents (Elt Ideal))
    (a13 : (⟨Cert.KernelIdeal.S32, .f32⟩ : BufTy).Contents (Elt Ideal))
    (a14 : (⟨Cert.KernelIdeal.S32x16, .f32⟩ : BufTy).Contents (Elt Ideal))
    (a15 : (⟨Cert.KernelIdeal.S16, .f32⟩ : BufTy).Contents (Elt Ideal))
    (a16 : (⟨Cert.KernelIdeal.S16x8, .f32⟩ : BufTy).Contents (Elt Ideal))
    (a17 : (⟨Cert.KernelIdeal.S8, .f32⟩ : BufTy).Contents (Elt Ideal))
    (a18 : (⟨Cert.KernelIdeal.S8x1, .f32⟩ : BufTy).Contents (Elt Ideal))
    (a19 : (⟨Cert.KernelIdeal.S1, .f32⟩ : BufTy).Contents (Elt Ideal)) :
    FVec Ideal Cert.KernelIdeal.S1024x1 .f32 :=
  tail (Cert.KernelIdeal.Spec.hop1 a5
      (src1 (Cert.KernelIdeal.Spec.hop2 a6 (src2 (x0 a0 a7) a2) (dst2 (x0 a0 a7) a4) (wUp a8) (wLow a8)) a1)
      (dst1 (Cert.KernelIdeal.Spec.hop2 a6 (src2 (x0 a0 a7) a2) (dst2 (x0 a0 a7) a4) (wUp a8) (wLow a8)) a3) (wUp a9) (wLow a9))
    a10 a11 a12 a13 a14 a15 a16 a17 a18 a19

/-- At the exact instance the two are one function: each of the reference's hops is the hop function. -/
theorem fun_eq
    (a0 : (⟨Cert.KernelIdeal.S40960, .i32⟩ : BufTy).Contents (Elt Ideal))
    (a1 : (⟨Cert.KernelIdeal.S8192, .i32⟩ : BufTy).Contents (Elt Ideal))
    (a2 : (⟨Cert.KernelIdeal.S40960, .i32⟩ : BufTy).Contents (Elt Ideal))
    (a3 : (⟨Cert.KernelIdeal.S1024, .i32⟩ : BufTy).Contents (Elt Ideal))
    (a4 : (⟨Cert.KernelIdeal.S4096, .i32⟩ : BufTy).Contents (Elt Ideal))
    (a5 : (⟨Cert.KernelIdeal.S1024x8192, .f32⟩ : BufTy).Contents (Elt Ideal))
    (a6 : (⟨Cert.KernelIdeal.S4096x40960, .f32⟩ : BufTy).Contents (Elt Ideal))
    (a7 : (⟨Cert.KernelIdeal.S100000x128, .f32⟩ : BufTy).Contents (Elt Ideal))
    (a8 : (⟨Cert.KernelIdeal.S256x128, .f32⟩ : BufTy).Contents (Elt Ideal))
    (a9 : (⟨Cert.KernelIdeal.S256x128, .f32⟩ : BufTy).Contents (Elt Ideal))
    (a10 : (⟨Cert.KernelIdeal.S128x64, .f32⟩ : BufTy).Contents (Elt Ideal))
    (a11 : (⟨Cert.KernelIdeal.S64, .f32⟩ : BufTy).Contents (Elt Ideal))
    (a12 : (⟨Cert.KernelIdeal.S64x32, .f32⟩ : BufTy).Contents (Elt Ideal))
    (a13 : (⟨Cert.KernelIdeal.S32, .f32⟩ : BufTy).Contents (Elt Ideal))
    (a14 : (⟨Cert.KernelIdeal.S32x16, .f32⟩ : BufTy).Contents (Elt Ideal))
    (a15 : (⟨Cert.KernelIdeal.S16, .f32⟩ : BufTy).Contents (Elt Ideal))
    (a16 : (⟨Cert.KernelIdeal.S16x8, .f32⟩ : BufTy).Contents (Elt Ideal))
    (a17 : (⟨Cert.KernelIdeal.S8, .f32⟩ : BufTy).Contents (Elt Ideal))
    (a18 : (⟨Cert.KernelIdeal.S8x1, .f32⟩ : BufTy).Contents (Elt Ideal))
    (a19 : (⟨Cert.KernelIdeal.S1, .f32⟩ : BufTy).Contents (Elt Ideal)) :
    refFun (F := Ideal) a0 a1 a2 a3 a4 a5 a6 a7 a8 a9 a10 a11 a12 a13 a14 a15 a16 a17 a18 a19 = kerFun a0 a1 a2 a3 a4 a5 a6 a7 a8 a9 a10 a11 a12 a13 a14 a15 a16 a17 a18 a19 := by
  unfold refFun kerFun
  rw [Cert.RefHop.rhop2_eq, Cert.RefHop.rhop1_eq]

end Cert.RefFun

end
-- ==== Proof.RefRead.lean ====
/-
  The reference's result buffer read back through its 108 host operations: the operations fall into stretches — the
  index wrapping and gathers that feed the first-applied hop, that hop (two products around a concatenation, then the
  maximum with zero), the gathers that feed the second-applied hop, that hop, and the tail (unit rows, five dense layers,
  the softmax) — and each stretch's results are the stage functions of what the stretch before it left.
-/
import proofs.«179562_j36550171689307_1_alg».proof.Proof.RefOps
import proofs.«179562_j36550171689307_1_alg».proof.Proof.RefFun
import Idealize.ShloMosaic.Lib.Pipeline.Frame

set_option maxRecDepth 16384

noncomputable section

namespace Cert.RefRead

open Idealize.ShloMosaic Idealize.ShloMosaic.TcCoe Idealize.SL.Sem Idealize.ShloMosaic.StableHlo
open Cert.ReferenceIdeal Cert.ReferenceIdeal.Gen Cert.ReferenceIdeal.ValueP
open Cert.RefFun Cert.RefHop Cert.KernelIdeal.Stages

variable {F : FTy → Type} [FloatOps F]

/-! ## The operations, cut into thirteen stretches

Each stretch is the corresponding run of consecutive operations of the whole list; their concatenation is the list. -/

/-- Index wrapping and the three row gathers before the first-applied hop: the feature rows, then out of them that hop's destination rows and source rows. -/
abbrev gathers2 : List (HloOp τ sig (Elt F)) :=
  [ nullary main_c (constantI S_ 32 0#32),
    unary main_c main_v0 (broadcastInDim S40960 ![] bcast_S_S40960 : (⟨S_, .i32⟩ : BufTy).Contents (Elt F) → (⟨S40960, .i32⟩ : BufTy).Contents (Elt F)),
    binary main_arg0 main_v0 main_v1 (cmpi .slt : (⟨S40960, .i32⟩ : BufTy).Contents (Elt F) → (⟨S40960, .i32⟩ : BufTy).Contents (Elt F) → (⟨S40960, .i1⟩ : BufTy).Contents (Elt F)),
    nullary main_c_0 (constantI S_ 32 100000#32),
    unary main_c_0 main_v2 (broadcastInDim S40960 ![] bcast_S_S40960 : (⟨S_, .i32⟩ : BufTy).Contents (Elt F) → (⟨S40960, .i32⟩ : BufTy).Contents (Elt F)),
    binary main_arg0 main_v2 main_v3 (addi : (⟨S40960, .i32⟩ : BufTy).Contents (Elt F) → (⟨S40960, .i32⟩ : BufTy).Contents (Elt F) → (⟨S40960, .i32⟩ : BufTy).Contents (Elt F)),
    ternary main_v1 main_v3 main_arg0 main_v4 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    unary main_v4 main_v5 (broadcastInDim S40960x1 ![0] bcast_S40960_S40960x1_0 : (⟨S40960, .i32⟩ : BufTy).Contents (Elt F) → (⟨S40960x1, .i32⟩ : BufTy).Contents (Elt F)),
    binary main_arg7 main_v5 main_v6 ((fun x i => Host.gather gather_S100000x128_S40960x1_S40960x128_1_0_n_n_0_1_1128 x i) : (⟨S100000x128, .f32⟩ : BufTy).Contents (Elt F) → (⟨S40960x1, .i32⟩ : BufTy).Contents (Elt F) → (⟨S40960x128, .f32⟩ : BufTy).Contents (Elt F)),
    nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg4 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 40960#32),
    unary main_c_2 main_v9 (broadcastInDim S4096 ![] bcast_S_S4096 : (⟨S_, .i32⟩ : BufTy).Contents (Elt F) → (⟨S4096, .i32⟩ : BufTy).Contents (Elt F)),
    binary main_arg4 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg4 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v11 main_v12 (broadcastInDim S4096x1 ![0] bcast_S4096_S4096x1_0 : (⟨S4096, .i32⟩ : BufTy).Contents (Elt F) → (⟨S4096x1, .i32⟩ : BufTy).Contents (Elt F)),
    binary main_v6 main_v12 main_v13 ((fun x i => Host.gather gather_S40960x128_S4096x1_S4096x128_1_0_n_n_0_1_1128 x i) : (⟨S40960x128, .f32⟩ : BufTy).Contents (Elt F) → (⟨S4096x1, .i32⟩ : BufTy).Contents (Elt F) → (⟨S4096x128, .f32⟩ : BufTy).Contents (Elt F)),
    nullary main_c_3 (constantI S_ 32 0#32),
    unary main_c_3 main_v14 (broadcastInDim S40960 ![] bcast_S_S40960 : (⟨S_, .i32⟩ : BufTy).Contents (Elt F) → (⟨S40960, .i32⟩ : BufTy).Contents (Elt F)),
    binary main_arg2 main_v14 main_v15 (cmpi .slt : (⟨S40960, .i32⟩ : BufTy).Contents (Elt F) → (⟨S40960, .i32⟩ : BufTy).Contents (Elt F) → (⟨S40960, .i1⟩ : BufTy).Contents (Elt F)),
    nullary main_c_4 (constantI S_ 32 40960#32),
    unary main_c_4 main_v16 (broadcastInDim S40960 ![] bcast_S_S40960 : (⟨S_, .i32⟩ : BufTy).Contents (Elt F) → (⟨S40960, .i32⟩ : BufTy).Contents (Elt F)),
    binary main_arg2 main_v16 main_v17 (addi : (⟨S40960, .i32⟩ : BufTy).Contents (Elt F) → (⟨S40960, .i32⟩ : BufTy).Contents (Elt F) → (⟨S40960, .i32⟩ : BufTy).Contents (Elt F)),
    ternary main_v15 main_v17 main_arg2 main_v18 (select : (⟨S40960, .i1⟩ : BufTy).Contents (Elt F) → (⟨S40960, .i32⟩ : BufTy).Contents (Elt F) → (⟨S40960, .i32⟩ : BufTy).Contents (Elt F) → (⟨S40960, .i32⟩ : BufTy).Contents (Elt F)),
    unary main_v18 main_v19 (broadcastInDim S40960x1 ![0] bcast_S40960_S40960x1_0 : (⟨S40960, .i32⟩ : BufTy).Contents (Elt F) → (⟨S40960x1, .i32⟩ : BufTy).Contents (Elt F)),
    binary main_v6 main_v19 main_v20 ((fun x i => Host.gather gather_S40960x128_S40960x1_S40960x128_1_0_n_n_0_1_1128 x i) : (⟨S40960x128, .f32⟩ : BufTy).Contents (Elt F) → (⟨S40960x1, .i32⟩ : BufTy).Contents (Elt F) → (⟨S40960x128, .f32⟩ : BufTy).Contents (Elt F)) ]

/-- The first-applied hop: the diffusion product, its concatenation with the destination rows, the product with the weights, the maximum with zero. -/
abbrev hop2 : List (HloOp τ sig (Elt F)) :=
  [ binary main_arg6 main_v20 main_v21 ((fun l r => Host.dotGeneral dot_S4096x40960_S40960x128_S4096x128_1_0_0_1_n_n none l r) : (⟨S4096x40960, .f32⟩ : BufTy).Contents (Elt F) → (⟨S40960x128, .f32⟩ : BufTy).Contents (Elt F) → (⟨S4096x128, .f32⟩ : BufTy).Contents (Elt F)),
    binary main_v21 main_v13 main_v22 ((fun a b => concatenate S4096x256 1 [⟨S4096x128, a⟩, ⟨S4096x128, b⟩] concatenates_S4096x128_S4096x128_S4096x256_d1) : (⟨S4096x128, .f32⟩ : BufTy).Contents (Elt F) → (⟨S4096x128, .f32⟩ : BufTy).Contents (Elt F) → (⟨S4096x256, .f32⟩ : BufTy).Contents (Elt F)),
    binary main_v22 main_arg8 main_v23 ((fun l r => Host.dotGeneral dot_S4096x256_S256x128_S4096x128_1_0_0_1_n_n none l r) : (⟨S4096x256, .f32⟩ : BufTy).Contents (Elt F) → (⟨S256x128, .f32⟩ : BufTy).Contents (Elt F) → (⟨S4096x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x128, .f32⟩) main_call0_v0) (broadcastInDim S4096x128 ![] bcast_S_S4096x128),
    TRef.binary (TRef.of (T := ⟨S4096x128, .f32⟩) main_v23) (TRef.of (T := ⟨S4096x128, .f32⟩) main_call0_v0) (TRef.of (T := ⟨S4096x128, .f32⟩) main_v24) maximumf ]

/-- Index wrapping and the two row gathers out of the first-applied hop's result: the second-applied hop's destination rows and source rows. -/
abbrev gathers1 : List (HloOp τ sig (Elt F)) :=
  [ nullary main_c_5 (constantI S_ 32 0#32),
    unary main_c_5 main_v25 (broadcastInDim S1024 ![] bcast_S_S1024 : (⟨S_, .i32⟩ : BufTy).Contents (Elt F) → (⟨S1024, .i32⟩ : BufTy).Contents (Elt F)),
    binary main_arg3 main_v25 main_v26 (cmpi .slt : (⟨S1024, .i32⟩ : BufTy).Contents (Elt F) → (⟨S1024, .i32⟩ : BufTy).Contents (Elt F) → (⟨S1024, .i1⟩ : BufTy).Contents (Elt F)),
    nullary main_c_6 (constantI S_ 32 4096#32),
    unary main_c_6 main_v27 (broadcastInDim S1024 ![] bcast_S_S1024 : (⟨S_, .i32⟩ : BufTy).Contents (Elt F) → (⟨S1024, .i32⟩ : BufTy).Contents (Elt F)),
    binary main_arg3 main_v27 main_v28 (addi : (⟨S1024, .i32⟩ : BufTy).Contents (Elt F) → (⟨S1024, .i32⟩ : BufTy).Contents (Elt F) → (⟨S1024, .i32⟩ : BufTy).Contents (Elt F)),
    ternary main_v26 main_v28 main_arg3 main_v29 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v29 main_v30 (broadcastInDim S1024x1 ![0] bcast_S1024_S1024x1_0 : (⟨S1024, .i32⟩ : BufTy).Contents (Elt F) → (⟨S1024x1, .i32⟩ : BufTy).Contents (Elt F)),
    binary main_v24 main_v30 main_v31 ((fun x i => Host.gather gather_S4096x128_S1024x1_S1024x128_1_0_n_n_0_1_1128 x i) : (⟨S4096x128, .f32⟩ : BufTy).Contents (Elt F) → (⟨S1024x1, .i32⟩ : BufTy).Contents (Elt F) → (⟨S1024x128, .f32⟩ : BufTy).Contents (Elt F)),
    nullary main_c_7 (constantI S_ 32 0#32),
    unary main_c_7 main_v32 (broadcastInDim S8192 ![] bcast_S_S8192 : (⟨S_, .i32⟩ : BufTy).Contents (Elt F) → (⟨S8192, .i32⟩ : BufTy).Contents (Elt F)),
    binary main_arg1 main_v32 main_v33 (cmpi .slt : (⟨S8192, .i32⟩ : BufTy).Contents (Elt F) → (⟨S8192, .i32⟩ : BufTy).Contents (Elt F) → (⟨S8192, .i1⟩ : BufTy).Contents (Elt F)),
    nullary main_c_8 (constantI S_ 32 4096#32),
    unary main_c_8 main_v34 (broadcastInDim S8192 ![] bcast_S_S8192 : (⟨S_, .i32⟩ : BufTy).Contents (Elt F) → (⟨S8192, .i32⟩ : BufTy).Contents (Elt F)),
    binary main_arg1 main_v34 main_v35 (addi : (⟨S8192, .i32⟩ : BufTy).Contents (Elt F) → (⟨S8192, .i32⟩ : BufTy).Contents (Elt F) → (⟨S8192, .i32⟩ : BufTy).Contents (Elt F)),
    ternary main_v33 main_v35 main_arg1 main_v36 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v36 main_v37 (broadcastInDim S8192x1 ![0] bcast_S8192_S8192x1_0 : (⟨S8192, .i32⟩ : BufTy).Contents (Elt F) → (⟨S8192x1, .i32⟩ : BufTy).Contents (Elt F)),
    binary main_v24 main_v37 main_v38 ((fun x i => Host.gather gather_S4096x128_S8192x1_S8192x128_1_0_n_n_0_1_1128 x i) : (⟨S4096x128, .f32⟩ : BufTy).Contents (Elt F) → (⟨S8192x1, .i32⟩ : BufTy).Contents (Elt F) → (⟨S8192x128, .f32⟩ : BufTy).Contents (Elt F)) ]

/-- The second-applied hop: the diffusion product, its concatenation with the destination rows, the product with the weights. -/
abbrev hop1 : List (HloOp τ sig (Elt F)) :=
  [ binary main_arg5 main_v38 main_v39 ((fun l r => Host.dotGeneral dot_S1024x8192_S8192x128_S1024x128_1_0_0_1_n_n none l r) : (⟨S1024x8192, .f32⟩ : BufTy).Contents (Elt F) → (⟨S8192x128, .f32⟩ : BufTy).Contents (Elt F) → (⟨S1024x128, .f32⟩ : BufTy).Contents (Elt F)),
    binary main_v39 main_v31 main_v40 ((fun a b => concatenate S1024x256 1 [⟨S1024x128, a⟩, ⟨S1024x128, b⟩] concatenates_S1024x128_S1024x128_S1024x256_d1) : (⟨S1024x128, .f32⟩ : BufTy).Contents (Elt F) → (⟨S1024x128, .f32⟩ : BufTy).Contents (Elt F) → (⟨S1024x256, .f32⟩ : BufTy).Contents (Elt F)),
    binary main_v40 main_arg9 main_v41 ((fun l r => Host.dotGeneral dot_S1024x256_S256x128_S1024x128_1_0_0_1_n_n none l r) : (⟨S1024x256, .f32⟩ : BufTy).Contents (Elt F) → (⟨S256x128, .f32⟩ : BufTy).Contents (Elt F) → (⟨S1024x128, .f32⟩ : BufTy).Contents (Elt F)) ]

/-- Unit rows, then the first dense layer's affine part. -/
abbrev dense1 : List (HloOp τ sig (Elt F)) :=
  [ binary main_v41 main_v41 main_v42 (mulf : (⟨S1024x128, .f32⟩ : BufTy).Contents (Elt F) → (⟨S1024x128, .f32⟩ : BufTy).Contents (Elt F) → (⟨S1024x128, .f32⟩ : BufTy).Contents (Elt F)),
    nullary main_cst (constant S_ .f32 0x00000000#32),
    binary main_v42 main_cst main_v43 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    unary main_v43 main_v44 (broadcastInDim S1024x1 ![0] bcast_S1024_S1024x1_0 : (⟨S1024, .f32⟩ : BufTy).Contents (Elt F) → (⟨S1024x1, .f32⟩ : BufTy).Contents (Elt F)),
    nullary main_cst_9 (constant S_ .f32 0x2B8CBCCC#32),
    unary main_cst_9 main_v45 (broadcastInDim S1024x1 ![] bcast_S_S1024x1 : (⟨S_, .f32⟩ : BufTy).Contents (Elt F) → (⟨S1024x1, .f32⟩ : BufTy).Contents (Elt F)),
    binary main_v44 main_v45 main_v46 (maximumf : (⟨S1024x1, .f32⟩ : BufTy).Contents (Elt F) → (⟨S1024x1, .f32⟩ : BufTy).Contents (Elt F) → (⟨S1024x1, .f32⟩ : BufTy).Contents (Elt F)),
    unary main_v46 main_v47 (Host.rsqrt : (⟨S1024x1, .f32⟩ : BufTy).Contents (Elt F) → (⟨S1024x1, .f32⟩ : BufTy).Contents (Elt F)),
    unary main_v47 main_v48 (broadcastInDim S1024x128 ![0, 1] bcast_S1024x1_S1024x128_0_1 : (⟨S1024x1, .f32⟩ : BufTy).Contents (Elt F) → (⟨S1024x128, .f32⟩ : BufTy).Contents (Elt F)),
    binary main_v41 main_v48 main_v49 (mulf : (⟨S1024x128, .f32⟩ : BufTy).Contents (Elt F) → (⟨S1024x128, .f32⟩ : BufTy).Contents (Elt F) → (⟨S1024x128, .f32⟩ : BufTy).Contents (Elt F)),
    binary main_v49 main_arg10 main_v50 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    unary main_arg11 main_v51 (broadcastInDim S1x64 ![1] bcast_S64_S1x64_1 : (⟨S64, .f32⟩ : BufTy).Contents (Elt F) → (⟨S1x64, .f32⟩ : BufTy).Contents (Elt F)),
    unary main_v51 main_v52 (broadcastInDim S1024x64 ![0, 1] bcast_S1x64_S1024x64_0_1 : (⟨S1x64, .f32⟩ : BufTy).Contents (Elt F) → (⟨S1024x64, .f32⟩ : BufTy).Contents (Elt F)),
    binary main_v50 main_v52 main_v53 (addf : (⟨S1024x64, .f32⟩ : BufTy).Contents (Elt F) → (⟨S1024x64, .f32⟩ : BufTy).Contents (Elt F) → (⟨S1024x64, .f32⟩ : BufTy).Contents (Elt F)) ]

/-- The maximum with zero after the first dense layer. -/
abbrev relu1 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S1024x64, .f32⟩) main_call1_v0) (broadcastInDim S1024x64 ![] bcast_S_S1024x64),
    TRef.binary (TRef.of (T := ⟨S1024x64, .f32⟩) main_v53) (TRef.of (T := ⟨S1024x64, .f32⟩) main_call1_v0) (TRef.of (T := ⟨S1024x64, .f32⟩) main_v54) maximumf ]

/-- The second dense layer's affine part. -/
abbrev dense2 : List (HloOp τ sig (Elt F)) :=
  [ binary main_v54 main_arg12 main_v55 ((fun l r => Host.dotGeneral dot_S1024x64_S64x32_S1024x32_1_0_0_1_n_n none l r) : (⟨S1024x64, .f32⟩ : BufTy).Contents (Elt F) → (⟨S64x32, .f32⟩ : BufTy).Contents (Elt F) → (⟨S1024x32, .f32⟩ : BufTy).Contents (Elt F)),
    unary main_arg13 main_v56 (broadcastInDim S1x32 ![1] bcast_S32_S1x32_1 : (⟨S32, .f32⟩ : BufTy).Contents (Elt F) → (⟨S1x32, .f32⟩ : BufTy).Contents (Elt F)),
    unary main_v56 main_v57 (broadcastInDim S1024x32 ![0, 1] bcast_S1x32_S1024x32_0_1 : (⟨S1x32, .f32⟩ : BufTy).Contents (Elt F) → (⟨S1024x32, .f32⟩ : BufTy).Contents (Elt F)),
    binary main_v55 main_v57 main_v58 (addf : (⟨S1024x32, .f32⟩ : BufTy).Contents (Elt F) → (⟨S1024x32, .f32⟩ : BufTy).Contents (Elt F) → (⟨S1024x32, .f32⟩ : BufTy).Contents (Elt F)) ]

/-- The maximum with zero after the second dense layer. -/
abbrev relu2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S1024x32, .f32⟩) main_call2_v0) (broadcastInDim S1024x32 ![] bcast_S_S1024x32),
    TRef.binary (TRef.of (T := ⟨S1024x32, .f32⟩) main_v58) (TRef.of (T := ⟨S1024x32, .f32⟩) main_call2_v0) (TRef.of (T := ⟨S1024x32, .f32⟩) main_v59) maximumf ]

/-- The third dense layer's affine part. -/
abbrev dense3 : List (HloOp τ sig (Elt F)) :=
  [ binary main_v59 main_arg14 main_v60 ((fun l r => Host.dotGeneral dot_S1024x32_S32x16_S1024x16_1_0_0_1_n_n none l r) : (⟨S1024x32, .f32⟩ : BufTy).Contents (Elt F) → (⟨S32x16, .f32⟩ : BufTy).Contents (Elt F) → (⟨S1024x16, .f32⟩ : BufTy).Contents (Elt F)),
    unary main_arg15 main_v61 (broadcastInDim S1x16 ![1] bcast_S16_S1x16_1 : (⟨S16, .f32⟩ : BufTy).Contents (Elt F) → (⟨S1x16, .f32⟩ : BufTy).Contents (Elt F)),
    unary main_v61 main_v62 (broadcastInDim S1024x16 ![0, 1] bcast_S1x16_S1024x16_0_1 : (⟨S1x16, .f32⟩ : BufTy).Contents (Elt F) → (⟨S1024x16, .f32⟩ : BufTy).Contents (Elt F)),
    binary main_v60 main_v62 main_v63 (addf : (⟨S1024x16, .f32⟩ : BufTy).Contents (Elt F) → (⟨S1024x16, .f32⟩ : BufTy).Contents (Elt F) → (⟨S1024x16, .f32⟩ : BufTy).Contents (Elt F)) ]

/-- The maximum with zero after the third dense layer. -/
abbrev relu3 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S1024x16, .f32⟩) main_call3_v0) (broadcastInDim S1024x16 ![] bcast_S_S1024x16),
    TRef.binary (TRef.of (T := ⟨S1024x16, .f32⟩) main_v63) (TRef.of (T := ⟨S1024x16, .f32⟩) main_call3_v0) (TRef.of (T := ⟨S1024x16, .f32⟩) main_v64) maximumf ]

/-- The fourth dense layer's affine part. -/
abbrev dense4 : List (HloOp τ sig (Elt F)) :=
  [ binary main_v64 main_arg16 main_v65 ((fun l r => Host.dotGeneral dot_S1024x16_S16x8_S1024x8_1_0_0_1_n_n none l r) : (⟨S1024x16, .f32⟩ : BufTy).Contents (Elt F) → (⟨S16x8, .f32⟩ : BufTy).Contents (Elt F) → (⟨S1024x8, .f32⟩ : BufTy).Contents (Elt F)),
    unary main_arg17 main_v66 (broadcastInDim S1x8 ![1] bcast_S8_S1x8_1 : (⟨S8, .f32⟩ : BufTy).Contents (Elt F) → (⟨S1x8, .f32⟩ : BufTy).Contents (Elt F)),
    unary main_v66 main_v67 (broadcastInDim S1024x8 ![0, 1] bcast_S1x8_S1024x8_0_1 : (⟨S1x8, .f32⟩ : BufTy).Contents (Elt F) → (⟨S1024x8, .f32⟩ : BufTy).Contents (Elt F)),
    binary main_v65 main_v67 main_v68 (addf : (⟨S1024x8, .f32⟩ : BufTy).Contents (Elt F) → (⟨S1024x8, .f32⟩ : BufTy).Contents (Elt F) → (⟨S1024x8, .f32⟩ : BufTy).Contents (Elt F)) ]

/-- The maximum with zero after the fourth dense layer. -/
abbrev relu4 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S1024x8, .f32⟩) main_call4_v0) (broadcastInDim S1024x8 ![] bcast_S_S1024x8),
    TRef.binary (TRef.of (T := ⟨S1024x8, .f32⟩) main_v68) (TRef.of (T := ⟨S1024x8, .f32⟩) main_call4_v0) (TRef.of (T := ⟨S1024x8, .f32⟩) main_v69) maximumf ]

/-- The last dense layer's affine part, then the softmax over the single column. -/
abbrev softmax : List (HloOp τ sig (Elt F)) :=
  [ binary main_v69 main_arg18 main_v70 ((fun l r => Host.dotGeneral dot_S1024x8_S8x1_S1024x1_1_0_0_1_n_n none l r) : (⟨S1024x8, .f32⟩ : BufTy).Contents (Elt F) → (⟨S8x1, .f32⟩ : BufTy).Contents (Elt F) → (⟨S1024x1, .f32⟩ : BufTy).Contents (Elt F)),
    unary main_arg19 main_v71 (broadcastInDim S1x1 ![1] bcast_S1_S1x1_1 : (⟨S1, .f32⟩ : BufTy).Contents (Elt F) → (⟨S1x1, .f32⟩ : BufTy).Contents (Elt F)),
    unary main_v71 main_v72 (broadcastInDim S1024x1 ![0, 1] bcast_S1x1_S1024x1_0_1 : (⟨S1x1, .f32⟩ : BufTy).Contents (Elt F) → (⟨S1024x1, .f32⟩ : BufTy).Contents (Elt F)),
    binary main_v70 main_v72 main_v73 (addf : (⟨S1024x1, .f32⟩ : BufTy).Contents (Elt F) → (⟨S1024x1, .f32⟩ : BufTy).Contents (Elt F) → (⟨S1024x1, .f32⟩ : BufTy).Contents (Elt F)),
    nullary main_cst_10 (constant S_ .f32 0xFF800000#32),
    binary main_v73 main_cst_10 main_v74 ((fun x v => Host.reduce FloatOps.maximumf x v reducesTo_S1024x1_S1024_d1 h_S_) : (⟨S1024x1, .f32⟩ : BufTy).Contents (Elt F) → (⟨S_, .f32⟩ : BufTy).Contents (Elt F) → (⟨S1024, .f32⟩ : BufTy).Contents (Elt F)),
    nullary main_cst_11 (constant S_ .f32 0xFF800000#32),
    unary main_cst_11 main_v75 (broadcastInDim S1024 ![] bcast_S_S1024 : (⟨S_, .f32⟩ : BufTy).Contents (Elt F) → (⟨S1024, .f32⟩ : BufTy).Contents (Elt F)),
    binary main_v75 main_v74 main_v76 (maximumf : (⟨S1024, .f32⟩ : BufTy).Contents (Elt F) → (⟨S1024, .f32⟩ : BufTy).Contents (Elt F) → (⟨S1024, .f32⟩ : BufTy).Contents (Elt F)),
    unary main_v76 main_v77 (broadcastInDim S1024x1 ![0] bcast_S1024_S1024x1_0 : (⟨S1024, .f32⟩ : BufTy).Contents (Elt F) → (⟨S1024x1, .f32⟩ : BufTy).Contents (Elt F)),
    binary main_v73 main_v77 main_v78 (subf : (⟨S1024x1, .f32⟩ : BufTy).Contents (Elt F) → (⟨S1024x1, .f32⟩ : BufTy).Contents (Elt F) → (⟨S1024x1, .f32⟩ : BufTy).Contents (Elt F)),
    unary main_v78 main_v79 (Host.exp : (⟨S1024x1, .f32⟩ : BufTy).Contents (Elt F) → (⟨S1024x1, .f32⟩ : BufTy).Contents (Elt F)),
    nullary main_cst_12 (constant S_ .f32 0x00000000#32),
    binary main_v79 main_cst_12 main_v80 ((fun x v => Host.reduceAdd x v reducesTo_S1024x1_S1024_d1 h_S_) : (⟨S1024x1, .f32⟩ : BufTy).Contents (Elt F) → (⟨S_, .f32⟩ : BufTy).Contents (Elt F) → (⟨S1024, .f32⟩ : BufTy).Contents (Elt F)),
    unary main_v80 main_v81 (broadcastInDim S1024x1 ![0] bcast_S1024_S1024x1_0 : (⟨S1024, .f32⟩ : BufTy).Contents (Elt F) → (⟨S1024x1, .f32⟩ : BufTy).Contents (Elt F)),
    binary main_v79 main_v81 main_v82 (Host.divf : (⟨S1024x1, .f32⟩ : BufTy).Contents (Elt F) → (⟨S1024x1, .f32⟩ : BufTy).Contents (Elt F) → (⟨S1024x1, .f32⟩ : BufTy).Contents (Elt F)) ]

/-- The whole list is the thirteen stretches one after the other. -/
theorem ops_cut : (ops (F := F)) = gathers2 ++ (hop2 ++ (gathers1 ++ (hop1 ++ (dense1 ++ (relu1 ++ (dense2 ++ (relu2 ++ (dense3 ++ (relu3 ++ (dense4 ++ (relu4 ++ (softmax)))))))))))) := rfl

/-! ## Each stretch, from any contents `W` of the buffers

Every stretch is a straight line of whole-array operations; its result array is the composite of those operations
applied to what `W` holds in the arrays the stretch reads. -/

section Generic
variable (W : Valuation τ sig (Elt F))

/-- The feature rows gathered through the wrapped node indices. -/
theorem gathers2_v6 : after gathers2 W (Proc.devRef .tc main_v6) = x0 (W (Proc.devRef .tc main_arg0)) (W (Proc.devRef .tc main_arg7)) := by
  after_results_simp <;> rfl
/-- The first-applied hop's destination rows: the gathered feature rows, gathered again. -/
theorem gathers2_v13 : after gathers2 W (Proc.devRef .tc main_v13)
    = dst2 (x0 (W (Proc.devRef .tc main_arg0)) (W (Proc.devRef .tc main_arg7))) (W (Proc.devRef .tc main_arg4)) := by
  after_results_simp <;> rfl
/-- The first-applied hop's source rows: the gathered feature rows, gathered again. -/
theorem gathers2_v20 : after gathers2 W (Proc.devRef .tc main_v20)
    = src2 (x0 (W (Proc.devRef .tc main_arg0)) (W (Proc.devRef .tc main_arg7))) (W (Proc.devRef .tc main_arg2)) := by
  after_results_simp <;> rfl

/-- The first-applied hop of the rows the stretch before it left. -/
theorem hop2_v24 : after hop2 W (Proc.devRef .tc main_v24)
    = rhop2 (W (Proc.devRef .tc main_arg6)) (W (Proc.devRef .tc main_v20)) (W (Proc.devRef .tc main_v13)) (W (Proc.devRef .tc main_arg8)) := by
  after_results <;> rfl

/-- The second-applied hop's destination rows, out of the first-applied hop's result. -/
theorem gathers1_v31 : after gathers1 W (Proc.devRef .tc main_v31) = dst1 (W (Proc.devRef .tc main_v24)) (W (Proc.devRef .tc main_arg3)) := by
  after_results_simp <;> rfl
/-- The second-applied hop's source rows, out of the first-applied hop's result. -/
theorem gathers1_v38 : after gathers1 W (Proc.devRef .tc main_v38) = src1 (W (Proc.devRef .tc main_v24)) (W (Proc.devRef .tc main_arg1)) := by
  after_results_simp <;> rfl

/-- The second-applied hop of the rows the stretch before it left. -/
theorem hop1_v41 : after hop1 W (Proc.devRef .tc main_v41)
    = rhop1 (W (Proc.devRef .tc main_arg5)) (W (Proc.devRef .tc main_v38)) (W (Proc.devRef .tc main_v31)) (W (Proc.devRef .tc main_arg9)) := by
  after_results <;> rfl

/-! The tail: unit rows and the first dense layer's affine part (a product summed over the shared axis plus the bias
    spread over the rows); then alternately a maximum with zero and the next layer's affine part; last the softmax over
    the single column. -/

theorem dense1_v53 : after dense1 W (Proc.devRef .tc main_v53)
    = (addf (Host.dotGeneral dot_S1024x128_S128x64_S1024x64_1_0_0_1_n_n none (unitRows (W (Proc.devRef .tc main_v41))) (W (Proc.devRef .tc main_arg10)) : (⟨S1024x64, .f32⟩ : BufTy).Contents (Elt F))
      (broadcastInDim S1024x64 ![0, 1] bcast_S1x64_S1024x64_0_1 (broadcastInDim S1x64 ![1] bcast_S64_S1x64_1 (W (Proc.devRef .tc main_arg11)) : (⟨S1x64, .f32⟩ : BufTy).Contents (Elt F)) : (⟨S1024x64, .f32⟩ : BufTy).Contents (Elt F)) : (⟨S1024x64, .f32⟩ : BufTy).Contents (Elt F)) := by
  after_results_simp <;> rfl
theorem relu1_v54 : after relu1 W (Proc.devRef .tc main_v54)
    = (maximumf (W (Proc.devRef .tc main_v53)) (broadcastInDim S1024x64 ![] bcast_S_S1024x64 (constant S_ .f32 0x00000000#32) : (⟨S1024x64, .f32⟩ : BufTy).Contents (Elt F)) : (⟨S1024x64, .f32⟩ : BufTy).Contents (Elt F)) := by
  after_results_simp <;> rfl
theorem dense2_v58 : after dense2 W (Proc.devRef .tc main_v58)
    = (addf (Host.dotGeneral dot_S1024x64_S64x32_S1024x32_1_0_0_1_n_n none (W (Proc.devRef .tc main_v54)) (W (Proc.devRef .tc main_arg12)) : (⟨S1024x32, .f32⟩ : BufTy).Contents (Elt F))
      (broadcastInDim S1024x32 ![0, 1] bcast_S1x32_S1024x32_0_1 (broadcastInDim S1x32 ![1] bcast_S32_S1x32_1 (W (Proc.devRef .tc main_arg13)) : (⟨S1x32, .f32⟩ : BufTy).Contents (Elt F)) : (⟨S1024x32, .f32⟩ : BufTy).Contents (Elt F)) : (⟨S1024x32, .f32⟩ : BufTy).Contents (Elt F)) := by
  after_results_simp <;> rfl
theorem relu2_v59 : after relu2 W (Proc.devRef .tc main_v59)
    = (maximumf (W (Proc.devRef .tc main_v58)) (broadcastInDim S1024x32 ![] bcast_S_S1024x32 (constant S_ .f32 0x00000000#32) : (⟨S1024x32, .f32⟩ : BufTy).Contents (Elt F)) : (⟨S1024x32, .f32⟩ : BufTy).Contents (Elt F)) := by
  after_results_simp <;> rfl
theorem dense3_v63 : after dense3 W (Proc.devRef .tc main_v63)
    = (addf (Host.dotGeneral dot_S1024x32_S32x16_S1024x16_1_0_0_1_n_n none (W (Proc.devRef .tc main_v59)) (W (Proc.devRef .tc main_arg14)) : (⟨S1024x16, .f32⟩ : BufTy).Contents (Elt F))
      (broadcastInDim S1024x16 ![0, 1] bcast_S1x16_S1024x16_0_1 (broadcastInDim S1x16 ![1] bcast_S16_S1x16_1 (W (Proc.devRef .tc main_arg15)) : (⟨S1x16, .f32⟩ : BufTy).Contents (Elt F)) : (⟨S1024x16, .f32⟩ : BufTy).Contents (Elt F)) : (⟨S1024x16, .f32⟩ : BufTy).Contents (Elt F)) := by
  after_results_simp <;> rfl
theorem relu3_v64 : after relu3 W (Proc.devRef .tc main_v64)
    = (maximumf (W (Proc.devRef .tc main_v63)) (broadcastInDim S1024x16 ![] bcast_S_S1024x16 (constant S_ .f32 0x00000000#32) : (⟨S1024x16, .f32⟩ : BufTy).Contents (Elt F)) : (⟨S1024x16, .f32⟩ : BufTy).Contents (Elt F)) := by
  after_results_simp <;> rfl
theorem dense4_v68 : after dense4 W (Proc.devRef .tc main_v68)
    = (addf (Host.dotGeneral dot_S1024x16_S16x8_S1024x8_1_0_0_1_n_n none (W (Proc.devRef .tc main_v64)) (W (Proc.devRef .tc main_arg16)) : (⟨S1024x8, .f32⟩ : BufTy).Contents (Elt F))
      (broadcastInDim S1024x8 ![0, 1] bcast_S1x8_S1024x8_0_1 (broadcastInDim S1x8 ![1] bcast_S8_S1x8_1 (W (Proc.devRef .tc main_arg17)) : (⟨S1x8, .f32⟩ : BufTy).Contents (Elt F)) : (⟨S1024x8, .f32⟩ : BufTy).Contents (Elt F)) : (⟨S1024x8, .f32⟩ : BufTy).Contents (Elt F)) := by
  after_results_simp <;> rfl
theorem relu4_v69 : after relu4 W (Proc.devRef .tc main_v69)
    = (maximumf (W (Proc.devRef .tc main_v68)) (broadcastInDim S1024x8 ![] bcast_S_S1024x8 (constant S_ .f32 0x00000000#32) : (⟨S1024x8, .f32⟩ : BufTy).Contents (Elt F)) : (⟨S1024x8, .f32⟩ : BufTy).Contents (Elt F)) := by
  after_results_simp <;> rfl
theorem softmax_v82 : after softmax W (Proc.devRef .tc main_v82)
    = softmaxCol (addf (Host.dotGeneral dot_S1024x8_S8x1_S1024x1_1_0_0_1_n_n none (W (Proc.devRef .tc main_v69)) (W (Proc.devRef .tc main_arg18)) : (⟨S1024x1, .f32⟩ : BufTy).Contents (Elt F))
      (broadcastInDim S1024x1 ![0, 1] bcast_S1x1_S1024x1_0_1 (broadcastInDim S1x1 ![1] bcast_S1_S1x1_1 (W (Proc.devRef .tc main_arg19)) : (⟨S1x1, .f32⟩ : BufTy).Contents (Elt F)) : (⟨S1024x1, .f32⟩ : BufTy).Contents (Elt F)) : (⟨S1024x1, .f32⟩ : BufTy).Contents (Elt F)) := by
  after_results_simp <;> rfl

end Generic

/-! ## No operation writes an argument -/

/-- The buffers the operations write, in order: none of them is an argument. -/
abbrev writtenRefs : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_v21, main_v22, main_v23, main_call0_cst, main_call0_v0, main_v24, main_c_5, main_v25, main_v26, main_c_6, main_v27, main_v28, main_v29, main_v30, main_v31, main_c_7, main_v32, main_v33, main_c_8, main_v34, main_v35, main_v36, main_v37, main_v38, main_v39, main_v40, main_v41, main_v42, main_cst, main_v43, main_v44, main_cst_9, main_v45, main_v46, main_v47, main_v48, main_v49, main_v50, main_v51, main_v52, main_v53, main_call1_cst, main_call1_v0, main_v54, main_v55, main_v56, main_v57, main_v58, main_call2_cst, main_call2_v0, main_v59, main_v60, main_v61, main_v62, main_v63, main_call3_cst, main_call3_v0, main_v64, main_v65, main_v66, main_v67, main_v68, main_call4_cst, main_call4_v0, main_v69, main_v70, main_v71, main_v72, main_v73, main_cst_10, main_v74, main_cst_11, main_v75, main_v76, main_v77, main_v78, main_v79, main_cst_12, main_v80, main_v81, main_v82]

/-- Each operation writes one buffer of that list. -/
theorem ops_writes : (ops (F := F)).Forall fun op => op.writes ⊆ (writtenRefs.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

/-- A run of operations taken from the list leaves every buffer outside that list as it was. -/
theorem keep {s : List (HloOp τ sig (Elt F))} (hs : ∀ op ∈ s, op ∈ (ops (F := F))) (W : Valuation τ sig (Elt F))
    {r : Ref sig .tc} (hr : r ∉ writtenRefs) : after s W (Proc.devRef .tc r) = W (Proc.devRef .tc r) :=
  after_of_writes_sub s W
    (List.forall_iff_forall_mem.mpr fun op h => List.forall_iff_forall_mem.mp ops_writes op (hs op h)) hr

/-- No argument is among the buffers written. -/
theorem arg0_nw : main_arg0 ∉ writtenRefs := by decide
theorem arg1_nw : main_arg1 ∉ writtenRefs := by decide
theorem arg2_nw : main_arg2 ∉ writtenRefs := by decide
theorem arg3_nw : main_arg3 ∉ writtenRefs := by decide
theorem arg4_nw : main_arg4 ∉ writtenRefs := by decide
theorem arg5_nw : main_arg5 ∉ writtenRefs := by decide
theorem arg6_nw : main_arg6 ∉ writtenRefs := by decide
theorem arg7_nw : main_arg7 ∉ writtenRefs := by decide
theorem arg8_nw : main_arg8 ∉ writtenRefs := by decide
theorem arg9_nw : main_arg9 ∉ writtenRefs := by decide
theorem arg10_nw : main_arg10 ∉ writtenRefs := by decide
theorem arg11_nw : main_arg11 ∉ writtenRefs := by decide
theorem arg12_nw : main_arg12 ∉ writtenRefs := by decide
theorem arg13_nw : main_arg13 ∉ writtenRefs := by decide
theorem arg14_nw : main_arg14 ∉ writtenRefs := by decide
theorem arg15_nw : main_arg15 ∉ writtenRefs := by decide
theorem arg16_nw : main_arg16 ∉ writtenRefs := by decide
theorem arg17_nw : main_arg17 ∉ writtenRefs := by decide
theorem arg18_nw : main_arg18 ∉ writtenRefs := by decide
theorem arg19_nw : main_arg19 ∉ writtenRefs := by decide

theorem gathers2_sub : ∀ op ∈ (gathers2 (F := F)), op ∈ (ops (F := F)) := fun op h => by
  rw [ops_cut]; simp only [List.mem_append, h, true_or, or_true]
theorem hop2_sub : ∀ op ∈ (hop2 (F := F)), op ∈ (ops (F := F)) := fun op h => by
  rw [ops_cut]; simp only [List.mem_append, h, true_or, or_true]
theorem gathers1_sub : ∀ op ∈ (gathers1 (F := F)), op ∈ (ops (F := F)) := fun op h => by
  rw [ops_cut]; simp only [List.mem_append, h, true_or, or_true]
theorem hop1_sub : ∀ op ∈ (hop1 (F := F)), op ∈ (ops (F := F)) := fun op h => by
  rw [ops_cut]; simp only [List.mem_append, h, true_or, or_true]
theorem dense1_sub : ∀ op ∈ (dense1 (F := F)), op ∈ (ops (F := F)) := fun op h => by
  rw [ops_cut]; simp only [List.mem_append, h, true_or, or_true]
theorem relu1_sub : ∀ op ∈ (relu1 (F := F)), op ∈ (ops (F := F)) := fun op h => by
  rw [ops_cut]; simp only [List.mem_append, h, true_or, or_true]
theorem dense2_sub : ∀ op ∈ (dense2 (F := F)), op ∈ (ops (F := F)) := fun op h => by
  rw [ops_cut]; simp only [List.mem_append, h, true_or, or_true]
theorem relu2_sub : ∀ op ∈ (relu2 (F := F)), op ∈ (ops (F := F)) := fun op h => by
  rw [ops_cut]; simp only [List.mem_append, h, true_or, or_true]
theorem dense3_sub : ∀ op ∈ (dense3 (F := F)), op ∈ (ops (F := F)) := fun op h => by
  rw [ops_cut]; simp only [List.mem_append, h, true_or, or_true]
theorem relu3_sub : ∀ op ∈ (relu3 (F := F)), op ∈ (ops (F := F)) := fun op h => by
  rw [ops_cut]; simp only [List.mem_append, h, true_or, or_true]
theorem dense4_sub : ∀ op ∈ (dense4 (F := F)), op ∈ (ops (F := F)) := fun op h => by
  rw [ops_cut]; simp only [List.mem_append, h, true_or, or_true]
theorem relu4_sub : ∀ op ∈ (relu4 (F := F)), op ∈ (ops (F := F)) := fun op h => by
  rw [ops_cut]; simp only [List.mem_append, h, true_or, or_true]
theorem softmax_sub : ∀ op ∈ (softmax (F := F)), op ∈ (ops (F := F)) := fun op h => by
  rw [ops_cut]; simp only [List.mem_append, h, true_or, or_true]

/-! ## The run from the launch contents

The buffers after each stretch, named; what each stretch's result buffer holds then, in terms of the one before; and the
arguments, which no stretch writes. -/

section Run
variable (m : (ℓ : Loc nD τ sig) → Buf (Elt F) ℓ) (c : Dev nD)

/-- The buffers after the first stretch. -/
def B1 : Valuation τ sig (Elt F) := after gathers2 (launchContents m c)
/-- The buffers after the first 2 stretches. -/
def B2 : Valuation τ sig (Elt F) := after hop2 (B1 m c)
/-- The buffers after the first 3 stretches. -/
def B3 : Valuation τ sig (Elt F) := after gathers1 (B2 m c)
/-- The buffers after the first 4 stretches. -/
def B4 : Valuation τ sig (Elt F) := after hop1 (B3 m c)
/-- The buffers after the first 5 stretches. -/
def B5 : Valuation τ sig (Elt F) := after dense1 (B4 m c)
/-- The buffers after the first 6 stretches. -/
def B6 : Valuation τ sig (Elt F) := after relu1 (B5 m c)
/-- The buffers after the first 7 stretches. -/
def B7 : Valuation τ sig (Elt F) := after dense2 (B6 m c)
/-- The buffers after the first 8 stretches. -/
def B8 : Valuation τ sig (Elt F) := after relu2 (B7 m c)
/-- The buffers after the first 9 stretches. -/
def B9 : Valuation τ sig (Elt F) := after dense3 (B8 m c)
/-- The buffers after the first 10 stretches. -/
def B10 : Valuation τ sig (Elt F) := after relu3 (B9 m c)
/-- The buffers after the first 11 stretches. -/
def B11 : Valuation τ sig (Elt F) := after dense4 (B10 m c)
/-- The buffers after the first 12 stretches. -/
def B12 : Valuation τ sig (Elt F) := after relu4 (B11 m c)
/-- The buffers after the first 13 stretches. -/
def B13 : Valuation τ sig (Elt F) := after softmax (B12 m c)

/-- The buffers after the whole list are those after the thirteenth stretch. -/
theorem after_ops : after (ops (F := F)) (launchContents m c) = B13 m c := by
  rw [ops_cut]
  simp only [StableHlo.after_append]
  rfl

theorem B1_arg {r : Ref sig .tc} (hr : r ∉ writtenRefs) : B1 m c (Proc.devRef .tc r) = m ((c.tc : Thread nD τ).loc r) :=
  (keep gathers2_sub _ hr).trans rfl
theorem B2_arg {r : Ref sig .tc} (hr : r ∉ writtenRefs) : B2 m c (Proc.devRef .tc r) = m ((c.tc : Thread nD τ).loc r) :=
  (keep hop2_sub _ hr).trans (B1_arg m c hr)
theorem B3_arg {r : Ref sig .tc} (hr : r ∉ writtenRefs) : B3 m c (Proc.devRef .tc r) = m ((c.tc : Thread nD τ).loc r) :=
  (keep gathers1_sub _ hr).trans (B2_arg m c hr)
theorem B4_arg {r : Ref sig .tc} (hr : r ∉ writtenRefs) : B4 m c (Proc.devRef .tc r) = m ((c.tc : Thread nD τ).loc r) :=
  (keep hop1_sub _ hr).trans (B3_arg m c hr)
theorem B5_arg {r : Ref sig .tc} (hr : r ∉ writtenRefs) : B5 m c (Proc.devRef .tc r) = m ((c.tc : Thread nD τ).loc r) :=
  (keep dense1_sub _ hr).trans (B4_arg m c hr)
theorem B6_arg {r : Ref sig .tc} (hr : r ∉ writtenRefs) : B6 m c (Proc.devRef .tc r) = m ((c.tc : Thread nD τ).loc r) :=
  (keep relu1_sub _ hr).trans (B5_arg m c hr)
theorem B7_arg {r : Ref sig .tc} (hr : r ∉ writtenRefs) : B7 m c (Proc.devRef .tc r) = m ((c.tc : Thread nD τ).loc r) :=
  (keep dense2_sub _ hr).trans (B6_arg m c hr)
theorem B8_arg {r : Ref sig .tc} (hr : r ∉ writtenRefs) : B8 m c (Proc.devRef .tc r) = m ((c.tc : Thread nD τ).loc r) :=
  (keep relu2_sub _ hr).trans (B7_arg m c hr)
theorem B9_arg {r : Ref sig .tc} (hr : r ∉ writtenRefs) : B9 m c (Proc.devRef .tc r) = m ((c.tc : Thread nD τ).loc r) :=
  (keep dense3_sub _ hr).trans (B8_arg m c hr)
theorem B10_arg {r : Ref sig .tc} (hr : r ∉ writtenRefs) : B10 m c (Proc.devRef .tc r) = m ((c.tc : Thread nD τ).loc r) :=
  (keep relu3_sub _ hr).trans (B9_arg m c hr)
theorem B11_arg {r : Ref sig .tc} (hr : r ∉ writtenRefs) : B11 m c (Proc.devRef .tc r) = m ((c.tc : Thread nD τ).loc r) :=
  (keep dense4_sub _ hr).trans (B10_arg m c hr)
theorem B12_arg {r : Ref sig .tc} (hr : r ∉ writtenRefs) : B12 m c (Proc.devRef .tc r) = m ((c.tc : Thread nD τ).loc r) :=
  (keep relu4_sub _ hr).trans (B11_arg m c hr)
theorem B13_arg {r : Ref sig .tc} (hr : r ∉ writtenRefs) : B13 m c (Proc.devRef .tc r) = m ((c.tc : Thread nD τ).loc r) :=
  (keep softmax_sub _ hr).trans (B12_arg m c hr)

/-! What each stretch's result buffer holds, over the launch contents and the buffer the stretch before it left. -/

theorem B1_v13 : B1 m c (Proc.devRef .tc main_v13) = dst2 (x0 (m ((c.tc : Thread nD τ).loc main_arg0)) (m ((c.tc : Thread nD τ).loc main_arg7))) (m ((c.tc : Thread nD τ).loc main_arg4)) :=
  gathers2_v13 (launchContents m c)
theorem B1_v20 : B1 m c (Proc.devRef .tc main_v20) = src2 (x0 (m ((c.tc : Thread nD τ).loc main_arg0)) (m ((c.tc : Thread nD τ).loc main_arg7))) (m ((c.tc : Thread nD τ).loc main_arg2)) :=
  gathers2_v20 (launchContents m c)
theorem B2_v24 : B2 m c (Proc.devRef .tc main_v24)
    = rhop2 (m ((c.tc : Thread nD τ).loc main_arg6)) (src2 (x0 (m ((c.tc : Thread nD τ).loc main_arg0)) (m ((c.tc : Thread nD τ).loc main_arg7))) (m ((c.tc : Thread nD τ).loc main_arg2))) (dst2 (x0 (m ((c.tc : Thread nD τ).loc main_arg0)) (m ((c.tc : Thread nD τ).loc main_arg7))) (m ((c.tc : Thread nD τ).loc main_arg4))) (m ((c.tc : Thread nD τ).loc main_arg8)) :=
  (hop2_v24 (B1 m c)).trans (by rw [B1_arg m c arg6_nw, B1_arg m c arg8_nw, B1_v20, B1_v13])
theorem B3_v31 : B3 m c (Proc.devRef .tc main_v31) = dst1 (B2 m c (Proc.devRef .tc main_v24)) (m ((c.tc : Thread nD τ).loc main_arg3)) :=
  (gathers1_v31 (B2 m c)).trans (by rw [B2_arg m c arg3_nw])
theorem B3_v38 : B3 m c (Proc.devRef .tc main_v38) = src1 (B2 m c (Proc.devRef .tc main_v24)) (m ((c.tc : Thread nD τ).loc main_arg1)) :=
  (gathers1_v38 (B2 m c)).trans (by rw [B2_arg m c arg1_nw])
theorem B4_v41 : B4 m c (Proc.devRef .tc main_v41)
    = rhop1 (m ((c.tc : Thread nD τ).loc main_arg5)) (src1 (B2 m c (Proc.devRef .tc main_v24)) (m ((c.tc : Thread nD τ).loc main_arg1))) (dst1 (B2 m c (Proc.devRef .tc main_v24)) (m ((c.tc : Thread nD τ).loc main_arg3))) (m ((c.tc : Thread nD τ).loc main_arg9)) :=
  (hop1_v41 (B3 m c)).trans (by rw [B3_arg m c arg5_nw, B3_arg m c arg9_nw, B3_v38, B3_v31])
theorem B5_v53 : B5 m c (Proc.devRef .tc main_v53)
    = (addf (Host.dotGeneral dot_S1024x128_S128x64_S1024x64_1_0_0_1_n_n none (unitRows (B4 m c (Proc.devRef .tc main_v41))) (m ((c.tc : Thread nD τ).loc main_arg10)) : (⟨S1024x64, .f32⟩ : BufTy).Contents (Elt F))
      (broadcastInDim S1024x64 ![0, 1] bcast_S1x64_S1024x64_0_1 (broadcastInDim S1x64 ![1] bcast_S64_S1x64_1 (m ((c.tc : Thread nD τ).loc main_arg11)) : (⟨S1x64, .f32⟩ : BufTy).Contents (Elt F)) : (⟨S1024x64, .f32⟩ : BufTy).Contents (Elt F)) : (⟨S1024x64, .f32⟩ : BufTy).Contents (Elt F)) :=
  (dense1_v53 (B4 m c)).trans (by rw [B4_arg m c arg10_nw, B4_arg m c arg11_nw])
theorem B6_v54 : B6 m c (Proc.devRef .tc main_v54)
    = (maximumf (B5 m c (Proc.devRef .tc main_v53)) (broadcastInDim S1024x64 ![] bcast_S_S1024x64 (constant S_ .f32 0x00000000#32) : (⟨S1024x64, .f32⟩ : BufTy).Contents (Elt F)) : (⟨S1024x64, .f32⟩ : BufTy).Contents (Elt F)) := relu1_v54 (B5 m c)
theorem B7_v58 : B7 m c (Proc.devRef .tc main_v58)
    = (addf (Host.dotGeneral dot_S1024x64_S64x32_S1024x32_1_0_0_1_n_n none (B6 m c (Proc.devRef .tc main_v54)) (m ((c.tc : Thread nD τ).loc main_arg12)) : (⟨S1024x32, .f32⟩ : BufTy).Contents (Elt F))
      (broadcastInDim S1024x32 ![0, 1] bcast_S1x32_S1024x32_0_1 (broadcastInDim S1x32 ![1] bcast_S32_S1x32_1 (m ((c.tc : Thread nD τ).loc main_arg13)) : (⟨S1x32, .f32⟩ : BufTy).Contents (Elt F)) : (⟨S1024x32, .f32⟩ : BufTy).Contents (Elt F)) : (⟨S1024x32, .f32⟩ : BufTy).Contents (Elt F)) :=
  (dense2_v58 (B6 m c)).trans (by rw [B6_arg m c arg12_nw, B6_arg m c arg13_nw])
theorem B8_v59 : B8 m c (Proc.devRef .tc main_v59)
    = (maximumf (B7 m c (Proc.devRef .tc main_v58)) (broadcastInDim S1024x32 ![] bcast_S_S1024x32 (constant S_ .f32 0x00000000#32) : (⟨S1024x32, .f32⟩ : BufTy).Contents (Elt F)) : (⟨S1024x32, .f32⟩ : BufTy).Contents (Elt F)) := relu2_v59 (B7 m c)
theorem B9_v63 : B9 m c (Proc.devRef .tc main_v63)
    = (addf (Host.dotGeneral dot_S1024x32_S32x16_S1024x16_1_0_0_1_n_n none (B8 m c (Proc.devRef .tc main_v59)) (m ((c.tc : Thread nD τ).loc main_arg14)) : (⟨S1024x16, .f32⟩ : BufTy).Contents (Elt F))
      (broadcastInDim S1024x16 ![0, 1] bcast_S1x16_S1024x16_0_1 (broadcastInDim S1x16 ![1] bcast_S16_S1x16_1 (m ((c.tc : Thread nD τ).loc main_arg15)) : (⟨S1x16, .f32⟩ : BufTy).Contents (Elt F)) : (⟨S1024x16, .f32⟩ : BufTy).Contents (Elt F)) : (⟨S1024x16, .f32⟩ : BufTy).Contents (Elt F)) :=
  (dense3_v63 (B8 m c)).trans (by rw [B8_arg m c arg14_nw, B8_arg m c arg15_nw])
theorem B10_v64 : B10 m c (Proc.devRef .tc main_v64)
    = (maximumf (B9 m c (Proc.devRef .tc main_v63)) (broadcastInDim S1024x16 ![] bcast_S_S1024x16 (constant S_ .f32 0x00000000#32) : (⟨S1024x16, .f32⟩ : BufTy).Contents (Elt F)) : (⟨S1024x16, .f32⟩ : BufTy).Contents (Elt F)) := relu3_v64 (B9 m c)
theorem B11_v68 : B11 m c (Proc.devRef .tc main_v68)
    = (addf (Host.dotGeneral dot_S1024x16_S16x8_S1024x8_1_0_0_1_n_n none (B10 m c (Proc.devRef .tc main_v64)) (m ((c.tc : Thread nD τ).loc main_arg16)) : (⟨S1024x8, .f32⟩ : BufTy).Contents (Elt F))
      (broadcastInDim S1024x8 ![0, 1] bcast_S1x8_S1024x8_0_1 (broadcastInDim S1x8 ![1] bcast_S8_S1x8_1 (m ((c.tc : Thread nD τ).loc main_arg17)) : (⟨S1x8, .f32⟩ : BufTy).Contents (Elt F)) : (⟨S1024x8, .f32⟩ : BufTy).Contents (Elt F)) : (⟨S1024x8, .f32⟩ : BufTy).Contents (Elt F)) :=
  (dense4_v68 (B10 m c)).trans (by rw [B10_arg m c arg16_nw, B10_arg m c arg17_nw])
theorem B12_v69 : B12 m c (Proc.devRef .tc main_v69)
    = (maximumf (B11 m c (Proc.devRef .tc main_v68)) (broadcastInDim S1024x8 ![] bcast_S_S1024x8 (constant S_ .f32 0x00000000#32) : (⟨S1024x8, .f32⟩ : BufTy).Contents (Elt F)) : (⟨S1024x8, .f32⟩ : BufTy).Contents (Elt F)) := relu4_v69 (B11 m c)
theorem B13_v82 : B13 m c (Proc.devRef .tc main_v82)
    = softmaxCol (addf (Host.dotGeneral dot_S1024x8_S8x1_S1024x1_1_0_0_1_n_n none (B12 m c (Proc.devRef .tc main_v69)) (m ((c.tc : Thread nD τ).loc main_arg18)) : (⟨S1024x1, .f32⟩ : BufTy).Contents (Elt F))
      (broadcastInDim S1024x1 ![0, 1] bcast_S1x1_S1024x1_0_1 (broadcastInDim S1x1 ![1] bcast_S1_S1x1_1 (m ((c.tc : Thread nD τ).loc main_arg19)) : (⟨S1x1, .f32⟩ : BufTy).Contents (Elt F)) : (⟨S1024x1, .f32⟩ : BufTy).Contents (Elt F)) : (⟨S1024x1, .f32⟩ : BufTy).Contents (Elt F)) :=
  (softmax_v82 (B12 m c)).trans (by rw [B12_arg m c arg18_nw, B12_arg m c arg19_nw])

/-- The nine stretches of the tail together: the tail function of what the second-applied hop left. -/
theorem B13_tail : B13 m c (Proc.devRef .tc main_v82)
    = tail (B4 m c (Proc.devRef .tc main_v41)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [B13_v82, B12_v69, B11_v68, B10_v64, B9_v63, B8_v59, B7_v58, B6_v54, B5_v53]
  rfl

/-- After all the operations, the result buffer holds the reference's function of the twenty arguments: the tail of the
    second-applied hop of rows gathered from the first-applied hop of the gathered feature rows. -/
theorem read_v82 : after (ops (F := F)) (launchContents m c) (Proc.devRef .tc main_v82)
    = refFun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [after_ops, B13_tail, B4_v41, B2_v24]
  rfl

end Run

end Cert.RefRead

end
-- ==== Proof.RefRunHand.lean ====
/-
  The reference's run.  Its @main is a straight line of host operations, none of which allocates a buffer, so every
  weakly fair execution terminates with each buffer at the fold of the operations' results over its launch contents.
  No operation writes an argument, so the arguments end as launched; the result buffer ends at the reference's function
  of the arguments (read back stretch by stretch).
-/
import proofs.«179562_j36550171689307_1_alg».proof.Proof.RefRead

set_option maxRecDepth 16384

noncomputable section

namespace Cert.RefRunHand

open Idealize.ShloMosaic Idealize.ShloMosaic.TcCoe Idealize.SL.Sem Idealize.ShloMosaic.StableHlo
open Cert.ReferenceIdeal Cert.ReferenceIdeal.Gen Cert.ReferenceIdeal.ValueP
open Cert.RefFun

variable {F : FTy → Type} [FloatOps F]

set_option maxRecDepth 65536 in
/-- No operation of the reference allocates a buffer. -/
theorem ops_fresh : (ops : List (HloOp τ sig (Elt F))).Forall fun op => op.fresh = ∅ := by
  simp only [List.Forall]; repeat' constructor

section Read

variable (m : (ℓ : Loc nD τ sig) → Buf (Elt F) ℓ) (c : Dev nD)

/-! No operation writes an argument: after all of them each argument's buffer holds its launch contents. -/

theorem read_arg0 : after (ops (F := F)) (launchContents m c) (Proc.devRef .tc main_arg0) = m ((c.tc : Thread nD τ).loc main_arg0) := rfl
theorem read_arg1 : after (ops (F := F)) (launchContents m c) (Proc.devRef .tc main_arg1) = m ((c.tc : Thread nD τ).loc main_arg1) := rfl
theorem read_arg2 : after (ops (F := F)) (launchContents m c) (Proc.devRef .tc main_arg2) = m ((c.tc : Thread nD τ).loc main_arg2) := rfl
theorem read_arg3 : after (ops (F := F)) (launchContents m c) (Proc.devRef .tc main_arg3) = m ((c.tc : Thread nD τ).loc main_arg3) := rfl
theorem read_arg4 : after (ops (F := F)) (launchContents m c) (Proc.devRef .tc main_arg4) = m ((c.tc : Thread nD τ).loc main_arg4) := rfl
theorem read_arg5 : after (ops (F := F)) (launchContents m c) (Proc.devRef .tc main_arg5) = m ((c.tc : Thread nD τ).loc main_arg5) := rfl
theorem read_arg6 : after (ops (F := F)) (launchContents m c) (Proc.devRef .tc main_arg6) = m ((c.tc : Thread nD τ).loc main_arg6) := rfl
theorem read_arg7 : after (ops (F := F)) (launchContents m c) (Proc.devRef .tc main_arg7) = m ((c.tc : Thread nD τ).loc main_arg7) := rfl
theorem read_arg8 : after (ops (F := F)) (launchContents m c) (Proc.devRef .tc main_arg8) = m ((c.tc : Thread nD τ).loc main_arg8) := rfl
theorem read_arg9 : after (ops (F := F)) (launchContents m c) (Proc.devRef .tc main_arg9) = m ((c.tc : Thread nD τ).loc main_arg9) := rfl
theorem read_arg10 : after (ops (F := F)) (launchContents m c) (Proc.devRef .tc main_arg10) = m ((c.tc : Thread nD τ).loc main_arg10) := rfl
theorem read_arg11 : after (ops (F := F)) (launchContents m c) (Proc.devRef .tc main_arg11) = m ((c.tc : Thread nD τ).loc main_arg11) := rfl
theorem read_arg12 : after (ops (F := F)) (launchContents m c) (Proc.devRef .tc main_arg12) = m ((c.tc : Thread nD τ).loc main_arg12) := rfl
theorem read_arg13 : after (ops (F := F)) (launchContents m c) (Proc.devRef .tc main_arg13) = m ((c.tc : Thread nD τ).loc main_arg13) := rfl
theorem read_arg14 : after (ops (F := F)) (launchContents m c) (Proc.devRef .tc main_arg14) = m ((c.tc : Thread nD τ).loc main_arg14) := rfl
theorem read_arg15 : after (ops (F := F)) (launchContents m c) (Proc.devRef .tc main_arg15) = m ((c.tc : Thread nD τ).loc main_arg15) := rfl
theorem read_arg16 : after (ops (F := F)) (launchContents m c) (Proc.devRef .tc main_arg16) = m ((c.tc : Thread nD τ).loc main_arg16) := rfl
theorem read_arg17 : after (ops (F := F)) (launchContents m c) (Proc.devRef .tc main_arg17) = m ((c.tc : Thread nD τ).loc main_arg17) := rfl
theorem read_arg18 : after (ops (F := F)) (launchContents m c) (Proc.devRef .tc main_arg18) = m ((c.tc : Thread nD τ).loc main_arg18) := rfl
theorem read_arg19 : after (ops (F := F)) (launchContents m c) (Proc.devRef .tc main_arg19) = m ((c.tc : Thread nD τ).loc main_arg19) := rfl

end Read

/-- Every weakly fair execution of the reference terminates without a fault, with the result buffer at the
    reference's function of the arguments and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82)
        = refFun (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v82).trans (Cert.RefRead.read_v82 m c),
      (h c main_arg0).trans (read_arg0 m c),
      (h c main_arg1).trans (read_arg1 m c),
      (h c main_arg2).trans (read_arg2 m c),
      (h c main_arg3).trans (read_arg3 m c),
      (h c main_arg4).trans (read_arg4 m c),
      (h c main_arg5).trans (read_arg5 m c),
      (h c main_arg6).trans (read_arg6 m c),
      (h c main_arg7).trans (read_arg7 m c),
      (h c main_arg8).trans (read_arg8 m c),
      (h c main_arg9).trans (read_arg9 m c),
      (h c main_arg10).trans (read_arg10 m c),
      (h c main_arg11).trans (read_arg11 m c),
      (h c main_arg12).trans (read_arg12 m c),
      (h c main_arg13).trans (read_arg13 m c),
      (h c main_arg14).trans (read_arg14 m c),
      (h c main_arg15).trans (read_arg15 m c),
      (h c main_arg16).trans (read_arg16 m c),
      (h c main_arg17).trans (read_arg17 m c),
      (h c main_arg18).trans (read_arg18 m c),
      (h c main_arg19).trans (read_arg19 m c)⟩)
    (run_seq scopedRefs_eq scopedSems_eq defs main (fun _ => ops) main_eq (fun _ => ops_sub) m ρ
      (fun _ op hop => (List.forall_iff_forall_mem.mp ops_fresh) op hop))

end Cert.RefRunHand

end
-- ==== Proof.RefFrame.lean ====
/-
  The reference program is a straight line of host operations: two row gathers feeding a matrix product, a
  concatenation with a third gather, a product with the layer's weights (a ReLU after the first hop only), then the
  row-wise normalisation, five dense layers and a softmax over a single column.  Its run is the composition of those
  operations, so every execution ends and leaves the arguments as they were.
-/
import proofs.«179562_j36550171689307_1_alg».proof.Defs
import proofs.«179562_j36550171689307_1_alg».proof.Proof.RefRunHand

noncomputable section

namespace Cert.Proof.RefFrame

open Idealize.ShloMosaic Idealize.SL.Sem

/-- Every execution of the reference terminates without a fault and leaves each argument array unchanged: the
    run with the result's value dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.RefRunHand.run (F := Ideal) m ρ)

end Cert.Proof.RefFrame

end
-- ==== Proof.lean ====
/-
  A two-hop graph-convolution kernel against its jnp reference, over the extended reals.

  Each hop multiplies a diffusion matrix by gathered source rows and mixes the result with gathered destination rows
  through the two halves of a 256-row weight matrix (with a maximum against zero after the hop applied first); a tail of
  row normalisation, five dense layers and a softmax over one column follows.  The kernel runs each hop as a pallas_call
  over a grid (row-blocks × reduction steps): a scratch block is zeroed at the first step of a row-block, the product of
  the current tiles is added at every step, and at the last step the finished sum and the destination rows meet the
  two weight halves.  The reference forms the whole product at once, concatenates it with the destination rows along
  the feature axis and multiplies by the whole weight matrix.

  The two agree at the exact instance because (i) changes of float format are the identity there, (ii) a product into a
  zero accumulator and the host's product are the same sums, (iii) the sum over all source rows is the sum of the tile
  sums added one after the other onto zero, and (iv) a sum over the 256 concatenated columns is the sum over the first
  128 plus the sum over the last 128 — all four by commutativity and associativity of + on the extended reals with 0 as
  its unit, so the finiteness of the inputs is never used.  The gathers and the tail are the same functions on both sides.

  The frames: the kernel's program (at both instances) is host stretches around two segments, one per pallas_call, whose
  proof data name every staging block and the scratch point by point; the reference is a straight line of host
  operations.  The ideal pass rewrote nothing, so `preserves` has no conjunct.
-/
import proofs.«179562_j36550171689307_1_alg».proof.Defs
import proofs.«179562_j36550171689307_1_alg».proof.Proof.Gen.Kernel
import proofs.«179562_j36550171689307_1_alg».proof.Proof.Gen.KernelIdeal
import proofs.«179562_j36550171689307_1_alg».proof.Proof.Gen.ReferenceIdeal
import proofs.«179562_j36550171689307_1_alg».proof.Proof.Gen.Pre_finite_inputs
import proofs.«179562_j36550171689307_1_alg».proof.Proof.KRegions
import proofs.«179562_j36550171689307_1_alg».proof.Proof.KiResult
import proofs.«179562_j36550171689307_1_alg».proof.Proof.RefFrame
import Idealize.ShloMosaic.Adequacy
import Idealize.ShloMosaic.Init

noncomputable section

namespace Cert.Proof

open Idealize.ShloMosaic Idealize.SL.Sem

/-- The kernel's program as printed runs to the end and leaves its arguments unchanged. -/
theorem frame_k : Cert.frame_Kernel := fun m ρ _ => Cert.Kernel.Hops.frame m ρ

/-- So does its idealization. -/
theorem frame_ki : Cert.frame_KernelIdeal := fun m ρ _ => Cert.KernelIdeal.Hops.frame m ρ

/-- The ideal pass rewrote no operation. -/
theorem preserves : Cert.preserves_Kernel_KernelIdeal := trivial

set_option maxHeartbeats 8000000 in
/-- Both programs end with one function of the arguments: the kernel's two pallas_calls leave the hop function of the
    arrays they read, between the same gathers and before the same tail as the reference's; the reference's spelling of
    a hop is that function; and the arguments agree. -/
theorem algebraic : Cert.algebraic_KernelIdeal_ReferenceIdeal := by
  intro m ρ m' ρ' _ hagree
  refine ⟨fun c => Cert.RefFun.kerFun (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun _ h c => ⟨(h c).1.trans (Cert.KernelIdeal.Hops.result_eq m c), (h c).2⟩)
      (Cert.KernelIdeal.Hops.run_value (F := Ideal) m ρ)
  · refine (θ_run Cert.ReferenceIdeal.defs _ _).mono (fun _ h c => ⟨(h c).1.trans ?_, (h c).2⟩)
      (Cert.RefRunHand.run (F := Ideal) m' ρ')
    obtain ⟨h0, h1, h2, h3, h4, h5, h6, h7, h8, h9, h10, h11, h12, h13, h14, h15, h16, h17, h18, h19⟩ := hagree c
    rw [h0, h1, h2, h3, h4, h5, h6, h7, h8, h9, h10, h11, h12, h13, h14, h15, h16, h17, h18, h19]
    exact Cert.RefFun.fun_eq ..

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
